-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_v49) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v128) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000x32 : Shape := ⟨2, ![1600000, 32]⟩
abbrev S160x128 : Shape := ⟨2, ![160, 128]⟩
abbrev S128 : Shape := ⟨1, ![128]⟩
abbrev S128x64 : Shape := ⟨2, ![128, 64]⟩
abbrev S64 : Shape := ⟨1, ![64]⟩
abbrev S192x64 : Shape := ⟨2, ![192, 64]⟩
abbrev S192 : Shape := ⟨1, ![192]⟩
abbrev S128x32 : Shape := ⟨2, ![128, 32]⟩
abbrev S32 : Shape := ⟨1, ![32]⟩
abbrev S2x1600000 : Shape := ⟨2, ![2, 1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S160x128 : S_.BroadcastsInDim S160x128 (![] : Fin 0 → Fin S160x128.rank)
  reducesTo_S160x128_S_d0_1 : S160x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S192x64 : S_.BroadcastsInDim S192x64 (![] : Fin 0 → Fin S192x64.rank)
  reducesTo_S192x64_S_d0_1 : S192x64.ReducesTo [0, 1] S_
  bcast_S_S192 : S_.BroadcastsInDim S192 (![] : Fin 0 → Fin S192.rank)
  reducesTo_S192_S_d0 : S192.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part5 {F : FTy → Type} [FloatOps F] (main_v78 : IVec S_ 1) (main_v84 : IVec S_ 1) : IVec S_ 1 :=
  let main_v85 : IVec S_ 1 := andi main_v78 main_v84
  main_v85

def fn_part4 {F : FTy → Type} [FloatOps F] (main_arg14 : FVec F S128x32 .f32) (main_arg15 : FVec F S32 .f32) (main_arg16 : IVec S2x1600000 32) (main_v63 : IVec S_ 1) (main_v67 : IVec S_ 1) : IVec S_ 1 :=
  let main_v68 : IVec S_ 1 := andi main_v63 main_v67
  let main_v69 : FVec F S128x32 .f32 := Host.absf main_arg14
  let main_cst_26 : FVec F S_ .f32 := constant S_ .f32 0x7F800000#32
  let main_v70 : FVec F S128x32 .f32 := broadcastInDim S128x32 ![] bcast_S_S128x32 main_cst_26
  let main_v71 : IVec S128x32 1 := cmpf .olt main_v69 main_v70
  let main_c_27 : IVec S_ 1 := constantI S_ 1 1#1
  let main_v72 : IVec S_ 1 := (fun x v => Host.reduce IntOp.andi x v reducesTo_S128x32_S_d0_1 h_S_) main_v71 main_c_27
  let main_v73 : IVec S_ 1 := andi main_v68 main_v72
  let main_v74 : FVec F S32 .f32 := Host.absf main_arg15
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_c_30 : IVec S_ 32 := constantI S_ 32 0#32
  let main_v79 : IVec S2x1600000 32 := broadcastInDim S2x1600000 ![] bcast_S_S2x1600000 main_c_30
  let main_v80 : IVec S2x1600000 1 := cmpi .sge main_arg16 main_v79
  let main_c_31 : IVec S_ 32 := constantI S_ 32 100000#32
  let main_v81 : IVec S2x1600000 32 := broadcastInDim S2x1600000 ![] bcast_S_S2x1600000 main_c_31
  let main_v82 : IVec S2x1600000 1 := cmpi .slt main_arg16 main_v81
  let main_v83 : IVec S2x1600000 1 := andi main_v80 main_v82
  let main_c_32 : IVec S_ 1 := constantI S_ 1 1#1
  let main_v84 : IVec S_ 1 := (fun x v => Host.reduce IntOp.andi x v reducesTo_S2x1600000_S_d0_1 h_S_) main_v83 main_c_32
  fn_part5 (F := F) main_v78 main_v84

def fn_part3 {F : FTy → Type} [FloatOps F] (main_arg11 : FVec F S64 .f32) (main_arg12 : FVec F S160x128 .f32) (main_arg13 : FVec F S128 .f32) (main_arg14 : FVec F S128x32 .f32) (main_arg15 : FVec F S32 .f32) (main_arg16 : IVec S2x1600000 32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S160x128 .f32 := Host.absf main_arg12
  let main_cst_22 : FVec F S_ .f32 := constant S_ .f32 0x7F800000#32
  let main_v60 : FVec F S160x128 .f32 := broadcastInDim S160x128 ![] bcast_S_S160x128 main_cst_22
  let main_v61 : IVec S160x128 1 := cmpf .olt main_v59 main_v60
  let main_c_23 : IVec S_ 1 := constantI S_ 1 1#1
  let main_v62 : IVec S_ 1 := (fun x v => Host.reduce IntOp.andi x v reducesTo_S160x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_v63 main_v67

def fn_part2 {F : FTy → Type} [FloatOps F] (main_arg7 : FVec F S192x64 .f32) (main_arg8 : FVec F S192 .f32) (main_arg9 : FVec F S192 .f32) (main_arg10 : FVec F S64 .f32) (main_arg11 : FVec F S64 .f32) (main_arg12 : FVec F S160x128 .f32) (main_arg13 : FVec F S128 .f32) (main_arg14 : FVec F S128x32 .f32) (main_arg15 : FVec F S32 .f32) (main_arg16 : IVec S2x1600000 32) (main_v33 : IVec S_ 1) : IVec S_ 1 :=
  let main_v34 : FVec F S192x64 .f32 := Host.absf main_arg7
  let main_cst_12 : FVec F S_ .f32 := constant S_ .f32 0x7F800000#32
  let main_v35 : FVec F S192x64 .f32 := broadcastInDim S192x64 ![] bcast_S_S192x64 main_cst_12
  let main_v36 : IVec S192x64 1 := cmpf .olt main_v34 main_v35
  let main_c_13 : IVec S_ 1 := constantI S_ 1 1#1
  let main_v37 : IVec S_ 1 := (fun x v => Host.reduce IntOp.andi x v reducesTo_S192x64_S_d0_1 h_S_) main_v36 main_c_13
  let main_v38 : IVec S_ 1 := andi main_v33 main_v37
  let main_v39 : FVec F S192 .f32 := Host.absf main_arg8
  let main_cst_14 : FVec F S_ .f32 := constant S_ .f32 0x7F800000#32
  let main_v40 : FVec F S192 .f32 := broadcastInDim S192 ![] bcast_S_S192 main_cst_14
  let main_v41 : IVec S192 1 := cmpf .olt main_v39 main_v40
  let main_c_15 : IVec S_ 1 := constantI S_ 1 1#1
  let main_v42 : IVec S_ 1 := (fun x v => Host.reduce IntOp.andi x v reducesTo_S192_S_d0 h_S_) main_v41 main_c_15
  let main_v43 : IVec S_ 1 := andi main_v38 main_v42
  let main_v44 : FVec F S192 .f32 := Host.absf main_arg9
  let main_cst_16 : FVec F S_ .f32 := constant S_ .f32 0x7F800000#32
  let main_v45 : FVec F S192 .f32 := broadcastInDim S192 ![] bcast_S_S192 main_cst_16
  let main_v46 : IVec S192 1 := cmpf .olt main_v44 main_v45
  let main_c_17 : IVec S_ 1 := constantI S_ 1 1#1
  let main_v47 : IVec S_ 1 := (fun x v => Host.reduce IntOp.andi x v reducesTo_S192_S_d0 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_arg15 main_arg16 main_v48 main_v49 main_v50

def fn_part1 {F : FTy → Type} [FloatOps F] (main_arg4 : FVec F S128x64 .f32) (main_arg5 : FVec F S64 .f32) (main_arg6 : FVec F S192x64 .f32) (main_arg7 : FVec F S192x64 .f32) (main_arg8 : FVec F S192 .f32) (main_arg9 : FVec F S192 .f32) (main_arg10 : FVec F S64 .f32) (main_arg11 : FVec F S64 .f32) (main_arg12 : FVec F S160x128 .f32) (main_arg13 : FVec F S128 .f32) (main_arg14 : FVec F S128x32 .f32) (main_arg15 : FVec F S32 .f32) (main_arg16 : IVec S2x1600000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S192x64 .f32 := Host.absf main_arg6
  let main_cst_10 : FVec F S_ .f32 := constant S_ .f32 0x7F800000#32
  let main_v30 : FVec F S192x64 .f32 := broadcastInDim S192x64 ![] bcast_S_S192x64 main_cst_10
  let main_v31 : IVec S192x64 1 := cmpf .olt main_v29 main_v30
  let main_c_11 : IVec S_ 1 := constantI S_ 1 1#1
  let main_v32 : IVec S_ 1 := (fun x v => Host.reduce IntOp.andi x v reducesTo_S192x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S100000x64 .f32) (main_arg1 : FVec F S1600000x32 .f32) (main_arg2 : FVec F S160x128 .f32) (main_arg3 : FVec F S128 .f32) (main_arg4 : FVec F S128x64 .f32) (main_arg5 : FVec F S64 .f32) (main_arg6 : FVec F S192x64 .f32) (main_arg7 : FVec F S192x64 .f32) (main_arg8 : FVec F S192 .f32) (main_arg9 : FVec F S192 .f32) (main_arg10 : FVec F S64 .f32) (main_arg11 : FVec F S64 .f32) (main_arg12 : FVec F S160x128 .f32) (main_arg13 : FVec F S128 .f32) (main_arg14 : FVec F S128x32 .f32) (main_arg15 : FVec F S32 .f32) (main_arg16 : IVec S2x1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x32 .f32 := Host.absf main_arg1
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S160x128 .f32 := Host.absf main_arg2
  let main_cst_2 : FVec F S_ .f32 := constant S_ .f32 0x7F800000#32
  let main_v10 : FVec F S160x128 .f32 := broadcastInDim S160x128 ![] bcast_S_S160x128 main_cst_2
  let main_v11 : IVec S160x128 1 := cmpf .olt main_v9 main_v10
  let main_c_3 : IVec S_ 1 := constantI S_ 1 1#1
  let main_v12 : IVec S_ 1 := (fun x v => Host.reduce IntOp.andi x v reducesTo_S160x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S100000x64 : Shape := ⟨2, ![100000, 64]⟩
abbrev S1600000x32 : Shape := ⟨2, ![1600000, 32]⟩
abbrev S160x128 : Shape := ⟨2, ![160, 128]⟩
abbrev S128 : Shape := ⟨1, ![128]⟩
abbrev S128x64 : Shape := ⟨2, ![128, 64]⟩
abbrev S64 : Shape := ⟨1, ![64]⟩
abbrev S192x64 : Shape := ⟨2, ![192, 64]⟩
abbrev S192 : Shape := ⟨1, ![192]⟩
abbrev S128x32 : Shape := ⟨2, ![128, 32]⟩
abbrev S32 : Shape := ⟨1, ![32]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x64 : Shape := ⟨2, ![1600000, 64]⟩
abbrev S64x128 : Shape := ⟨2, ![64, 128]⟩
abbrev S32x128 : Shape := ⟨2, ![32, 128]⟩
abbrev S1x128 : Shape := ⟨2, ![1, 128]⟩
abbrev S1x64 : Shape := ⟨2, ![1, 64]⟩
abbrev S8000x64 : Shape := ⟨2, ![8000, 64]⟩
abbrev S8000x32 : Shape := ⟨2, ![8000, 32]⟩
abbrev S8000x128 : Shape := ⟨2, ![8000, 128]⟩
abbrev S64x64 : Shape := ⟨2, ![64, 64]⟩
abbrev S5000x64 : Shape := ⟨2, ![5000, 64]⟩
abbrev S5000 : Shape := ⟨1, ![5000]⟩
abbrev S5000x1 : Shape := ⟨2, ![5000, 1]⟩
abbrev S1x32 : Shape := ⟨2, ![1, 32]⟩

abbrev nBuf : Space → Nat
  | .hbm => 156
  | .vmem => 48
  | .smem => 0
  | _ => 0

abbrev hbmTy0_0 (i : Nat) : BufTy := match i % 128 with
  | 0 => ⟨S100000x64, .f32⟩
  | 1 => ⟨S1600000x32, .f32⟩
  | 2 => ⟨S160x128, .f32⟩
  | 3 => ⟨S128, .f32⟩
  | 4 => ⟨S128x64, .f32⟩
  | 5 => ⟨S64, .f32⟩
  | 6 => ⟨S192x64, .f32⟩
  | 7 => ⟨S192x64, .f32⟩
  | 8 => ⟨S192, .f32⟩
  | 9 => ⟨S192, .f32⟩
  | 10 => ⟨S64, .f32⟩
  | 11 => ⟨S64, .f32⟩
  | 12 => ⟨S160x128, .f32⟩
  | 13 => ⟨S128, .f32⟩
  | 14 => ⟨S128x32, .f32⟩
  | 15 => ⟨S32, .f32⟩
  | 16 => ⟨S2x1600000, .i32⟩
  | 17 => ⟨S1x1600000, .i32⟩
  | 18 => ⟨S1600000, .i32⟩
  | 19 => ⟨S1x1600000, .i32⟩
  | 20 => ⟨S1600000, .i32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1, .i32⟩
  | 30 => ⟨S_, .i32⟩
  | 31 => ⟨S1600000x1, .i32⟩
  | 32 => ⟨S1600000x1, .i1⟩
  | 33 => ⟨S1x1, .i32⟩
  | 34 => ⟨S1600000x1, .i32⟩
  | 35 => ⟨S1600000x1, .i1⟩
  | 36 => ⟨S1600000x1, .i1⟩
  | 37 => ⟨S_, .i1⟩
  | 38 => ⟨S1600000, .i1⟩
  | 39 => ⟨S1600000x64, .f32⟩
  | 40 => ⟨S1600000x64, .i1⟩
  | 41 => ⟨S_, .f32⟩
  | 42 => ⟨S1600000x64, .f32⟩
  | 43 => ⟨S1600000x64, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1, .i32⟩
  | 53 => ⟨S_, .i32⟩
  | 54 => ⟨S1600000x1, .i32⟩
  | 55 => ⟨S1600000x1, .i1⟩
  | 56 => ⟨S1x1, .i32⟩
  | 57 => ⟨S1600000x1, .i32⟩
  | 58 => ⟨S1600000x1, .i1⟩
  | 59 => ⟨S1600000x1, .i1⟩
  | 60 => ⟨S_, .i1⟩
  | 61 => ⟨S1600000, .i1⟩
  | 62 => ⟨S1600000x64, .f32⟩
  | 63 => ⟨S1600000x64, .i1⟩
  | 64 => ⟨S_, .f32⟩
  | 65 => ⟨S1600000x64, .f32⟩
  | 66 => ⟨S1600000x64, .f32⟩
  | 67 => ⟨S64x128, .f32⟩
  | 68 => ⟨S64x128, .f32⟩
  | 69 => ⟨S32x128, .f32⟩
  | 70 => ⟨S1x128, .f32⟩
  | 71 => ⟨S1x64, .f32⟩
  | 72 => ⟨S1600000x64, .f32⟩
  | 73 => ⟨S_, .f32⟩
  | 74 => ⟨S100000x64, .f32⟩
  | 75 => ⟨S1600000x1, .i32⟩
  | 76 => ⟨S100000x64, .f32⟩
  | 77 => ⟨S64x64, .f32⟩
  | 78 => ⟨S64x64, .f32⟩
  | 79 => ⟨S64x64, .f32⟩
  | 80 => ⟨S64x64, .f32⟩
  | 81 => ⟨S64x64, .f32⟩
  | 82 => ⟨S64x64, .f32⟩
  | 83 => ⟨S64, .f32⟩
  | 84 => ⟨S64, .f32⟩
  | 85 => ⟨S64, .f32⟩
  | 86 => ⟨S64, .f32⟩
  | 87 => ⟨S64, .f32⟩
  | 88 => ⟨S64, .f32⟩
  | 89 => ⟨S64x64, .f32⟩
  | 90 => ⟨S64x64, .f32⟩
  | 91 => ⟨S64x64, .f32⟩
  | 92 => ⟨S64x64, .f32⟩
  | 93 => ⟨S64x64, .f32⟩
  | 94 => ⟨S64x64, .f32⟩
  | 95 => ⟨S1x64, .f32⟩
  | 96 => ⟨S1x64, .f32⟩
  | 97 => ⟨S1x64, .f32⟩
  | 98 => ⟨S1x64, .f32⟩
  | 99 => ⟨S1x64, .f32⟩
  | 100 => ⟨S1x64, .f32⟩
  | 101 => ⟨S1x64, .f32⟩
  | 102 => ⟨S1x64, .f32⟩
  | 103 => ⟨S100000x64, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1, .i32⟩
  | 113 => ⟨S_, .i32⟩
  | 114 => ⟨S1600000x1, .i32⟩
  | 115 => ⟨S1600000x1, .i1⟩
  | 116 => ⟨S1x1, .i32⟩
  | 117 => ⟨S1600000x1, .i32⟩
  | 118 => ⟨S1600000x1, .i1⟩
  | 119 => ⟨S1600000x1, .i1⟩
  | 120 => ⟨S_, .i1⟩
  | 121 => ⟨S1600000, .i1⟩
  | 122 => ⟨S1600000x64, .f32⟩
  | 123 => ⟨S1600000x64, .i1⟩
  | 124 => ⟨S_, .f32⟩
  | 125 => ⟨S1600000x64, .f32⟩
  | 126 => ⟨S1600000x64, .f32⟩
  | 127 => ⟨S_, .i32⟩
  | _ => ⟨S100000x64, .f32⟩

abbrev hbmTy0_1 (i : Nat) : BufTy := match i % 128 with
  | 0 => ⟨S1600000, .i32⟩
  | 1 => ⟨S1600000, .i1⟩
  | 2 => ⟨S_, .i32⟩
  | 3 => ⟨S1600000, .i32⟩
  | 4 => ⟨S1600000, .i32⟩
  | 5 => ⟨S1600000, .i32⟩
  | 6 => ⟨S1600000x1, .i32⟩
  | 7 => ⟨S1, .i32⟩
  | 8 => ⟨S_, .i32⟩
  | 9 => ⟨S1600000x1, .i32⟩
  | 10 => ⟨S1600000x1, .i1⟩
  | 11 => ⟨S1x1, .i32⟩
  | 12 => ⟨S1600000x1, .i32⟩
  | 13 => ⟨S1600000x1, .i1⟩
  | 14 => ⟨S1600000x1, .i1⟩
  | 15 => ⟨S_, .i1⟩
  | 16 => ⟨S1600000, .i1⟩
  | 17 => ⟨S1600000x64, .f32⟩
  | 18 => ⟨S1600000x64, .i1⟩
  | 19 => ⟨S_, .f32⟩
  | 20 => ⟨S1600000x64, .f32⟩
  | 21 => ⟨S1600000x64, .f32⟩
  | 22 => ⟨S64x128, .f32⟩
  | 23 => ⟨S64x128, .f32⟩
  | 24 => ⟨S32x128, .f32⟩
  | 25 => ⟨S1x128, .f32⟩
  | 26 => ⟨S1x32, .f32⟩
  | 27 => ⟨S1600000x32, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S8000x32, .f32⟩
  | .local _ .vmem, ⟨5, _⟩ => ⟨S8000x32, .f32⟩
  | .local _ .vmem, ⟨6, _⟩ => ⟨S64x128, .f32⟩
  | .local _ .vmem, ⟨7, _⟩ => ⟨S64x128, .f32⟩
  | .local _ .vmem, ⟨8, _⟩ => ⟨S32x128, .f32⟩
  | .local _ .vmem, ⟨9, _⟩ => ⟨S1x128, .f32⟩
  | .local _ .vmem, ⟨10, _⟩ => ⟨S128x64, .f32⟩
  | .local _ .vmem, ⟨11, _⟩ => ⟨S1x64, .f32⟩
  | .local _ .vmem, ⟨12, _⟩ => ⟨S8000x64, .f32⟩
  | .local _ .vmem, ⟨13, _⟩ => ⟨S8000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S64x64, .f32⟩
  | .local _ .vmem, ⟨20, _⟩ => ⟨S64x64, .f32⟩
  | .local _ .vmem, ⟨21, _⟩ => ⟨S64x64, .f32⟩
  | .local _ .vmem, ⟨22, _⟩ => ⟨S64x64, .f32⟩
  | .local _ .vmem, ⟨23, _⟩ => ⟨S64x64, .f32⟩
  | .local _ .vmem, ⟨24, _⟩ => ⟨S1x64, .f32⟩
  | .local _ .vmem, ⟨25, _⟩ => ⟨S1x64, .f32⟩
  | .local _ .vmem, ⟨26, _⟩ => ⟨S1x64, .f32⟩
  | .local _ .vmem, ⟨27, _⟩ => ⟨S1x64, .f32⟩
  | .local _ .vmem, ⟨28, _⟩ => ⟨S1x64, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | .local _ .vmem, ⟨34, _⟩ => ⟨S8000x64, .f32⟩
  | .local _ .vmem, ⟨35, _⟩ => ⟨S8000x64, .f32⟩
  | .local _ .vmem, ⟨36, _⟩ => ⟨S8000x64, .f32⟩
  | .local _ .vmem, ⟨37, _⟩ => ⟨S8000x64, .f32⟩
  | .local _ .vmem, ⟨38, _⟩ => ⟨S8000x32, .f32⟩
  | .local _ .vmem, ⟨39, _⟩ => ⟨S8000x32, .f32⟩
  | .local _ .vmem, ⟨40, _⟩ => ⟨S64x128, .f32⟩
  | .local _ .vmem, ⟨41, _⟩ => ⟨S64x128, .f32⟩
  | .local _ .vmem, ⟨42, _⟩ => ⟨S32x128, .f32⟩
  | .local _ .vmem, ⟨43, _⟩ => ⟨S1x128, .f32⟩
  | .local _ .vmem, ⟨44, _⟩ => ⟨S128x32, .f32⟩
  | .local _ .vmem, ⟨45, _⟩ => ⟨S1x32, .f32⟩
  | .local _ .vmem, ⟨46, _⟩ => ⟨S8000x32, .f32⟩
  | .local _ .vmem, ⟨47, _⟩ => ⟨S8000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v4 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v5 : Ref sig .tc := ⟨.hbm, 66, rfl⟩
abbrev main_v6 : Ref sig .tc := ⟨.hbm, 67, rfl⟩
abbrev main_v7 : Ref sig .tc := ⟨.hbm, 68, rfl⟩
abbrev main_v8 : Ref sig .tc := ⟨.hbm, 69, rfl⟩
abbrev main_v9 : Ref sig .tc := ⟨.hbm, 70, rfl⟩
abbrev main_v10 : Ref sig .tc := ⟨.hbm, 71, rfl⟩
abbrev main_v11 : Ref sig .tc := ⟨.hbm, 72, rfl⟩
abbrev main_cst : Ref sig .tc := ⟨.hbm, 73, rfl⟩
abbrev main_v12 : Ref sig .tc := ⟨.hbm, 74, rfl⟩
abbrev main_v13 : Ref sig .tc := ⟨.hbm, 75, rfl⟩
abbrev main_v14 : Ref sig .tc := ⟨.hbm, 76, rfl⟩
abbrev main_v15 : Ref sig .tc := ⟨.hbm, 77, rfl⟩
abbrev main_v16 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_call2_c : Ref sig .tc := ⟨.hbm, 104, rfl⟩
abbrev main_call2_v0 : Ref sig .tc := ⟨.hbm, 105, rfl⟩
abbrev main_call2_v1 : Ref sig .tc := ⟨.hbm, 106, rfl⟩
abbrev main_call2_c_0 : Ref sig .tc := ⟨.hbm, 107, rfl⟩
abbrev main_call2_v2 : Ref sig .tc := ⟨.hbm, 108, rfl⟩
abbrev main_call2_v3 : Ref sig .tc := ⟨.hbm, 109, rfl⟩
abbrev main_call2_v4 : Ref sig .tc := ⟨.hbm, 110, rfl⟩
abbrev main_call2_v5 : Ref sig .tc := ⟨.hbm, 111, rfl⟩
abbrev main_call2_c_1 : Ref sig .tc := ⟨.hbm, 112, rfl⟩
abbrev main_call2_c_2 : Ref sig .tc := ⟨.hbm, 113, rfl⟩
abbrev main_call2_v6 : Ref sig .tc := ⟨.hbm, 114, rfl⟩
abbrev main_call2_v7 : Ref sig .tc := ⟨.hbm, 115, rfl⟩
abbrev main_call2_v8 : Ref sig .tc := ⟨.hbm, 116, rfl⟩
abbrev main_call2_v9 : Ref sig .tc := ⟨.hbm, 117, rfl⟩
abbrev main_call2_v10 : Ref sig .tc := ⟨.hbm, 118, rfl⟩
abbrev main_call2_v11 : Ref sig .tc := ⟨.hbm, 119, rfl⟩
abbrev main_call2_c_3 : Ref sig .tc := ⟨.hbm, 120, rfl⟩
abbrev main_call2_v12 : Ref sig .tc := ⟨.hbm, 121, rfl⟩
abbrev main_call2_v13 : Ref sig .tc := ⟨.hbm, 122, rfl⟩
abbrev main_call2_v14 : Ref sig .tc := ⟨.hbm, 123, rfl⟩
abbrev main_call2_cst : Ref sig .tc := ⟨.hbm, 124, rfl⟩
abbrev main_call2_v15 : Ref sig .tc := ⟨.hbm, 125, rfl⟩
abbrev main_v42 : Ref sig .tc := ⟨.hbm, 126, rfl⟩
abbrev main_call3_c : Ref sig .tc := ⟨.hbm, 127, rfl⟩
abbrev main_call3_v0 : Ref sig .tc := ⟨.hbm, 128, rfl⟩
abbrev main_call3_v1 : Ref sig .tc := ⟨.hbm, 129, rfl⟩
abbrev main_call3_c_0 : Ref sig .tc := ⟨.hbm, 130, rfl⟩
abbrev main_call3_v2 : Ref sig .tc := ⟨.hbm, 131, rfl⟩
abbrev main_call3_v3 : Ref sig .tc := ⟨.hbm, 132, rfl⟩
abbrev main_call3_v4 : Ref sig .tc := ⟨.hbm, 133, rfl⟩
abbrev main_call3_v5 : Ref sig .tc := ⟨.hbm, 134, rfl⟩
abbrev main_call3_c_1 : Ref sig .tc := ⟨.hbm, 135, rfl⟩
abbrev main_call3_c_2 : Ref sig .tc := ⟨.hbm, 136, rfl⟩
abbrev main_call3_v6 : Ref sig .tc := ⟨.hbm, 137, rfl⟩
abbrev main_call3_v7 : Ref sig .tc := ⟨.hbm, 138, rfl⟩
abbrev main_call3_v8 : Ref sig .tc := ⟨.hbm, 139, rfl⟩
abbrev main_call3_v9 : Ref sig .tc := ⟨.hbm, 140, rfl⟩
abbrev main_call3_v10 : Ref sig .tc := ⟨.hbm, 141, rfl⟩
abbrev main_call3_v11 : Ref sig .tc := ⟨.hbm, 142, rfl⟩
abbrev main_call3_c_3 : Ref sig .tc := ⟨.hbm, 143, rfl⟩
abbrev main_call3_v12 : Ref sig .tc := ⟨.hbm, 144, rfl⟩
abbrev main_call3_v13 : Ref sig .tc := ⟨.hbm, 145, rfl⟩
abbrev main_call3_v14 : Ref sig .tc := ⟨.hbm, 146, rfl⟩
abbrev main_call3_cst : Ref sig .tc := ⟨.hbm, 147, rfl⟩
abbrev main_call3_v15 : Ref sig .tc := ⟨.hbm, 148, rfl⟩
abbrev main_v43 : Ref sig .tc := ⟨.hbm, 149, rfl⟩
abbrev main_v44 : Ref sig .tc := ⟨.hbm, 150, rfl⟩
abbrev main_v45 : Ref sig .tc := ⟨.hbm, 151, rfl⟩
abbrev main_v46 : Ref sig .tc := ⟨.hbm, 152, rfl⟩
abbrev main_v47 : Ref sig .tc := ⟨.hbm, 153, rfl⟩
abbrev main_v48 : Ref sig .tc := ⟨.hbm, 154, rfl⟩
abbrev main_v49 : Ref sig .tc := ⟨.hbm, 155, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg11_0 : Ref sig .tc := ⟨.vmem, 27, rfl⟩
abbrev cc1_stg12_0 : Ref sig .tc := ⟨.vmem, 28, rfl⟩
abbrev cc1_stg13_0 : Ref sig .tc := ⟨.vmem, 29, rfl⟩
abbrev cc1_stg14_0 : Ref sig .tc := ⟨.vmem, 30, rfl⟩
abbrev cc1_stg15_0 : Ref sig .tc := ⟨.vmem, 31, rfl⟩
abbrev cc1_stg16_0 : Ref sig .tc := ⟨.vmem, 32, rfl⟩
abbrev cc1_stg16_1 : Ref sig .tc := ⟨.vmem, 33, rfl⟩
abbrev cc2_stg0_0 : Ref sig .tc := ⟨.vmem, 34, rfl⟩
abbrev cc2_stg0_1 : Ref sig .tc := ⟨.vmem, 35, rfl⟩
abbrev cc2_stg1_0 : Ref sig .tc := ⟨.vmem, 36, rfl⟩
abbrev cc2_stg1_1 : Ref sig .tc := ⟨.vmem, 37, rfl⟩
abbrev cc2_stg2_0 : Ref sig .tc := ⟨.vmem, 38, rfl⟩
abbrev cc2_stg2_1 : Ref sig .tc := ⟨.vmem, 39, rfl⟩
abbrev cc2_stg3_0 : Ref sig .tc := ⟨.vmem, 40, rfl⟩
abbrev cc2_stg4_0 : Ref sig .tc := ⟨.vmem, 41, rfl⟩
abbrev cc2_stg5_0 : Ref sig .tc := ⟨.vmem, 42, rfl⟩
abbrev cc2_stg6_0 : Ref sig .tc := ⟨.vmem, 43, rfl⟩
abbrev cc2_stg7_0 : Ref sig .tc := ⟨.vmem, 44, rfl⟩
abbrev cc2_stg8_0 : Ref sig .tc := ⟨.vmem, 45, rfl⟩
abbrev cc2_stg9_0 : Ref sig .tc := ⟨.vmem, 46, rfl⟩
abbrev cc2_stg9_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem11_0 : DmaSem sig := 27
abbrev cc1_sem12_0 : DmaSem sig := 28
abbrev cc1_sem13_0 : DmaSem sig := 29
abbrev cc1_sem14_0 : DmaSem sig := 30
abbrev cc1_sem15_0 : DmaSem sig := 31
abbrev cc1_sem16_0 : DmaSem sig := 32
abbrev cc1_sem16_1 : DmaSem sig := 33
abbrev cc2_sem0_0 : DmaSem sig := 34
abbrev cc2_sem0_1 : DmaSem sig := 35
abbrev cc2_sem1_0 : DmaSem sig := 36
abbrev cc2_sem1_1 : DmaSem sig := 37
abbrev cc2_sem2_0 : DmaSem sig := 38
abbrev cc2_sem2_1 : DmaSem sig := 39
abbrev cc2_sem3_0 : DmaSem sig := 40
abbrev cc2_sem4_0 : DmaSem sig := 41
abbrev cc2_sem5_0 : DmaSem sig := 42
abbrev cc2_sem6_0 : DmaSem sig := 43
abbrev cc2_sem7_0 : DmaSem sig := 44
abbrev cc2_sem8_0 : DmaSem sig := 45
abbrev cc2_sem9_0 : DmaSem sig := 46
abbrev cc2_sem9_1 : DmaSem sig := 47

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x64 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x64 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x64 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 2 → Memref sig .tc .vmem S5000x64 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x32 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S8000x32 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  slices_S160x128_S64x128_0_0 : S160x128.Slices ![0, 0] S64x128
  slices_S160x128_S64x128_64_0 : S160x128.Slices ![64, 0] S64x128
  slices_S160x128_S32x128_128_0 : S160x128.Slices ![128, 0] S32x128
  shapeCasts_S128_S1x128 : S128.ShapeCasts S1x128
  shapeCasts_S64_S1x64 : S64.ShapeCasts S1x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bitsLt_bf16_f32 : FTy.bits .bf16 < FTy.bits .f32
  inb_S8000x32_S8000x32_0_0 : ∀ a, (![0, 0] : Fin 2 → Nat) a + S8000x32.size a ≤ S8000x32.size a
  h_S8000x32 : 0 < S8000x32.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  bcast_S_S100000x64 : S_.BroadcastsInDim S100000x64 (![] : Fin 0 → Fin S100000x64.rank)
  slices_S192x64_S64x64_0_0 : S192x64.Slices ![0, 0] S64x64
  slices_S192x64_S64x64_64_0 : S192x64.Slices ![64, 0] S64x64
  slices_S192x64_S64x64_128_0 : S192x64.Slices ![128, 0] S64x64
  slices_S192_S64_0 : S192.Slices ![0] S64
  slices_S192_S64_64 : S192.Slices ![64] S64
  slices_S192_S64_128 : S192.Slices ![128] S64
  transposes_S64x64_S64x64_1_0 : S64x64.Transposes [1, 0] S64x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  shapeCasts_S32_S1x32 : S32.ShapeCasts S1x32
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8000x32 : S1x32.Broadcasts S8000x32
  gather_S100000x64_S1600000x1_S1600000x64_1_0_n_n_0_1_164_wf : GatherDims.WF S100000x64 S1600000x1 S1600000x64 [1] [0] [] [0] [] 1 ![1, 64]
  dot_S8000x64_S64x128_S8000x128_1_0_0_1_n_n_wf : DotDims.WF S8000x64 S64x128 S8000x128 [1] [0] [0] [1] [] []
  dot_S8000x32_S32x128_S8000x128_1_0_0_1_n_n_wf : DotDims.WF S8000x32 S32x128 S8000x128 [1] [0] [0] [1] [] []
  dot_S8000x128_S128x64_S8000x64_1_0_0_1_n_n_wf : DotDims.WF S8000x128 S128x64 S8000x64 [1] [0] [0] [1] [] []
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S8000x128_S128x32_S8000x32_1_0_0_1_n_n_wf : DotDims.WF S8000x128 S128x32 S8000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1600000x64.size a
  hwx0_0 : ∀ i : grid0.Coords, EltTy.bits .f32 = 32 ∨ (Rect.block (s := S1600000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S1600000x64.size a
  hwx0_1 : ∀ i : grid0.Coords, EltTy.bits .f32 = 32 ∨ (Rect.block (s := S1600000x64) S8000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x32.size a ≤ S1600000x32.size a
  hwx0_2 : ∀ i : grid0.Coords, EltTy.bits .f32 = 32 ∨ (Rect.block (s := S1600000x32) S8000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S32x128.size a
  hwx0_5 : ∀ i : grid0.Coords, EltTy.bits .f32 = 32 ∨ (Rect.block (s := S32x128) S32x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .f32 = 32 ∨ (Rect.block (s := S128x64) S128x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8000x64.size a ≤ S1600000x64.size a
  hwx0_9 : ∀ i : grid0.Coords, EltTy.bits .f32 = 32 ∨ (Rect.block (s := S1600000x64) S8000x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x64.size a ≤ S1x64.size a
  hwx1_10 : ∀ i : grid1.Coords, EltTy.bits .f32 = 32 ∨ (Rect.block (s := S1x64) S1x64.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x64.size a ≤ S1x64.size a
  hwx1_11 : ∀ i : grid1.Coords, EltTy.bits .f32 = 32 ∨ (Rect.block (s := S1x64) S1x64.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x64.size a ≤ S1x64.size a
  hwx1_12 : ∀ i : grid1.Coords, EltTy.bits .f32 = 32 ∨ (Rect.block (s := S1x64) S1x64.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x64.size a ≤ S1x64.size a
  hwx1_13 : ∀ i : grid1.Coords, EltTy.bits .f32 = 32 ∨ (Rect.block (s := S1x64) S1x64.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x64.size a ≤ S1x64.size a
  hwx1_14 : ∀ i : grid1.Coords, EltTy.bits .f32 = 32 ∨ (Rect.block (s := S1x64) S1x64.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S1x64.size a ≤ S1x64.size a
  hwx1_15 : ∀ i : grid1.Coords, EltTy.bits .f32 = 32 ∨ (Rect.block (s := S1x64) S1x64.size (cc1_transform_15 i) (hinb1_15 i)).WholeWords (EltTy.packing .f32)
  hstage1_16 : ∀ j, (stage1_16 j).IsWhole
  nbuf1_16 : grid1.bufCount reads1_16 false = 2
  hreads1_16 : ∀ i i' : grid1.Coords, (∀ a, reads1_16 a = true → i a = i' a) → cc1_transform_16 i = cc1_transform_16 i'
  hinb1_16 : ∀ (i : grid1.Coords) a, (cc1_transform_16 i a + 1) * S5000x64.size a ≤ S100000x64.size a
  hwx1_16 : ∀ i : grid1.Coords, EltTy.bits .f32 = 32 ∨ (Rect.block (s := S100000x64) S5000x64.size (cc1_transform_16 i) (hinb1_16 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S1600000x64.size a
  hwx2_0 : ∀ i : grid2.Coords, EltTy.bits .f32 = 32 ∨ (Rect.block (s := S1600000x64) S8000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x64.size a ≤ S1600000x64.size a
  hwx2_1 : ∀ i : grid2.Coords, EltTy.bits .f32 = 32 ∨ (Rect.block (s := S1600000x64) S8000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x32.size a ≤ S1600000x32.size a
  hwx2_2 : ∀ i : grid2.Coords, EltTy.bits .f32 = 32 ∨ (Rect.block (s := S1600000x32) S8000x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x128.size a
  hwx2_3 : ∀ i : grid2.Coords, EltTy.bits .f32 = 32 ∨ (Rect.block (s := S64x128) S64x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x128.size a ≤ S64x128.size a
  hwx2_4 : ∀ i : grid2.Coords, EltTy.bits .f32 = 32 ∨ (Rect.block (s := S64x128) S64x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x128.size a ≤ S32x128.size a
  hwx2_5 : ∀ i : grid2.Coords, EltTy.bits .f32 = 32 ∨ (Rect.block (s := S32x128) S32x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x32.size a ≤ S128x32.size a
  hwx2_7 : ∀ i : grid2.Coords, EltTy.bits .f32 = 32 ∨ (Rect.block (s := S128x32) S128x32.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x32.size a ≤ S1x32.size a
  hwx2_8 : ∀ i : grid2.Coords, EltTy.bits .f32 = 32 ∨ (Rect.block (s := S1x32) S1x32.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S8000x32.size a ≤ S1600000x32.size a
  hwx2_9 : ∀ i : grid2.Coords, EltTy.bits .f32 = 32 ∨ (Rect.block (s := S1600000x32) S8000x32.size (cc2_transform_9 i) (hinb2_9 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def dot_S8000x32_S32x128_S8000x128_1_0_0_1_n_n : DotDims S8000x32 S32x128 S8000x128 where
  lhsContracting := [1]
  rhsContracting := [0]
  lhsNonContracting := [0]
  rhsNonContracting := [1]
  lhsBatch := []
  rhsBatch := []
  wf := dot_S8000x32_S32x128_S8000x128_1_0_0_1_n_n_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S8000x128_S128x32_S8000x32_1_0_0_1_n_n : DotDims S8000x128 S128x32 S8000x32 where
  lhsContracting := [1]
  rhsContracting := [0]
  lhsNonContracting := [0]
  rhsNonContracting := [1]
  lhsBatch := []
  rhsBatch := []
  wf := dot_S8000x128_S128x32_S8000x32_1_0_0_1_n_n_wf

abbrev win0_0 : Pipeline.Window sig grid0 :=
  Pipeline.Window.ofSpec (Memref.whole main_v4) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S8000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S32x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S8000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v14) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v32) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v33) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v34) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v35) S1x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v36) S1x64.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v37) S1x64.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v38) S1x64.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v39) S1x64.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v40) S1x64.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v41) S5000x64.size cc1_transform_16 reads1_16 true false 2 stage1_16 sem1_16
    hrank1 hreads1_16 hinb1_16 nbuf1_16 (Memref.isWhole_whole _) hwx1_16 hstage1_16

abbrev win1 : Fin 17 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | ⟨_ + 17, h⟩ => absurd h (Nat.not_lt.2 (Nat.le_add_left _ _))
abbrev spec1 : Fin 17 → Pipeline.WinSpec sig grid1.rank := fun w => (win1 w).toWinSpec

abbrev win2_0 : Pipeline.Window sig grid2 :=
  Pipeline.Window.ofSpec (Memref.whole main_v42) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S8000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg1) S8000x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v44) S64x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S64x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S32x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v47) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg14) S128x32.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v48) S1x32.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v49) S8000x32.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S100000x64 : Shape := ⟨2, ![100000, 64]⟩
abbrev S1600000x32 : Shape := ⟨2, ![1600000, 32]⟩
abbrev S160x128 : Shape := ⟨2, ![160, 128]⟩
abbrev S128 : Shape := ⟨1, ![128]⟩
abbrev S128x64 : Shape := ⟨2, ![128, 64]⟩
abbrev S64 : Shape := ⟨1, ![64]⟩
abbrev S192x64 : Shape := ⟨2, ![192, 64]⟩
abbrev S192 : Shape := ⟨1, ![192]⟩
abbrev S128x32 : Shape := ⟨2, ![128, 32]⟩
abbrev S32 : Shape := ⟨1, ![32]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1600000x160 : Shape := ⟨2, ![1600000, 160]⟩
abbrev S1600000x128 : Shape := ⟨2, ![1600000, 128]⟩
abbrev S1x128 : Shape := ⟨2, ![1, 128]⟩
abbrev S1x64 : Shape := ⟨2, ![1, 64]⟩
abbrev S64x192 : Shape := ⟨2, ![64, 192]⟩
abbrev S100000x192 : Shape := ⟨2, ![100000, 192]⟩
abbrev S1x192 : Shape := ⟨2, ![1, 192]⟩
abbrev S100000 : Shape := ⟨1, ![100000]⟩
abbrev S100000x1 : Shape := ⟨2, ![100000, 1]⟩
abbrev S1x32 : Shape := ⟨2, ![1, 32]⟩

abbrev nBuf : Space → Nat
  | .hbm => 175
  | .vmem => 0
  | .smem => 0
  | _ => 0

abbrev hbmTy0_0 (i : Nat) : BufTy := match i % 128 with
  | 0 => ⟨S100000x64, .f32⟩
  | 1 => ⟨S1600000x32, .f32⟩
  | 2 => ⟨S160x128, .f32⟩
  | 3 => ⟨S128, .f32⟩
  | 4 => ⟨S128x64, .f32⟩
  | 5 => ⟨S64, .f32⟩
  | 6 => ⟨S192x64, .f32⟩
  | 7 => ⟨S192x64, .f32⟩
  | 8 => ⟨S192, .f32⟩
  | 9 => ⟨S192, .f32⟩
  | 10 => ⟨S64, .f32⟩
  | 11 => ⟨S64, .f32⟩
  | 12 => ⟨S160x128, .f32⟩
  | 13 => ⟨S128, .f32⟩
  | 14 => ⟨S128x32, .f32⟩
  | 15 => ⟨S32, .f32⟩
  | 16 => ⟨S2x1600000, .i32⟩
  | 17 => ⟨S1x1600000, .i32⟩
  | 18 => ⟨S1600000, .i32⟩
  | 19 => ⟨S1x1600000, .i32⟩
  | 20 => ⟨S1600000, .i32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x64, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x64, .f32⟩
  | 39 => ⟨S1600000x160, .f32⟩
  | 40 => ⟨S1600000x128, .f32⟩
  | 41 => ⟨S1x128, .f32⟩
  | 42 => ⟨S1600000x128, .f32⟩
  | 43 => ⟨S1600000x128, .f32⟩
  | 44 => ⟨S_, .f32⟩
  | 45 => ⟨S1600000x128, .f32⟩
  | 46 => ⟨S1600000x128, .f32⟩
  | 47 => ⟨S1600000x64, .f32⟩
  | 48 => ⟨S1x64, .f32⟩
  | 49 => ⟨S1600000x64, .f32⟩
  | 50 => ⟨S1600000x64, .f32⟩
  | 51 => ⟨S_, .f32⟩
  | 52 => ⟨S100000x64, .f32⟩
  | 53 => ⟨S1600000x1, .i32⟩
  | 54 => ⟨S100000x64, .f32⟩
  | 55 => ⟨S64x192, .f32⟩
  | 56 => ⟨S100000x192, .f32⟩
  | 57 => ⟨S1x192, .f32⟩
  | 58 => ⟨S100000x192, .f32⟩
  | 59 => ⟨S100000x192, .f32⟩
  | 60 => ⟨S64x192, .f32⟩
  | 61 => ⟨S100000x192, .f32⟩
  | 62 => ⟨S1x192, .f32⟩
  | 63 => ⟨S100000x192, .f32⟩
  | 64 => ⟨S100000x192, .f32⟩
  | 65 => ⟨S100000x64, .f32⟩
  | 66 => ⟨S100000x64, .f32⟩
  | 67 => ⟨S100000x64, .f32⟩
  | 68 => ⟨S100000x64, .f32⟩
  | 69 => ⟨S100000x64, .f32⟩
  | 70 => ⟨S100000x64, .f32⟩
  | 71 => ⟨S100000x64, .f32⟩
  | 72 => ⟨S100000x64, .f32⟩
  | 73 => ⟨S100000x64, .f32⟩
  | 74 => ⟨S_, .f32⟩
  | 75 => ⟨S100000x64, .f32⟩
  | 76 => ⟨S100000x64, .f32⟩
  | 77 => ⟨S_, .f32⟩
  | 78 => ⟨S100000x64, .f32⟩
  | 79 => ⟨S100000x64, .f32⟩
  | 80 => ⟨S100000x64, .f32⟩
  | 81 => ⟨S100000x64, .f32⟩
  | 82 => ⟨S100000x64, .f32⟩
  | 83 => ⟨S_, .f32⟩
  | 84 => ⟨S100000x64, .f32⟩
  | 85 => ⟨S100000x64, .f32⟩
  | 86 => ⟨S_, .f32⟩
  | 87 => ⟨S100000x64, .f32⟩
  | 88 => ⟨S100000x64, .f32⟩
  | 89 => ⟨S100000x64, .f32⟩
  | 90 => ⟨S100000x64, .f32⟩
  | 91 => ⟨S100000x64, .f32⟩
  | 92 => ⟨S_, .f32⟩
  | 93 => ⟨S100000x64, .f32⟩
  | 94 => ⟨S100000x64, .f32⟩
  | 95 => ⟨S100000x64, .f32⟩
  | 96 => ⟨S100000x64, .f32⟩
  | 97 => ⟨S100000x64, .f32⟩
  | 98 => ⟨S_, .f32⟩
  | 99 => ⟨S100000, .f32⟩
  | 100 => ⟨S100000x1, .f32⟩
  | 101 => ⟨S_, .f32⟩
  | 102 => ⟨S100000x1, .f32⟩
  | 103 => ⟨S100000x1, .f32⟩
  | 104 => ⟨S100000x64, .f32⟩
  | 105 => ⟨S100000x64, .f32⟩
  | 106 => ⟨S100000x64, .f32⟩
  | 107 => ⟨S_, .f32⟩
  | 108 => ⟨S100000, .f32⟩
  | 109 => ⟨S100000x1, .f32⟩
  | 110 => ⟨S_, .f32⟩
  | 111 => ⟨S100000x1, .f32⟩
  | 112 => ⟨S100000x1, .f32⟩
  | 113 => ⟨S100000x64, .f32⟩
  | 114 => ⟨S100000x64, .f32⟩
  | 115 => ⟨S_, .f32⟩
  | 116 => ⟨S100000x1, .f32⟩
  | 117 => ⟨S100000x1, .f32⟩
  | 118 => ⟨S100000x1, .f32⟩
  | 119 => ⟨S100000x64, .f32⟩
  | 120 => ⟨S100000x64, .f32⟩
  | 121 => ⟨S1x64, .f32⟩
  | 122 => ⟨S100000x64, .f32⟩
  | 123 => ⟨S100000x64, .f32⟩
  | 124 => ⟨S1x64, .f32⟩
  | 125 => ⟨S100000x64, .f32⟩
  | 126 => ⟨S100000x64, .f32⟩
  | 127 => ⟨S_, .i32⟩
  | _ => ⟨S100000x64, .f32⟩

abbrev hbmTy0_1 (i : Nat) : BufTy := match i % 128 with
  | 0 => ⟨S1600000, .i32⟩
  | 1 => ⟨S1600000, .i1⟩
  | 2 => ⟨S_, .i32⟩
  | 3 => ⟨S1600000, .i32⟩
  | 4 => ⟨S1600000, .i32⟩
  | 5 => ⟨S1600000, .i32⟩
  | 6 => ⟨S1600000x1, .i32⟩
  | 7 => ⟨S1600000x64, .f32⟩
  | 8 => ⟨S_, .i32⟩
  | 9 => ⟨S1600000, .i32⟩
  | 10 => ⟨S1600000, .i1⟩
  | 11 => ⟨S_, .i32⟩
  | 12 => ⟨S1600000, .i32⟩
  | 13 => ⟨S1600000, .i32⟩
  | 14 => ⟨S1600000, .i32⟩
  | 15 => ⟨S1600000x1, .i32⟩
  | 16 => ⟨S1600000x64, .f32⟩
  | 17 => ⟨S1600000x160, .f32⟩
  | 18 => ⟨S1600000x128, .f32⟩
  | 19 => ⟨S1x128, .f32⟩
  | 20 => ⟨S1600000x128, .f32⟩
  | 21 => ⟨S1600000x128, .f32⟩
  | 22 => ⟨S_, .f32⟩
  | 23 => ⟨S1600000x128, .f32⟩
  | 24 => ⟨S1600000x128, .f32⟩
  | 25 => ⟨S1600000x32, .f32⟩
  | 26 => ⟨S1x32, .f32⟩
  | 27 => ⟨S1600000x32, .f32⟩
  | 28 => ⟨S1600000x32, .f32⟩
  | 29 => ⟨S_, .f32⟩
  | 30 => ⟨S1600000x32, .f32⟩
  | 31 => ⟨S1600000x32, .f32⟩
  | 32 => ⟨S1600000x128, .f32⟩
  | 33 => ⟨S1x128, .f32⟩
  | 34 => ⟨S1600000x128, .f32⟩
  | 35 => ⟨S1600000x128, .f32⟩
  | 36 => ⟨S_, .f32⟩
  | 37 => ⟨S1600000x128, .f32⟩
  | 38 => ⟨S1600000x128, .f32⟩
  | 39 => ⟨S1600000x32, .f32⟩
  | 40 => ⟨S1x32, .f32⟩
  | 41 => ⟨S1600000x32, .f32⟩
  | 42 => ⟨S1600000x32, .f32⟩
  | 43 => ⟨S1600000x32, .f32⟩
  | 44 => ⟨S_, .f32⟩
  | 45 => ⟨S1600000x32, .f32⟩
  | 46 => ⟨S1600000x32, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_1 : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_call0_cst : Ref sig .tc := ⟨.hbm, 44, rfl⟩
abbrev main_call0_v0 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_3 : Ref sig .tc := ⟨.hbm, 74, rfl⟩
abbrev main_v50 : Ref sig .tc := ⟨.hbm, 75, rfl⟩
abbrev main_v51 : Ref sig .tc := ⟨.hbm, 76, rfl⟩
abbrev main_cst_4 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_5 : Ref sig .tc := ⟨.hbm, 83, rfl⟩
abbrev main_v57 : Ref sig .tc := ⟨.hbm, 84, rfl⟩
abbrev main_v58 : Ref sig .tc := ⟨.hbm, 85, rfl⟩
abbrev main_cst_6 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_7 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_8 : Ref sig .tc := ⟨.hbm, 98, rfl⟩
abbrev main_v69 : Ref sig .tc := ⟨.hbm, 99, rfl⟩
abbrev main_v70 : Ref sig .tc := ⟨.hbm, 100, rfl⟩
abbrev main_cst_9 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_10 : Ref sig .tc := ⟨.hbm, 107, rfl⟩
abbrev main_v76 : Ref sig .tc := ⟨.hbm, 108, rfl⟩
abbrev main_v77 : Ref sig .tc := ⟨.hbm, 109, rfl⟩
abbrev main_cst_11 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_12 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_c_13 : Ref sig .tc := ⟨.hbm, 127, rfl⟩
abbrev main_v93 : Ref sig .tc := ⟨.hbm, 128, rfl⟩
abbrev main_v94 : Ref sig .tc := ⟨.hbm, 129, rfl⟩
abbrev main_c_14 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_c_15 : Ref sig .tc := ⟨.hbm, 136, rfl⟩
abbrev main_v100 : Ref sig .tc := ⟨.hbm, 137, rfl⟩
abbrev main_v101 : Ref sig .tc := ⟨.hbm, 138, rfl⟩
abbrev main_c_16 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_call1_cst : Ref sig .tc := ⟨.hbm, 150, rfl⟩
abbrev main_call1_v0 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_call2_cst : Ref sig .tc := ⟨.hbm, 157, rfl⟩
abbrev main_call2_v0 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_call3_cst : Ref sig .tc := ⟨.hbm, 164, rfl⟩
abbrev main_call3_v0 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_call4_cst : Ref sig .tc := ⟨.hbm, 172, rfl⟩
abbrev main_call4_v0 : Ref sig .tc := ⟨.hbm, 173, rfl⟩
abbrev main_v128 : Ref sig .tc := ⟨.hbm, 174, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x32_S1600000x160_d1 : Shape.Concatenates [S1600000x64, S1600000x64, S1600000x32] S1600000x160 1
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S100000x64 : S_.BroadcastsInDim S100000x64 (![] : Fin 0 → Fin S100000x64.rank)
  transposes_S192x64_S64x192_1_0 : S192x64.Transposes [1, 0] S64x192
  bcast_S192_S1x192_1 : S192.BroadcastsInDim S1x192 (![1] : Fin 1 → Fin S1x192.rank)
  bcast_S1x192_S100000x192_0_1 : S1x192.BroadcastsInDim S100000x192 (![0, 1] : Fin 2 → Fin S100000x192.rank)
  slices_S100000x192_S100000x64_0_0 : S100000x192.Slices ![0, 0] S100000x64
  slices_S100000x192_S100000x64_0_64 : S100000x192.Slices ![0, 64] S100000x64
  slices_S100000x192_S100000x64_0_128 : S100000x192.Slices ![0, 128] S100000x64
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S1600000x32_0_1 : S1x32.BroadcastsInDim S1600000x32 (![0, 1] : Fin 2 → Fin S1600000x32.rank)
  bcast_S_S1600000x32 : S_.BroadcastsInDim S1600000x32 (![] : Fin 0 → Fin S1600000x32.rank)
  gather_S100000x64_S1600000x1_S1600000x64_1_0_n_n_0_1_164_wf : GatherDims.WF S100000x64 S1600000x1 S1600000x64 [1] [0] [] [0] [] 1 ![1, 64]
  dot_S1600000x160_S160x128_S1600000x128_1_0_0_1_n_n_wf : DotDims.WF S1600000x160 S160x128 S1600000x128 [1] [0] [0] [1] [] []
  dot_S1600000x128_S128x64_S1600000x64_1_0_0_1_n_n_wf : DotDims.WF S1600000x128 S128x64 S1600000x64 [1] [0] [0] [1] [] []
  scatter_S100000x64_S1600000x1_S1600000x64_1_0_0_1_wf : ScatterDims.WF S100000x64 S1600000x1 S1600000x64 [1] [0] [0] 1
  dot_S100000x64_S64x192_S100000x192_1_0_0_1_n_n_wf : DotDims.WF S100000x64 S64x192 S100000x192 [1] [0] [0] [1] [] []
  dot_S1600000x128_S128x32_S1600000x32_1_0_0_1_n_n_wf : DotDims.WF S1600000x128 S128x32 S1600000x32 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x160_S160x128_S1600000x128_1_0_0_1_n_n : DotDims S1600000x160 S160x128 S1600000x128 where
  lhsContracting := [1]
  rhsContracting := [0]
  lhsNonContracting := [0]
  rhsNonContracting := [1]
  lhsBatch := []
  rhsBatch := []
  wf := dot_S1600000x160_S160x128_S1600000x128_1_0_0_1_n_n_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x192_S100000x192_1_0_0_1_n_n : DotDims S100000x64 S64x192 S100000x192 where
  lhsContracting := [1]
  rhsContracting := [0]
  lhsNonContracting := [0]
  rhsNonContracting := [1]
  lhsBatch := []
  rhsBatch := []
  wf := dot_S100000x64_S64x192_S100000x192_1_0_0_1_n_n_wf
def dot_S1600000x128_S128x32_S1600000x32_1_0_0_1_n_n : DotDims S1600000x128 S128x32 S1600000x32 where
  lhsContracting := [1]
  rhsContracting := [0]
  lhsNonContracting := [0]
  rhsNonContracting := [1]
  lhsBatch := []
  rhsBatch := []
  wf := dot_S1600000x128_S128x32_S1600000x32_1_0_0_1_n_n_wf

class Facts : Prop extends Facts₀ where

variable [Facts]
-- ==== Proof.Spec.lean ====
/-
  The three row-wise functions this program computes, stated once over plain coordinate accessors, at the extended
  reals.  Every array is read through an accessor `row → column → value`; a row of the result depends only on the same
  row of the row-indexed inputs and on the (small) weight arrays.

  * `hidden`   — the first linear layer of either MLP on the row `[s | t | e]` given as three pieces, with the weight
                  matrix given as the three matching row blocks, then the bias and `max · 0`:
                  `max (((s·Ws + t·Wt) + e·We) + b1) 0`.
  * `msgSpec`  — the message MLP: `hidden · W2 + b2`.
  * `edgeSpec` — the edge MLP with its residual: `max ((hidden · W2 + b2) + e) 0`.
  * `gruSpec`  — one GRU cell (gates r, z, n; the three gates' weights given per gate, already transposed to
                  `input coordinate → output coordinate`) followed by a LayerNorm over the 64 columns:
                  h = (1 - z)·n + z·x,  μ = (Σ h)/64,  d = h - μ,  σ² = (Σ d²)/64,  result = d·rsqrt(σ² + ε)·g + b.

  `sum_three_blocks` is the one algebraic fact the comparison needs: a sum over 160 = 64 + 64 + 32 coordinates is the
  sum of the three block sums (associativity and commutativity of addition only: it holds on the extended reals with no
  finiteness assumption).
-/
import Idealize.ShloMosaic.PureOps.Ideal
import Idealize.ShloMosaic.PureOps.Ideal.Laws
import Idealize.ShloMosaic.Lib.ValueIdx
import Mathlib.Algebra.BigOperators.Fin

noncomputable section

namespace Cert.Spec

open Idealize.ShloMosaic

/-- The f32 words the two programs share, kept as words: 1.0, 64.0 and the LayerNorm's ε. -/
abbrev c1 : EReal := Ideal.ofBits .f32 0x3F800000#32
abbrev c64 : EReal := Ideal.ofBits .f32 0x42800000#32
abbrev lnEps : EReal := Ideal.ofBits .f32 0x3727C5AC#32

/-- The logistic function as jax expands it: `1 / (1 + e^(-x))`. -/
def sigm (x : EReal) : EReal := Ideal.div c1 (c1 + Ideal.exp (-x))

/-- Accessors: a rank-2 array read at (row, column); a [1, m] array read at its one row; a rank-1 array. -/
abbrev acc2 {n m : Nat} (x : (⟨2, ![n, m]⟩ : Shape).Idx → EReal) : Fin n → Fin m → EReal := fun r a => x (ValueIdx.ix2 r a)
abbrev accRow {m : Nat} (x : (⟨2, ![1, m]⟩ : Shape).Idx → EReal) : Fin m → EReal := fun a => x (ValueIdx.ix2 (0 : Fin 1) a)
abbrev acc1 {m : Nat} (x : (⟨1, ![m]⟩ : Shape).Idx → EReal) : Fin m → EReal := fun a => x (ValueIdx.ix1 a)

/-- Row block `[off, off + n)` of a matrix given by its accessor; the same block transposed; a segment of a vector. -/
def rows {N m : Nat} (x : Fin N → Fin m → EReal) (n off : Nat) (h : off + n ≤ N) : Fin n → Fin m → EReal :=
  fun a k => x ⟨off + a.val, by have := a.isLt; omega⟩ k
def rowsT {N m : Nat} (x : Fin N → Fin m → EReal) (n off : Nat) (h : off + n ≤ N) : Fin m → Fin n → EReal :=
  fun a j => x ⟨off + j.val, by have := j.isLt; omega⟩ a
def seg {N : Nat} (x : Fin N → EReal) (n off : Nat) (h : off + n ≤ N) : Fin n → EReal :=
  fun j => x ⟨off + j.val, by have := j.isLt; omega⟩

variable {n : Nat}

/-- First layer of an MLP on the row `[s | t | e]`, bias, then `max · 0`. -/
def hidden (s t : Fin n → Fin 64 → EReal) (e : Fin n → Fin 32 → EReal) (ws wt : Fin 64 → Fin 128 → EReal)
    (we : Fin 32 → Fin 128 → EReal) (b1 : Fin 128 → EReal) (r : Fin n) (k : Fin 128) : EReal :=
  max ((((∑ a : Fin 64, s r a * ws a k) + (∑ a : Fin 64, t r a * wt a k)) + (∑ a : Fin 32, e r a * we a k)) + b1 k) 0

/-- The message MLP. -/
def msgSpec (s t : Fin n → Fin 64 → EReal) (e : Fin n → Fin 32 → EReal) (ws wt : Fin 64 → Fin 128 → EReal)
    (we : Fin 32 → Fin 128 → EReal) (b1 : Fin 128 → EReal) (w2 : Fin 128 → Fin 64 → EReal) (b2 : Fin 64 → EReal)
    (r : Fin n) (j : Fin 64) : EReal :=
  (∑ k : Fin 128, hidden s t e ws wt we b1 r k * w2 k j) + b2 j

/-- The edge MLP with its residual and final `max · 0`. -/
def edgeSpec (s t : Fin n → Fin 64 → EReal) (e : Fin n → Fin 32 → EReal) (ws wt : Fin 64 → Fin 128 → EReal)
    (we : Fin 32 → Fin 128 → EReal) (b1 : Fin 128 → EReal) (w2 : Fin 128 → Fin 32 → EReal) (b2 : Fin 32 → EReal)
    (r : Fin n) (j : Fin 32) : EReal :=
  max (((∑ k : Fin 128, hidden s t e ws wt we b1 r k * w2 k j) + b2 j) + e r j) 0

/-- The GRU cell's new state (before the LayerNorm). Gate 0 = r, 1 = z, 2 = n. -/
def gruH (agg x : Fin n → Fin 64 → EReal) (wi wh : Fin 3 → Fin 64 → Fin 64 → EReal) (bi bh : Fin 3 → Fin 64 → EReal)
    (r : Fin n) (j : Fin 64) : EReal :=
  ((c1 - sigm (((∑ a : Fin 64, agg r a * wi 1 a j) + bi 1 j) + ((∑ a : Fin 64, x r a * wh 1 a j) + bh 1 j)))
      * Ideal.tanh (((∑ a : Fin 64, agg r a * wi 2 a j) + bi 2 j)
          + sigm (((∑ a : Fin 64, agg r a * wi 0 a j) + bi 0 j) + ((∑ a : Fin 64, x r a * wh 0 a j) + bh 0 j))
            * ((∑ a : Fin 64, x r a * wh 2 a j) + bh 2 j)))
    + sigm (((∑ a : Fin 64, agg r a * wi 1 a j) + bi 1 j) + ((∑ a : Fin 64, x r a * wh 1 a j) + bh 1 j)) * x r j

/-- The row mean of `h`. -/
def rowMean (h : Fin n → Fin 64 → EReal) (r : Fin n) : EReal := Ideal.div (∑ j : Fin 64, h r j) c64

/-- LayerNorm over the 64 columns, as both programs spell it. -/
def layerNorm (h : Fin n → Fin 64 → EReal) (g b : Fin 64 → EReal) (r : Fin n) (j : Fin 64) : EReal :=
  (((h r j - rowMean h r)
      * Ideal.rsqrt (Ideal.div (∑ q : Fin 64, (h r q - rowMean h r) * (h r q - rowMean h r)) c64 + lnEps))
    * g j) + b j

/-- GRU cell then LayerNorm. -/
def gruSpec (agg x : Fin n → Fin 64 → EReal) (wi wh : Fin 3 → Fin 64 → Fin 64 → EReal) (bi bh : Fin 3 → Fin 64 → EReal)
    (g b : Fin 64 → EReal) (r : Fin n) (j : Fin 64) : EReal :=
  layerNorm (gruH agg x wi wh bi bh) g b r j

/-- The word 1.0 denotes the number one. -/
theorem c1_eq_one : c1 = 1 := by
  simp [Ideal.ofBits, Ideal.ieee]
  rw [← EReal.coe_mul]
  norm_num

/-- The one-operation logistic is jax's expansion of it. -/
theorem logistic_eq_sigm (x : EReal) : Ideal.logistic x = sigm x := by
  unfold sigm Ideal.logistic
  rw [c1_eq_one]

/-- A sum over 160 = 64 + 64 + 32 coordinates is the sum of its three blocks' sums. -/
theorem sum_three_blocks (f : Fin 160 → EReal) :
    ∑ a : Fin 160, f a
      = ((∑ a : Fin 64, f ⟨a.val, by omega⟩) + (∑ a : Fin 64, f ⟨64 + a.val, by omega⟩)) + (∑ a : Fin 32, f ⟨128 + a.val, by omega⟩) := by
  have h1 := Fin.sum_univ_add (a := 128) (b := 32) (f := f)
  have h2 := Fin.sum_univ_add (a := 64) (b := 64) (f := fun i => f (Fin.castAdd 32 i))
  rw [h1, h2]
  rfl

end Cert.Spec

end
-- ==== Proof.KTerms.lean ====
/-
  The pure terms the kernel program's host operations compute around its three regions, named once:
  the two index rows of the edge list, the index normalisation and range test of a row take, the take itself
  (a gather whose out-of-range rows are replaced by a fill value) and the segment sum (a scatter-add into zeros).
-/
import proofs.«406467_j15685220565559_1_alg».proof.Proof.Gen.KernelIdeal.Frame
import proofs.«406467_j15685220565559_1_alg».proof.Proof.Spec

set_option maxRecDepth 16384

noncomputable section

namespace Cert.KernelIdeal.Host

open Cert.KernelIdeal Cert.KernelIdeal.Gen
open Idealize.ShloMosaic Idealize.ShloMosaic.TcCoe Idealize.SL.Sem

variable {F : FTy → Type} [FloatOps F]

/-- Row 0 of the [2, E] edge list as a vector of E words: the source node of each edge. -/
def srcIdx (x16 : IVec S2x1600000 32) : IVec S1600000 32 :=
  shapeCast S1600000 (extractStridedSlice S1x1600000 ![0, 0] x16 slices_S2x1600000_S1x1600000_0_0) shapeCasts_S1x1600000_S1600000

/-- Row 1 of the edge list: the target node of each edge. -/
def tgtIdx (x16 : IVec S2x1600000 32) : IVec S1600000 32 :=
  shapeCast S1600000 (extractStridedSlice S1x1600000 ![1, 0] x16 slices_S2x1600000_S1x1600000_1_0) shapeCasts_S1x1600000_S1600000

/-- A take's index normalisation: a negative word has the row count 100000 added; the result as an [E, 1] column. -/
def wrapIdx (e : IVec S1600000 32) : IVec S1600000x1 32 :=
  broadcastInDim S1600000x1 ![0] bcast_S1600000_S1600000x1_0
    (select (cmpi .slt e (broadcastInDim S1600000 ![] bcast_S_S1600000 (constantI S_ 32 0#32)))
      (addi e (broadcastInDim S1600000 ![] bcast_S_S1600000 (constantI S_ 32 100000#32))) e)

/-- A take's range test, per edge: 0 ≤ w ≤ 99999 (signed) for the normalised word w. -/
def inRange (w : IVec S1600000x1 32) : IVec S1600000 1 :=
  Host.reduce IntOp.andi
    (andi (cmpi .sge w (broadcastInDim S1600000x1 ![] bcast_S_S1600000x1 (constantI S_ 32 0#32)))
      (cmpi .sle w (broadcastInDim S1600000x1 ![0, 1] bcast_S1x1_S1600000x1_0_1 (broadcastInDim S1x1 ![1] bcast_S1_S1x1_1 (constantI S1 32 99999#32)))))
    (constantI S_ 1 1#1) reducesTo_S1600000x1_S1600000_d1 h_S_

/-- The row take of the kernel program: row w of `x` where the range test holds, the fill word elsewhere. -/
def take (x : FVec F S100000x64 .f32) (e : IVec S1600000 32) : FVec F S1600000x64 .f32 :=
  select (broadcastInDim S1600000x64 ![0] bcast_S1600000_S1600000x64_0 (inRange (wrapIdx e)))
    (Host.gather gather_S100000x64_S1600000x1_S1600000x64_1_0_n_n_0_1_164 x (wrapIdx e))
    (broadcastInDim S1600000x64 ![] bcast_S_S1600000x64 (constant S_ .f32 0x7FC00000#32))

/-- The segment sum: the messages added into a zero [N, 64] array at their target rows. -/
def segSum (e : IVec S1600000 32) (u : FVec F S1600000x64 .f32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 e) u

end Cert.KernelIdeal.Host

end
-- ==== Proof.Region0Value.lean ====
/-
  The message region's value. The region runs over 200 points; point t holds rows 8000·t … 8000·t + 7999 of the three
  row-indexed arrays and the whole of each of the six weight arrays, and writes rows 8000·t … of the output array.

  * On a block, the body's value at (p, q) is the message MLP of row p: a change of float format and a cast to the same
    shape are the identity on the extended reals, each product into a zero accumulator is the sum over its contracted
    coordinate, a [1, m] bias row broadcast down the rows is read at its one row, and the zero word is the number 0.
  * The message MLP at a row reads only that row of the row-indexed arrays, so on block t it is the message MLP of the
    whole arrays at row 8000·t + p.
  * Row r of the output array lies in the block of point r / 8000, so the blocks cover the array.
-/
import proofs.«406467_j15685220565559_1_alg».proof.Proof.Gen.KernelIdeal.Frame
import proofs.«406467_j15685220565559_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Cert.Spec
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-! The `S8000x64` by `S64x128` product: its operand indices at output (p, k) and contraction coordinate a. -/
theorem lhs_node_0 (i : S8000x128.Idx) (q : dot_S8000x64_S64x128_S8000x128_1_0_0_1_n_n.contr.Idx) :
    (dot_S8000x64_S64x128_S8000x128_1_0_0_1_n_n.lhsIdx i q 0).val = (i 0).val := by
  unfold DotDims.lhsIdx
  rw [dif_neg (show ¬(0 : Fin S8000x64.rank) ∈ dot_S8000x64_S64x128_S8000x128_1_0_0_1_n_n.lhsBatch by decide), dif_pos (show (0 : Fin S8000x64.rank) ∈ dot_S8000x64_S64x128_S8000x128_1_0_0_1_n_n.lhsNonContracting by decide)]
  rfl
theorem lhs_node_1 (i : S8000x128.Idx) (q : dot_S8000x64_S64x128_S8000x128_1_0_0_1_n_n.contr.Idx) :
    (dot_S8000x64_S64x128_S8000x128_1_0_0_1_n_n.lhsIdx i q 1).val = (q ⟨0, by decide⟩).val :=
  dot_S8000x64_S64x128_S8000x128_1_0_0_1_n_n.lhsIdx_val_of_single rfl i q
theorem rhs_node_0 (i : S8000x128.Idx) (q : dot_S8000x64_S64x128_S8000x128_1_0_0_1_n_n.contr.Idx) :
    (dot_S8000x64_S64x128_S8000x128_1_0_0_1_n_n.rhsIdx i q 0).val = (q ⟨0, by decide⟩).val :=
  dot_S8000x64_S64x128_S8000x128_1_0_0_1_n_n.rhsIdx_val_of_single rfl i q
theorem rhs_node_1 (i : S8000x128.Idx) (q : dot_S8000x64_S64x128_S8000x128_1_0_0_1_n_n.contr.Idx) :
    (dot_S8000x64_S64x128_S8000x128_1_0_0_1_n_n.rhsIdx i q 1).val = (i 1).val := by
  unfold DotDims.rhsIdx
  rw [dif_neg (show ¬(1 : Fin S64x128.rank) ∈ dot_S8000x64_S64x128_S8000x128_1_0_0_1_n_n.rhsBatch by decide), dif_pos (show (1 : Fin S64x128.rank) ∈ dot_S8000x64_S64x128_S8000x128_1_0_0_1_n_n.rhsNonContracting by decide)]
  rfl

/-- Into the zero accumulator the product at (p, k) is the sum over the 64 contracted coordinates. -/
theorem mm_node_apply {φ₁ φ₂ : FTy} (l : FVec Ideal S8000x64 φ₁) (r : FVec Ideal S64x128 φ₂) (p : Fin 8000) (k : Fin 128) :
    matmul dot_S8000x64_S64x128_S8000x128_1_0_0_1_n_n none l r (constant (F := Ideal) S8000x128 .f32 0x00000000#32) (ix2 p k)
      = ∑ a : Fin 64, l (ix2 p a) * r (ix2 a k) := by
  refine (Ideal.matmul_constant_zero_apply dot_S8000x64_S64x128_S8000x128_1_0_0_1_n_n none l r (ix2 p k)).trans ?_
  rw [← Equiv.sum_comp (contrEquiv1 dot_S8000x64_S64x128_S8000x128_1_0_0_1_n_n 64 rfl rfl).symm]
  refine Finset.sum_congr rfl fun a _ => ?_
  have hk := contrEquiv1_symm_val dot_S8000x64_S64x128_S8000x128_1_0_0_1_n_n 64 rfl rfl a
  have el : dot_S8000x64_S64x128_S8000x128_1_0_0_1_n_n.lhsIdx (ix2 p k) ((contrEquiv1 dot_S8000x64_S64x128_S8000x128_1_0_0_1_n_n 64 rfl rfl).symm a) = ix2 p a := funext fun d => Fin.ext (by
    match d with
    | ⟨0, _⟩ => exact lhs_node_0 _ _
    | ⟨1, _⟩ => exact (lhs_node_1 _ _).trans hk)
  have er : dot_S8000x64_S64x128_S8000x128_1_0_0_1_n_n.rhsIdx (ix2 p k) ((contrEquiv1 dot_S8000x64_S64x128_S8000x128_1_0_0_1_n_n 64 rfl rfl).symm a) = ix2 a k := funext fun d => Fin.ext (by
    match d with
    | ⟨0, _⟩ => exact (rhs_node_0 _ _).trans hk
    | ⟨1, _⟩ => exact rhs_node_1 _ _)
  rw [el, er]

/-! The `S8000x32` by `S32x128` product: its operand indices at output (p, k) and contraction coordinate a. -/
theorem lhs_edge_0 (i : S8000x128.Idx) (q : dot_S8000x32_S32x128_S8000x128_1_0_0_1_n_n.contr.Idx) :
    (dot_S8000x32_S32x128_S8000x128_1_0_0_1_n_n.lhsIdx i q 0).val = (i 0).val := by
  unfold DotDims.lhsIdx
  rw [dif_neg (show ¬(0 : Fin S8000x32.rank) ∈ dot_S8000x32_S32x128_S8000x128_1_0_0_1_n_n.lhsBatch by decide), dif_pos (show (0 : Fin S8000x32.rank) ∈ dot_S8000x32_S32x128_S8000x128_1_0_0_1_n_n.lhsNonContracting by decide)]
  rfl
theorem lhs_edge_1 (i : S8000x128.Idx) (q : dot_S8000x32_S32x128_S8000x128_1_0_0_1_n_n.contr.Idx) :
    (dot_S8000x32_S32x128_S8000x128_1_0_0_1_n_n.lhsIdx i q 1).val = (q ⟨0, by decide⟩).val :=
  dot_S8000x32_S32x128_S8000x128_1_0_0_1_n_n.lhsIdx_val_of_single rfl i q
theorem rhs_edge_0 (i : S8000x128.Idx) (q : dot_S8000x32_S32x128_S8000x128_1_0_0_1_n_n.contr.Idx) :
    (dot_S8000x32_S32x128_S8000x128_1_0_0_1_n_n.rhsIdx i q 0).val = (q ⟨0, by decide⟩).val :=
  dot_S8000x32_S32x128_S8000x128_1_0_0_1_n_n.rhsIdx_val_of_single rfl i q
theorem rhs_edge_1 (i : S8000x128.Idx) (q : dot_S8000x32_S32x128_S8000x128_1_0_0_1_n_n.contr.Idx) :
    (dot_S8000x32_S32x128_S8000x128_1_0_0_1_n_n.rhsIdx i q 1).val = (i 1).val := by
  unfold DotDims.rhsIdx
  rw [dif_neg (show ¬(1 : Fin S32x128.rank) ∈ dot_S8000x32_S32x128_S8000x128_1_0_0_1_n_n.rhsBatch by decide), dif_pos (show (1 : Fin S32x128.rank) ∈ dot_S8000x32_S32x128_S8000x128_1_0_0_1_n_n.rhsNonContracting by decide)]
  rfl

/-- Into the zero accumulator the product at (p, k) is the sum over the 32 contracted coordinates. -/
theorem mm_edge_apply {φ₁ φ₂ : FTy} (l : FVec Ideal S8000x32 φ₁) (r : FVec Ideal S32x128 φ₂) (p : Fin 8000) (k : Fin 128) :
    matmul dot_S8000x32_S32x128_S8000x128_1_0_0_1_n_n none l r (constant (F := Ideal) S8000x128 .f32 0x00000000#32) (ix2 p k)
      = ∑ a : Fin 32, l (ix2 p a) * r (ix2 a k) := by
  refine (Ideal.matmul_constant_zero_apply dot_S8000x32_S32x128_S8000x128_1_0_0_1_n_n none l r (ix2 p k)).trans ?_
  rw [← Equiv.sum_comp (contrEquiv1 dot_S8000x32_S32x128_S8000x128_1_0_0_1_n_n 32 rfl rfl).symm]
  refine Finset.sum_congr rfl fun a _ => ?_
  have hk := contrEquiv1_symm_val dot_S8000x32_S32x128_S8000x128_1_0_0_1_n_n 32 rfl rfl a
  have el : dot_S8000x32_S32x128_S8000x128_1_0_0_1_n_n.lhsIdx (ix2 p k) ((contrEquiv1 dot_S8000x32_S32x128_S8000x128_1_0_0_1_n_n 32 rfl rfl).symm a) = ix2 p a := funext fun d => Fin.ext (by
    match d with
    | ⟨0, _⟩ => exact lhs_edge_0 _ _
    | ⟨1, _⟩ => exact (lhs_edge_1 _ _).trans hk)
  have er : dot_S8000x32_S32x128_S8000x128_1_0_0_1_n_n.rhsIdx (ix2 p k) ((contrEquiv1 dot_S8000x32_S32x128_S8000x128_1_0_0_1_n_n 32 rfl rfl).symm a) = ix2 a k := funext fun d => Fin.ext (by
    match d with
    | ⟨0, _⟩ => exact (rhs_edge_0 _ _).trans hk
    | ⟨1, _⟩ => exact rhs_edge_1 _ _)
  rw [el, er]

/-! The `S8000x128` by `S128x64` product: its operand indices at output (p, k) and contraction coordinate a. -/
theorem lhs_out_0 (i : S8000x64.Idx) (q : dot_S8000x128_S128x64_S8000x64_1_0_0_1_n_n.contr.Idx) :
    (dot_S8000x128_S128x64_S8000x64_1_0_0_1_n_n.lhsIdx i q 0).val = (i 0).val := by
  unfold DotDims.lhsIdx
  rw [dif_neg (show ¬(0 : Fin S8000x128.rank) ∈ dot_S8000x128_S128x64_S8000x64_1_0_0_1_n_n.lhsBatch by decide), dif_pos (show (0 : Fin S8000x128.rank) ∈ dot_S8000x128_S128x64_S8000x64_1_0_0_1_n_n.lhsNonContracting by decide)]
  rfl
theorem lhs_out_1 (i : S8000x64.Idx) (q : dot_S8000x128_S128x64_S8000x64_1_0_0_1_n_n.contr.Idx) :
    (dot_S8000x128_S128x64_S8000x64_1_0_0_1_n_n.lhsIdx i q 1).val = (q ⟨0, by decide⟩).val :=
  dot_S8000x128_S128x64_S8000x64_1_0_0_1_n_n.lhsIdx_val_of_single rfl i q
theorem rhs_out_0 (i : S8000x64.Idx) (q : dot_S8000x128_S128x64_S8000x64_1_0_0_1_n_n.contr.Idx) :
    (dot_S8000x128_S128x64_S8000x64_1_0_0_1_n_n.rhsIdx i q 0).val = (q ⟨0, by decide⟩).val :=
  dot_S8000x128_S128x64_S8000x64_1_0_0_1_n_n.rhsIdx_val_of_single rfl i q
theorem rhs_out_1 (i : S8000x64.Idx) (q : dot_S8000x128_S128x64_S8000x64_1_0_0_1_n_n.contr.Idx) :
    (dot_S8000x128_S128x64_S8000x64_1_0_0_1_n_n.rhsIdx i q 1).val = (i 1).val := by
  unfold DotDims.rhsIdx
  rw [dif_neg (show ¬(1 : Fin S128x64.rank) ∈ dot_S8000x128_S128x64_S8000x64_1_0_0_1_n_n.rhsBatch by decide), dif_pos (show (1 : Fin S128x64.rank) ∈ dot_S8000x128_S128x64_S8000x64_1_0_0_1_n_n.rhsNonContracting by decide)]
  rfl

/-- Into the zero accumulator the product at (p, k) is the sum over the 128 contracted coordinates. -/
theorem mm_out_apply {φ₁ φ₂ : FTy} (l : FVec Ideal S8000x128 φ₁) (r : FVec Ideal S128x64 φ₂) (p : Fin 8000) (k : Fin 64) :
    matmul dot_S8000x128_S128x64_S8000x64_1_0_0_1_n_n none l r (constant (F := Ideal) S8000x64 .f32 0x00000000#32) (ix2 p k)
      = ∑ a : Fin 128, l (ix2 p a) * r (ix2 a k) := by
  refine (Ideal.matmul_constant_zero_apply dot_S8000x128_S128x64_S8000x64_1_0_0_1_n_n none l r (ix2 p k)).trans ?_
  rw [← Equiv.sum_comp (contrEquiv1 dot_S8000x128_S128x64_S8000x64_1_0_0_1_n_n 128 rfl rfl).symm]
  refine Finset.sum_congr rfl fun a _ => ?_
  have hk := contrEquiv1_symm_val dot_S8000x128_S128x64_S8000x64_1_0_0_1_n_n 128 rfl rfl a
  have el : dot_S8000x128_S128x64_S8000x64_1_0_0_1_n_n.lhsIdx (ix2 p k) ((contrEquiv1 dot_S8000x128_S128x64_S8000x64_1_0_0_1_n_n 128 rfl rfl).symm a) = ix2 p a := funext fun d => Fin.ext (by
    match d with
    | ⟨0, _⟩ => exact lhs_out_0 _ _
    | ⟨1, _⟩ => exact (lhs_out_1 _ _).trans hk)
  have er : dot_S8000x128_S128x64_S8000x64_1_0_0_1_n_n.rhsIdx (ix2 p k) ((contrEquiv1 dot_S8000x128_S128x64_S8000x64_1_0_0_1_n_n 128 rfl rfl).symm a) = ix2 a k := funext fun d => Fin.ext (by
    match d with
    | ⟨0, _⟩ => exact (rhs_out_0 _ _).trans hk
    | ⟨1, _⟩ => exact rhs_out_1 _ _)
  rw [el, er]

/-- A [1, m] row broadcast down 8000 rows reads its column entry. -/
theorem bcast128_apply (x : Vec Ideal S1x128 .f32) (h : S1x128.Broadcasts S8000x128) (p : Fin 8000) (k : Fin 128) :
    broadcastTo S8000x128 x h (ix2 p k) = x (ix2 (0 : Fin 1) k) :=
  broadcastTo_apply x h (ix2 p k) (ix2 (0 : Fin 1) k) (fun a => by
    match a with
    | ⟨0, _⟩ => rfl
    | ⟨1, _⟩ => rfl)

theorem bcast64_apply (x : Vec Ideal S1x64 .f32) (h : S1x64.Broadcasts S8000x64) (p : Fin 8000) (q : Fin 64) :
    broadcastTo S8000x64 x h (ix2 p q) = x (ix2 (0 : Fin 1) q) :=
  broadcastTo_apply x h (ix2 p q) (ix2 (0 : Fin 1) q) (fun a => by
    match a with
    | ⟨0, _⟩ => rfl
    | ⟨1, _⟩ => rfl)

/-- The block's payload at (p, q) is the message MLP of row p of the three row blocks and of the six weight blocks:
    a change of float format and a cast to the same shape are the identity on the extended reals, each product into
    the zero accumulator is its sum, the bias rows are read at their one row, and the zero word is the number 0. -/
theorem payload_msg (x0 x1 : Vec Ideal S8000x64 .f32) (x2 : Vec Ideal S8000x32 .f32) (x3 x4 : Vec Ideal S64x128 .f32)
    (x5 : Vec Ideal S32x128 .f32) (x6 : Vec Ideal S1x128 .f32) (x7 : Vec Ideal S128x64 .f32) (x8 : Vec Ideal S1x64 .f32)
    (p : Fin 8000) (q : Fin 64) :
    k0_pay1 x0 x1 x2 x3 x4 x5 x6 x7 x8 (ix2 p q)
      = msgSpec (n := 8000) (acc2 (n := 8000) (m := 64) x0) (acc2 (n := 8000) (m := 64) x1) (acc2 (n := 8000) (m := 32) x2)
          (acc2 (n := 64) (m := 128) x3) (acc2 (n := 64) (m := 128) x4) (acc2 (n := 32) (m := 128) x5)
          (accRow (m := 128) x6) (acc2 (n := 128) (m := 64) x7) (accRow (m := 64) x8) p q := by
  unfold k0_pay1
  simp only [shapeCast_self]
  refine (addf_apply _ _ (ix2 p q)).trans ?_
  unfold Cert.Spec.msgSpec
  refine congrArg₂ (· + ·) ?_ (bcast64_apply x8 _ p q)
  refine (mm_out_apply _ _ p q).trans (Finset.sum_congr rfl fun k _ => ?_)
  refine congrArg₂ (· * ·) ?_ rfl
  unfold Cert.Spec.hidden
  refine (truncf_apply (ψ := .bf16) _ bitsLt_bf16_f32 (ix2 p k)).trans ((maximumf_apply _ _ (ix2 p k)).trans ?_)
  refine congrArg₂ max ?_ Ideal.ofBits_zero_f32
  refine (addf_apply _ _ (ix2 p k)).trans (congrArg₂ (· + ·) ?_ (bcast128_apply x6 _ p k))
  refine (addf_apply _ _ (ix2 p k)).trans (congrArg₂ (· + ·) ?_ (mm_edge_apply _ _ p k))
  exact (addf_apply _ _ (ix2 p k)).trans (congrArg₂ (· + ·) (mm_node_apply _ _ p k) (mm_node_apply _ _ p k))

theorem zero_offsets : (![0, 0] : Fin 2 → Nat) = fun _ => 0 := funext fun a => by fin_cases a <;> rfl

/-- The message MLP at a row reads only that row of the three row-indexed arrays: two settings that agree on the row,
    on the weights and on the column give the same value. -/
theorem msgSpec_congr {n n' : Nat} (s t : Fin n → Fin 64 → EReal) (e : Fin n → Fin 32 → EReal)
    (s' t' : Fin n' → Fin 64 → EReal) (e' : Fin n' → Fin 32 → EReal)
    (ws wt ws' wt' : Fin 64 → Fin 128 → EReal) (we we' : Fin 32 → Fin 128 → EReal) (b1 b1' : Fin 128 → EReal)
    (w2 w2' : Fin 128 → Fin 64 → EReal) (b2 b2' : Fin 64 → EReal) (r : Fin n) (r' : Fin n') (j j' : Fin 64)
    (hs : ∀ a, s r a = s' r' a) (ht : ∀ a, t r a = t' r' a) (he : ∀ a, e r a = e' r' a)
    (hws : ∀ a k, ws a k = ws' a k) (hwt : ∀ a k, wt a k = wt' a k) (hwe : ∀ a k, we a k = we' a k)
    (hb1 : ∀ k, b1 k = b1' k) (hw2 : ∀ k j, w2 k j = w2' k j) (hb2 : ∀ j, b2 j = b2' j) (hj : j = j') :
    msgSpec s t e ws wt we b1 w2 b2 r j = msgSpec s' t' e' ws' wt' we' b1' w2' b2' r' j' := by
  subst hj
  unfold Cert.Spec.msgSpec Cert.Spec.hidden
  simp only [hs, ht, he, hws, hwt, hwe, hb1, hw2, hb2]

/-- The index maps over the grid: a row-indexed window's block at point t is block (t, 0); a weight window
    has the one block (0, 0). -/
theorem block_index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

/-- Window 0's block at point t is rows 8000·t … 8000·t + 7999 of its array. -/
theorem blk0_apply (c : Dev nD) (t : Fin cfg0.N) (y : S8000x64.Idx) (k : S1600000x64.Idx)
    (hk0 : (k 0).val = t.val * 8000 + (y 0).val) (hk1 : (k 1).val = (y 1).val) :
    (iblk0 V c 0 t : Vec Ideal S8000x64 .f32) y = (V c main_v4 : S1600000x64.Idx → EReal) k := by
  have e := (block_index t).1
  unfold iblk0
  rw [View.read_apply]
  show (V c main_v4 : S1600000x64.Idx → EReal) _ = V c main_v4 _
  refine congrArg (V c main_v4 : S1600000x64.Idx → EReal) (funext fun a => Fin.ext ?_)
  match a with
  | ⟨0, _⟩ => show win0_0.index t (0 : Fin 2) * 8000 + 1 * (y 0).val = (k 0).val; rw [e.1, hk0]; omega
  | ⟨1, _⟩ => show win0_0.index t (1 : Fin 2) * 64 + 1 * (y 1).val = (k 1).val; rw [e.2, hk1]; omega

/-- Window 1's block at point t is rows 8000·t … 8000·t + 7999 of its array. -/
theorem blk1_apply (c : Dev nD) (t : Fin cfg0.N) (y : S8000x64.Idx) (k : S1600000x64.Idx)
    (hk0 : (k 0).val = t.val * 8000 + (y 0).val) (hk1 : (k 1).val = (y 1).val) :
    (iblk0 V c 1 t : Vec Ideal S8000x64 .f32) y = (V c main_v5 : S1600000x64.Idx → EReal) k := by
  have e := (block_index t).2.1
  unfold iblk0
  rw [View.read_apply]
  show (V c main_v5 : S1600000x64.Idx → EReal) _ = V c main_v5 _
  refine congrArg (V c main_v5 : S1600000x64.Idx → EReal) (funext fun a => Fin.ext ?_)
  match a with
  | ⟨0, _⟩ => show win0_1.index t (0 : Fin 2) * 8000 + 1 * (y 0).val = (k 0).val; rw [e.1, hk0]; omega
  | ⟨1, _⟩ => show win0_1.index t (1 : Fin 2) * 64 + 1 * (y 1).val = (k 1).val; rw [e.2, hk1]; omega

/-- Window 2's block at point t is rows 8000·t … 8000·t + 7999 of its array. -/
theorem blk2_apply (c : Dev nD) (t : Fin cfg0.N) (y : S8000x32.Idx) (k : S1600000x32.Idx)
    (hk0 : (k 0).val = t.val * 8000 + (y 0).val) (hk1 : (k 1).val = (y 1).val) :
    (iblk0 V c 2 t : Vec Ideal S8000x32 .f32) y = (V c main_arg1 : S1600000x32.Idx → EReal) k := by
  have e := (block_index t).2.2.1
  unfold iblk0
  rw [View.read_apply]
  show (V c main_arg1 : S1600000x32.Idx → EReal) _ = V c main_arg1 _
  refine congrArg (V c main_arg1 : S1600000x32.Idx → EReal) (funext fun a => Fin.ext ?_)
  match a with
  | ⟨0, _⟩ => show win0_2.index t (0 : Fin 2) * 8000 + 1 * (y 0).val = (k 0).val; rw [e.1, hk0]; omega
  | ⟨1, _⟩ => show win0_2.index t (1 : Fin 2) * 32 + 1 * (y 1).val = (k 1).val; rw [e.2, hk1]; omega

/-- Window 3 has one block, its whole array. -/
theorem blk3_apply (c : Dev nD) (t : Fin cfg0.N) (y : S64x128.Idx) :
    (iblk0 V c 3 t : Vec Ideal S64x128 .f32) y = (V c main_v6 : S64x128.Idx → EReal) y := by
  have e := (block_index t).2.2.2.1
  unfold iblk0
  rw [View.read_apply]
  show (V c main_v6 : S64x128.Idx → EReal) _ = V c main_v6 _
  refine congrArg (V c main_v6 : S64x128.Idx → EReal) (funext fun a => Fin.ext ?_)
  match a with
  | ⟨0, _⟩ => show win0_3.index t (0 : Fin 2) * 64 + 1 * (y 0).val = (y 0).val; rw [e.1]; omega
  | ⟨1, _⟩ => show win0_3.index t (1 : Fin 2) * 128 + 1 * (y 1).val = (y 1).val; rw [e.2]; omega

/-- Window 4 has one block, its whole array. -/
theorem blk4_apply (c : Dev nD) (t : Fin cfg0.N) (y : S64x128.Idx) :
    (iblk0 V c 4 t : Vec Ideal S64x128 .f32) y = (V c main_v7 : S64x128.Idx → EReal) y := by
  have e := (block_index t).2.2.2.2.1
  unfold iblk0
  rw [View.read_apply]
  show (V c main_v7 : S64x128.Idx → EReal) _ = V c main_v7 _
  refine congrArg (V c main_v7 : S64x128.Idx → EReal) (funext fun a => Fin.ext ?_)
  match a with
  | ⟨0, _⟩ => show win0_4.index t (0 : Fin 2) * 64 + 1 * (y 0).val = (y 0).val; rw [e.1]; omega
  | ⟨1, _⟩ => show win0_4.index t (1 : Fin 2) * 128 + 1 * (y 1).val = (y 1).val; rw [e.2]; omega

/-- Window 5 has one block, its whole array. -/
theorem blk5_apply (c : Dev nD) (t : Fin cfg0.N) (y : S32x128.Idx) :
    (iblk0 V c 5 t : Vec Ideal S32x128 .f32) y = (V c main_v8 : S32x128.Idx → EReal) y := by
  have e := (block_index t).2.2.2.2.2.1
  unfold iblk0
  rw [View.read_apply]
  show (V c main_v8 : S32x128.Idx → EReal) _ = V c main_v8 _
  refine congrArg (V c main_v8 : S32x128.Idx → EReal) (funext fun a => Fin.ext ?_)
  match a with
  | ⟨0, _⟩ => show win0_5.index t (0 : Fin 2) * 32 + 1 * (y 0).val = (y 0).val; rw [e.1]; omega
  | ⟨1, _⟩ => show win0_5.index t (1 : Fin 2) * 128 + 1 * (y 1).val = (y 1).val; rw [e.2]; omega

/-- Window 6 has one block, its whole array. -/
theorem blk6_apply (c : Dev nD) (t : Fin cfg0.N) (y : S1x128.Idx) :
    (iblk0 V c 6 t : Vec Ideal S1x128 .f32) y = (V c main_v9 : S1x128.Idx → EReal) y := by
  have e := (block_index t).2.2.2.2.2.2.1
  unfold iblk0
  rw [View.read_apply]
  show (V c main_v9 : S1x128.Idx → EReal) _ = V c main_v9 _
  refine congrArg (V c main_v9 : S1x128.Idx → EReal) (funext fun a => Fin.ext ?_)
  match a with
  | ⟨0, _⟩ => show win0_6.index t (0 : Fin 2) * 1 + 1 * (y 0).val = (y 0).val; rw [e.1]; omega
  | ⟨1, _⟩ => show win0_6.index t (1 : Fin 2) * 128 + 1 * (y 1).val = (y 1).val; rw [e.2]; omega

/-- Window 7 has one block, its whole array. -/
theorem blk7_apply (c : Dev nD) (t : Fin cfg0.N) (y : S128x64.Idx) :
    (iblk0 V c 7 t : Vec Ideal S128x64 .f32) y = (V c main_arg4 : S128x64.Idx → EReal) y := by
  have e := (block_index t).2.2.2.2.2.2.2.1
  unfold iblk0
  rw [View.read_apply]
  show (V c main_arg4 : S128x64.Idx → EReal) _ = V c main_arg4 _
  refine congrArg (V c main_arg4 : S128x64.Idx → EReal) (funext fun a => Fin.ext ?_)
  match a with
  | ⟨0, _⟩ => show win0_7.index t (0 : Fin 2) * 128 + 1 * (y 0).val = (y 0).val; rw [e.1]; omega
  | ⟨1, _⟩ => show win0_7.index t (1 : Fin 2) * 64 + 1 * (y 1).val = (y 1).val; rw [e.2]; omega

/-- Window 8 has one block, its whole array. -/
theorem blk8_apply (c : Dev nD) (t : Fin cfg0.N) (y : S1x64.Idx) :
    (iblk0 V c 8 t : Vec Ideal S1x64 .f32) y = (V c main_v10 : S1x64.Idx → EReal) y := by
  have e := (block_index t).2.2.2.2.2.2.2.2.1
  unfold iblk0
  rw [View.read_apply]
  show (V c main_v10 : S1x64.Idx → EReal) _ = V c main_v10 _
  refine congrArg (V c main_v10 : S1x64.Idx → EReal) (funext fun a => Fin.ext ?_)
  match a with
  | ⟨0, _⟩ => show win0_8.index t (0 : Fin 2) * 1 + 1 * (y 0).val = (y 0).val; rw [e.1]; omega
  | ⟨1, _⟩ => show win0_8.index t (1 : Fin 2) * 64 + 1 * (y 1).val = (y 1).val; rw [e.2]; omega

/-- The message MLP of the region's arrays as the region finds them, at an index of the output array. -/
abbrev msgOf (c : Dev nD) : S1600000x64.Idx → EReal := fun i => msgSpec (n := 1600000)
  (acc2 (n := 1600000) (m := 64) (V c main_v4)) (acc2 (n := 1600000) (m := 64) (V c main_v5)) (acc2 (n := 1600000) (m := 32) (V c main_arg1))
  (acc2 (n := 64) (m := 128) (V c main_v6)) (acc2 (n := 64) (m := 128) (V c main_v7)) (acc2 (n := 32) (m := 128) (V c main_v8))
  (accRow (m := 128) (V c main_v9)) (acc2 (n := 128) (m := 64) (V c main_arg4)) (accRow (m := 64) (V c main_v10)) (i 0) (i 1)

/-- At a point t, over blocks that are the arrays' rows 8000·t … (row-indexed) or the whole arrays (weights), the
    payload at block index j is the message MLP of the arrays at array index (8000·t + j₀, j₁). -/
theorem payload_at_point (c : Dev nD) (t : Fin cfg0.N)
    (B0 B1 : Vec Ideal S8000x64 .f32) (B2 : Vec Ideal S8000x32 .f32) (B3 B4 : Vec Ideal S64x128 .f32)
    (B5 : Vec Ideal S32x128 .f32) (B6 : Vec Ideal S1x128 .f32) (B7 : Vec Ideal S128x64 .f32) (B8 : Vec Ideal S1x64 .f32)
    (h0 : ∀ (y : S8000x64.Idx) (k : S1600000x64.Idx), (k 0).val = t.val * 8000 + (y 0).val → (k 1).val = (y 1).val →
      B0 y = (V c main_v4 : S1600000x64.Idx → EReal) k)
    (h1 : ∀ (y : S8000x64.Idx) (k : S1600000x64.Idx), (k 0).val = t.val * 8000 + (y 0).val → (k 1).val = (y 1).val →
      B1 y = (V c main_v5 : S1600000x64.Idx → EReal) k)
    (h2 : ∀ (y : S8000x32.Idx) (k : S1600000x32.Idx), (k 0).val = t.val * 8000 + (y 0).val → (k 1).val = (y 1).val →
      B2 y = (V c main_arg1 : S1600000x32.Idx → EReal) k)
    (h3 : ∀ y : S64x128.Idx, B3 y = (V c main_v6 : S64x128.Idx → EReal) y)
    (h4 : ∀ y : S64x128.Idx, B4 y = (V c main_v7 : S64x128.Idx → EReal) y)
    (h5 : ∀ y : S32x128.Idx, B5 y = (V c main_v8 : S32x128.Idx → EReal) y)
    (h6 : ∀ y : S1x128.Idx, B6 y = (V c main_v9 : S1x128.Idx → EReal) y)
    (h7 : ∀ y : S128x64.Idx, B7 y = (V c main_arg4 : S128x64.Idx → EReal) y)
    (h8 : ∀ y : S1x64.Idx, B8 y = (V c main_v10 : S1x64.Idx → EReal) y)
    (j : S8000x64.Idx) (i : S1600000x64.Idx) (hi0 : (i 0).val = t.val * 8000 + (j 0).val) (hi1 : (i 1).val = (j 1).val) :
    k0_pay1 B0 B1 B2 B3 B4 B5 B6 B7 B8 j = msgOf V c i := by
  obtain ⟨p, q, rfl⟩ : ∃ (p : Fin 8000) (q : Fin 64), j = ix2 p q := ⟨j 0, j 1, eq_ix2 j⟩
  refine (payload_msg B0 B1 B2 B3 B4 B5 B6 B7 B8 p q).trans ?_
  exact msgSpec_congr _ _ _ _ _ _ _ _ _ _ _ _ _ _ _ _ _ _ _ _ _ _
    (fun a => h0 (ix2 p a) (ix2 (i 0) a) hi0 rfl) (fun a => h1 (ix2 p a) (ix2 (i 0) a) hi0 rfl)
    (fun a => h2 (ix2 p a) (ix2 (i 0) a) hi0 rfl)
    (fun a k => h3 (ix2 a k)) (fun a k => h4 (ix2 a k)) (fun a k => h5 (ix2 a k)) (fun k => h6 (ix2 (0 : Fin 1) k))
    (fun k j => h7 (ix2 k j)) (fun j => h8 (ix2 (0 : Fin 1) j)) (Fin.ext hi1.symm)

/-- What point t writes back is block t of the message MLP of the arrays. -/
theorem written_block (c : Dev nD) (t : Fin cfg0.N) :
    (dat0 (F := Ideal) V c).flushed 9 t = ((cfg0.win 9).blk t).view.read (Elt Ideal) (msgOf V c) := by
  show (cfg0.win 9).cut (grid0.coords t) ((dat0 (F := Ideal) V c).after 9 t) = _
  rw [after0_9]
  unfold out0_9
  rw [View.canon_unit_zero zero_offsets]
  simp only [View.ld_unit_zero (S := S8000x64) zero_offsets, View.ld_unit_zero (S := S8000x32) zero_offsets, View.ld_unit_zero (S := S64x128) zero_offsets,
    View.ld_unit_zero (S := S32x128) zero_offsets, View.ld_unit_zero (S := S1x128) zero_offsets, View.ld_unit_zero (S := S128x64) zero_offsets,
    View.ld_unit_zero (S := S1x64) zero_offsets]
  have e := (block_index t).2.2.2.2.2.2.2.2.2
  funext j
  rw [View.read_apply]
  refine payload_at_point V c t (iblk0 V c 0 t) (iblk0 V c 1 t) (iblk0 V c 2 t) (iblk0 V c 3 t) (iblk0 V c 4 t) (iblk0 V c 5 t)
    (iblk0 V c 6 t) (iblk0 V c 7 t) (iblk0 V c 8 t)
    (blk0_apply V c t) (blk1_apply V c t) (blk2_apply V c t) (blk3_apply V c t) (blk4_apply V c t) (blk5_apply V c t)
    (blk6_apply V c t) (blk7_apply V c t) (blk8_apply V c t) _ _ ?_ ?_
  · show win0_9.index t (0 : Fin 2) * 8000 + 1 * (j 0).val = t.val * 8000 + (j 0).val
    rw [e.1]; omega
  · show win0_9.index t (1 : Fin 2) * 64 + 1 * (j 1).val = (j 1).val
    rw [e.2]; omega

/-- An index of the output array is in point t's block iff each coordinate is in the block's range on its axis. -/
theorem mem_block_iff (t : Fin cfg0.N) (i : S1600000x64.Idx) :
    i ∈ ((cfg0.win 9).blk t).view.set ↔ ∀ a : Fin 2, win0_9.index t a * S8000x64.size a ≤ (i a).val ∧ (i a).val < win0_9.index t a * S8000x64.size a + S8000x64.size a := by
  show i ∈ ((View.whole main_v11).slice (win0_9.rect t)).set ↔ _
  rw [View.set_slice_whole, Rect.mem_set_unit]
  exact Iff.rfl

/-- Row r of the output array is written by point r / 8000. -/
theorem rows_covered (i : S1600000x64.Idx) :
    ∃ t : Fin cfg0.N, (cfg0.win 9).flush t = true ∧ i ∈ ((cfg0.win 9).blk t).view.set := by
  have hi0 : (i 0).val < 1600000 := (i 0).isLt
  have hi1 : (i 1).val < 64 := (i 1).isLt
  have ht : (i 0).val / 8000 < cfg0.N := by rw [show cfg0.N = 200 from N_0]; omega
  have e := (block_index ⟨(i 0).val / 8000, ht⟩).2.2.2.2.2.2.2.2.2
  refine ⟨⟨(i 0).val / 8000, ht⟩, flush0_9 _, ?_⟩
  rw [mem_block_iff]
  intro a
  match a with
  | ⟨0, _⟩ =>
    show win0_9.index ⟨(i 0).val / 8000, ht⟩ (0 : Fin 2) * 8000 ≤ (i 0).val ∧ (i 0).val < win0_9.index ⟨(i 0).val / 8000, ht⟩ (0 : Fin 2) * 8000 + 8000
    rw [e.1]; show (i 0).val / 8000 * 8000 ≤ (i 0).val ∧ (i 0).val < (i 0).val / 8000 * 8000 + 8000; omega
  | ⟨1, _⟩ =>
    show win0_9.index ⟨(i 0).val / 8000, ht⟩ (1 : Fin 2) * 64 ≤ (i 1).val ∧ (i 1).val < win0_9.index ⟨(i 0).val / 8000, ht⟩ (1 : Fin 2) * 64 + 64
    rw [e.2]; omega

example : Pipeline.arrRef spec0 0 = main_v4 ∧ Pipeline.arrRef spec0 1 = main_v5 ∧ Pipeline.arrRef spec0 2 = main_arg1 ∧ Pipeline.arrRef spec0 3 = main_v6
  ∧ Pipeline.arrRef spec0 4 = main_v7 ∧ Pipeline.arrRef spec0 5 = main_v8 ∧ Pipeline.arrRef spec0 6 = main_v9 ∧ Pipeline.arrRef spec0 7 = main_arg4
  ∧ Pipeline.arrRef spec0 8 = main_v10 ∧ Pipeline.arrRef spec0 9 = main_v11 := ⟨rfl, rfl, rfl, rfl, rfl, rfl, rfl, rfl, rfl, rfl⟩

/-- After the message region's run its output array holds, at (row, column), the message MLP of that row of the three
    row-indexed input arrays and of the six weight arrays, all as the region found them. -/
theorem final (c : Dev nD) :
    (dat0 (F := Ideal) V c).arrAt 9 cfg0.N = fun i => msgSpec (n := 1600000)
      (acc2 (n := 1600000) (m := 64) (V c main_v4)) (acc2 (n := 1600000) (m := 64) (V c main_v5)) (acc2 (n := 1600000) (m := 32) (V c main_arg1))
      (acc2 (n := 64) (m := 128) (V c main_v6)) (acc2 (n := 64) (m := 128) (V c main_v7)) (acc2 (n := 32) (m := 128) (V c main_v8))
      (accRow (m := 128) (V c main_v9)) (acc2 (n := 128) (m := 64) (V c main_arg4)) (accRow (m := 64) (V c main_v10)) (i 0) (i 1) :=
  (dat0 (F := Ideal) V c).arrAt_eq_of_cover 9 (msgOf V c) (fun t _ => written_block V c t) (rows_covered)

end Cert.KernelIdeal.Region0

end
-- ==== Proof.Region1Value.lean ====
import proofs.«406467_j15685220565559_1_alg».proof.Proof.Gen.KernelIdeal.Frame
import proofs.«406467_j15685220565559_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Cert.Spec
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

example : Pipeline.arrRef spec1 0 = main_v14 ∧ Pipeline.arrRef spec1 1 = main_arg0 ∧ Pipeline.arrRef spec1 2 = main_v27 ∧ Pipeline.arrRef spec1 3 = main_v28
  ∧ Pipeline.arrRef spec1 4 = main_v29 ∧ Pipeline.arrRef spec1 5 = main_v30 ∧ Pipeline.arrRef spec1 6 = main_v31 ∧ Pipeline.arrRef spec1 7 = main_v32
  ∧ Pipeline.arrRef spec1 8 = main_v33 ∧ Pipeline.arrRef spec1 9 = main_v34 ∧ Pipeline.arrRef spec1 10 = main_v35 ∧ Pipeline.arrRef spec1 11 = main_v36
  ∧ Pipeline.arrRef spec1 12 = main_v37 ∧ Pipeline.arrRef spec1 13 = main_v38 ∧ Pipeline.arrRef spec1 14 = main_v39 ∧ Pipeline.arrRef spec1 15 = main_v40
  ∧ Pipeline.arrRef spec1 16 = main_v41 := ⟨rfl, rfl, rfl, rfl, rfl, rfl, rfl, rfl, rfl, rfl, rfl, rfl, rfl, rfl, rfl, rfl, rfl⟩

/-! ## Layout and contraction readings at an index -/

theorem hz : (![0, 0] : Fin 2 → Nat) = fun _ => 0 := funext fun a => by fin_cases a <;> rfl

/-- A [a] array viewed as the column [a, 1] reads, at (p, 0), the operand at p. -/
theorem shapeCast_a_a1_apply {α : Type} {a : ℕ} (x : (⟨1, ![a]⟩ : Shape).Idx → α) (h : (⟨1, ![a]⟩ : Shape).ShapeCasts ⟨2, ![a, 1]⟩)
    (p : Fin a) : shapeCast ⟨2, ![a, 1]⟩ x h (ix2 p (0 : Fin 1)) = x (ix1 p) := by
  refine shapeCast_apply x h (ix2 p (0 : Fin 1)) (ix1 p) ?_
  rw [Shape.rowMajor_val_one, Shape.rowMajor_val_two]
  show p.val = p.val * 1 + 0
  omega

/-- A column [a, 1] broadcast to [a, b] reads, at (p, q), the column at (p, 0). -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

theorem lhs_mm_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_mm_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_mm_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_mm_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The block's matrix product into the zero splat, at (p, q): the sum over the 64 contracted coordinates. -/
theorem mm_apply (lhs : FVec Ideal S5000x64 .bf16) (rhs : FVec Ideal S64x64 .bf16) (p : Fin 5000) (q : Fin 64) :
    matmul dot_S5000x64_S64x64_S5000x64_1_0_0_1_n_n none lhs rhs (constant (F := Ideal) S5000x64 .f32 0x00000000#32) (ix2 p q)
      = ∑ k : Fin 64, lhs (ix2 p k) * rhs (ix2 k q) := by
  refine (Ideal.matmul_constant_zero_apply dot_S5000x64_S64x64_S5000x64_1_0_0_1_n_n none lhs rhs (ix2 p q)).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_mm_0 _ _
    | ⟨1, _⟩ => exact (lhs_mm_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_mm_0 _ _).trans hk
    | ⟨1, _⟩ => exact rhs_mm_1 _ _)
  rw [el, er]

/-- The sum along the 64 columns of a block, at row p. -/
theorem laneSum_apply (src : FVec Ideal S5000x64 .f32) (h : S5000x64.Reduces [1] S5000) (hφ : FKind.Formats .f32)
    (hacc : (0x00000000#32 : BitVec 32) = 0x00000000#32) (p : Fin 5000) :
    multiReduction (F := Ideal) .add [1] S5000 src 0x00000000#32 h hφ hacc (ix1 p) = ∑ k : Fin 64, src (ix2 p k) := by
  refine (Ideal.multiReduction_add_single src 0x00000000#32 h hφ hacc (ix1 p)).trans ?_
  refine Finset.sum_congr rfl fun k _ => congrArg src ?_
  funext a
  match a with
  | ⟨0, _⟩ => rfl
  | ⟨1, _⟩ => rfl

/-! ## The body's arithmetic at an index, stage by stage -/

/-- A gate's input-side pre-activation at (p, q): the row of the aggregate times the gate's matrix, plus the gate's bias. -/
theorem pay7_apply (x0 : Vec Ideal S5000x64 .f32) (w : Vec Ideal S64x64 .f32) (b : Vec Ideal S1x64 .f32) (p : Fin 5000) (q : Fin 64) :
    k1_pay7 x0 w b (ix2 p q) = (∑ a : Fin 64, x0 (ix2 p a) * w (ix2 a q)) + b (ix2 (0 : Fin 1) q) := by
  unfold k1_pay7 k1_pay2
  simp only [shapeCast_self]
  rw [addf_apply, mm_apply, broadcastTo_1b_ab_apply]
  rfl

theorem pay8_apply (x0 : Vec Ideal S5000x64 .f32) (w : Vec Ideal S64x64 .f32) (b : Vec Ideal S1x64 .f32) (p : Fin 5000) (q : Fin 64) :
    k1_pay8 x0 w b (ix2 p q) = (∑ a : Fin 64, x0 (ix2 p a) * w (ix2 a q)) + b (ix2 (0 : Fin 1) q) := by
  unfold k1_pay8 k1_pay2
  simp only [shapeCast_self]
  rw [addf_apply, mm_apply, broadcastTo_1b_ab_apply]
  rfl

theorem pay9_apply (x0 : Vec Ideal S5000x64 .f32) (w : Vec Ideal S64x64 .f32) (p : Fin 5000) (q : Fin 64) :
    k1_pay9 x0 w (ix2 p q) = ∑ a : Fin 64, x0 (ix2 p a) * w (ix2 a q) := by
  unfold k1_pay9 k1_pay2
  simp only [shapeCast_self]
  rw [mm_apply]
  rfl

theorem logistic_apply {s : Shape} {φ : FTy} (a : FVec Ideal s φ) (i : s.Idx) : logistic a i = Ideal.logistic (a i) := rfl
theorem tanh_apply {s : Shape} {φ : FTy} (a : FVec Ideal s φ) (i : s.Idx) : tanh a i = Ideal.tanh (a i) := rfl
theorem rsqrt_apply {s : Shape} {φ : FTy} (a : FVec Ideal s φ) (i : s.Idx) : rsqrt a i = Ideal.rsqrt (a i) := rfl

/-- The GRU cell's new state at (p, q), from the two input-side gate pre-activations, the candidate's input-side product
    and the node features' block: the three hidden-side products with their biases, the two logistic gates, the tanh
    candidate, and the convex combination. -/
theorem pay10_apply (v2 : Vec Ideal S5000x64 .f32) (v4 : FVec Ideal S5000x64 .bf16) (v16 v19 v22 : FVec Ideal S64x64 .bf16)
    (v27 v32 v33 : FVec Ideal S5000x64 .f32) (v34 v39 v44 v49 : Vec Ideal S1x64 .f32) (p : Fin 5000) (q : Fin 64) :
    k1_pay10 v2 v4 v16 v19 v22 v27 v32 v33 v34 v39 v44 v49 (ix2 p q)
      = ((c1 - sigm (v32 (ix2 p q) + ((∑ a : Fin 64, v4 (ix2 p a) * v19 (ix2 a q)) + v44 (ix2 (0 : Fin 1) q))))
          * Ideal.tanh ((v33 (ix2 p q) + v34 (ix2 (0 : Fin 1) q))
              + sigm (v27 (ix2 p q) + ((∑ a : Fin 64, v4 (ix2 p a) * v16 (ix2 a q)) + v39 (ix2 (0 : Fin 1) q)))
                * ((∑ a : Fin 64, v4 (ix2 p a) * v22 (ix2 a q)) + v49 (ix2 (0 : Fin 1) q))))
        + sigm (v32 (ix2 p q) + ((∑ a : Fin 64, v4 (ix2 p a) * v19 (ix2 a q)) + v44 (ix2 (0 : Fin 1) q))) * v2 (ix2 p q) := by
  unfold k1_pay10
  simp only [shapeCast_self]
  simp only [addf_apply, mulf_apply, subf_apply, logistic_apply, tanh_apply, broadcast_apply, mm_apply, broadcastTo_1b_ab_apply, logistic_eq_sigm]
  rfl

/-- The GRU cell's new state of a block at (p, q) is the specification's, of the blocks read through accessors. -/
theorem h_apply (x0 x1 : Vec Ideal S5000x64 .f32) (x2 x3 x4 x5 x6 x7 : Vec Ideal S64x64 .f32)
    (x8 x9 x10 x11 x12 x13 : Vec Ideal S1x64 .f32) (p : Fin 5000) (q : Fin 64) :
    k1_pay10 x1 (k1_pay3 x1) (k1_pay4 x5) (k1_pay5 x6) (k1_pay6 x7) (k1_pay7 x0 x2 x8) (k1_pay8 x0 x3 x9) (k1_pay9 x0 x4) x10 x11 x12 x13 (ix2 p q)
      = gruH (n := 5000) (acc2 (n := 5000) (m := 64) x0) (acc2 (n := 5000) (m := 64) x1)
          ![acc2 (n := 64) (m := 64) x2, acc2 (n := 64) (m := 64) x3, acc2 (n := 64) (m := 64) x4]
          ![acc2 (n := 64) (m := 64) x5, acc2 (n := 64) (m := 64) x6, acc2 (n := 64) (m := 64) x7]
          ![accRow (m := 64) x8, accRow (m := 64) x9, accRow (m := 64) x10]
          ![accRow (m := 64) x11, accRow (m := 64) x12, accRow (m := 64) x13] p q := by
  rw [pay10_apply, pay7_apply, pay8_apply, pay9_apply]
  unfold gruH k1_pay3 k1_pay4 k1_pay5 k1_pay6
  simp only [shapeCast_self, truncf_apply]
  rfl

/-- The row mean's column at (p, 0): the block's new state summed along the 64 columns, over 64. -/
theorem pay11_apply (v2 : Vec Ideal S5000x64 .f32) (v4 : FVec Ideal S5000x64 .bf16) (v16 v19 v22 : FVec Ideal S64x64 .bf16)
    (v27 v32 v33 : FVec Ideal S5000x64 .f32) (v34 v39 v44 v49 : Vec Ideal S1x64 .f32) (p : Fin 5000) :
    k1_pay11 v2 v4 v16 v19 v22 v27 v32 v33 v34 v39 v44 v49 (ix2 p (0 : Fin 1))
      = Ideal.div (∑ k : Fin 64, k1_pay10 v2 v4 v16 v19 v22 v27 v32 v33 v34 v39 v44 v49 (ix2 p k)) c64 := by
  unfold k1_pay11
  generalize k1_pay10 v2 v4 v16 v19 v22 v27 v32 v33 v34 v39 v44 v49 = H
  simp only [divf_apply, broadcast_apply]
  rw [shapeCast_a_a1_apply, laneSum_apply]
  rfl

/-- The centred state at (p, q): the new state less its row mean. -/
theorem pay13_apply (v2 : Vec Ideal S5000x64 .f32) (v4 : FVec Ideal S5000x64 .bf16) (v16 v19 v22 : FVec Ideal S64x64 .bf16)
    (v27 v32 v33 : FVec Ideal S5000x64 .f32) (v34 v39 v44 v49 : Vec Ideal S1x64 .f32) (p : Fin 5000) (q : Fin 64) :
    k1_pay13 v2 v4 v16 v19 v22 v27 v32 v33 v34 v39 v44 v49 (ix2 p q)
      = k1_pay10 v2 v4 v16 v19 v22 v27 v32 v33 v34 v39 v44 v49 (ix2 p q)
        - k1_pay11 v2 v4 v16 v19 v22 v27 v32 v33 v34 v39 v44 v49 (ix2 p (0 : Fin 1)) := by
  unfold k1_pay13
  generalize k1_pay10 v2 v4 v16 v19 v22 v27 v32 v33 v34 v39 v44 v49 = H
  generalize k1_pay11 v2 v4 v16 v19 v22 v27 v32 v33 v34 v39 v44 v49 = M
  simp only [subf_apply]
  rw [broadcastTo_a1_ab_apply]

/-- The row variance's column at (p, 0): the squared centred state summed along the 64 columns, over 64. -/
theorem pay12_apply (v2 : Vec Ideal S5000x64 .f32) (v4 : FVec Ideal S5000x64 .bf16) (v16 v19 v22 : FVec Ideal S64x64 .bf16)
    (v27 v32 v33 : FVec Ideal S5000x64 .f32) (v34 v39 v44 v49 : Vec Ideal S1x64 .f32) (p : Fin 5000) :
    k1_pay12 v2 v4 v16 v19 v22 v27 v32 v33 v34 v39 v44 v49 (ix2 p (0 : Fin 1))
      = Ideal.div (∑ k : Fin 64,
          (k1_pay10 v2 v4 v16 v19 v22 v27 v32 v33 v34 v39 v44 v49 (ix2 p k)
            - k1_pay11 v2 v4 v16 v19 v22 v27 v32 v33 v34 v39 v44 v49 (ix2 p (0 : Fin 1)))
          * (k1_pay10 v2 v4 v16 v19 v22 v27 v32 v33 v34 v39 v44 v49 (ix2 p k)
            - k1_pay11 v2 v4 v16 v19 v22 v27 v32 v33 v34 v39 v44 v49 (ix2 p (0 : Fin 1)))) c64 := by
  unfold k1_pay12
  generalize k1_pay10 v2 v4 v16 v19 v22 v27 v32 v33 v34 v39 v44 v49 = H
  generalize k1_pay11 v2 v4 v16 v19 v22 v27 v32 v33 v34 v39 v44 v49 = M
  simp only [divf_apply, broadcast_apply]
  rw [shapeCast_a_a1_apply, laneSum_apply]
  simp only [mulf_apply, subf_apply, broadcastTo_a1_ab_apply]
  rfl

/-- The stored value at (p, q): the centred state times the reciprocal root of (variance + ε), scaled and shifted. -/
theorem pay1_apply (v75 : FVec Ideal S5000x1 .f32) (v77 : FVec Ideal S5000x64 .f32) (v78 : FVec Ideal S5000x1 .f32)
    (v83 v87 : Vec Ideal S1x64 .f32) (p : Fin 5000) (q : Fin 64) :
    k1_pay1 v75 v77 v78 v83 v87 (ix2 p q)
      = ((v77 (ix2 p q) * Ideal.rsqrt (v75 (ix2 p (0 : Fin 1)) + v78 (ix2 p (0 : Fin 1)))) * v83 (ix2 (0 : Fin 1) q))
        + v87 (ix2 (0 : Fin 1) q) := by
  unfold k1_pay1
  simp only [shapeCast_self]
  simp only [addf_apply, mulf_apply, broadcastTo_1b_ab_apply, broadcastTo_a1_ab_apply, rsqrt_apply]

/-- The ε column is the LayerNorm's ε everywhere. -/
theorem pay14_apply (i : S5000x1.Idx) : (k1_pay14 (F := Ideal)) i = lnEps := rfl

/-- THE BLOCK'S STORED VALUE at (p, q) is the specification's GRU cell and LayerNorm of the sixteen blocks read through
    accessors, at row p of the block and column q. -/
theorem pay_apply (x0 x1 : Vec Ideal S5000x64 .f32) (x2 x3 x4 x5 x6 x7 : Vec Ideal S64x64 .f32)
    (x8 x9 x10 x11 x12 x13 x14 x15 : Vec Ideal S1x64 .f32) (p : Fin 5000) (q : Fin 64) :
    k1_pay1
        (k1_pay12 x1 (k1_pay3 x1) (k1_pay4 x5) (k1_pay5 x6) (k1_pay6 x7) (k1_pay7 x0 x2 x8) (k1_pay8 x0 x3 x9) (k1_pay9 x0 x4) x10 x11 x12 x13)
        (k1_pay13 x1 (k1_pay3 x1) (k1_pay4 x5) (k1_pay5 x6) (k1_pay6 x7) (k1_pay7 x0 x2 x8) (k1_pay8 x0 x3 x9) (k1_pay9 x0 x4) x10 x11 x12 x13)
        (k1_pay14 (F := Ideal)) x14 x15 (ix2 p q)
      = gruSpec (n := 5000) (acc2 (n := 5000) (m := 64) x0) (acc2 (n := 5000) (m := 64) x1)
          ![acc2 (n := 64) (m := 64) x2, acc2 (n := 64) (m := 64) x3, acc2 (n := 64) (m := 64) x4]
          ![acc2 (n := 64) (m := 64) x5, acc2 (n := 64) (m := 64) x6, acc2 (n := 64) (m := 64) x7]
          ![accRow (m := 64) x8, accRow (m := 64) x9, accRow (m := 64) x10]
          ![accRow (m := 64) x11, accRow (m := 64) x12, accRow (m := 64) x13]
          (accRow (m := 64) x14) (accRow (m := 64) x15) p q := by
  rw [pay1_apply, pay12_apply, pay13_apply, pay11_apply, pay14_apply]
  simp only [h_apply]
  unfold gruSpec layerNorm rowMean
  rfl

/-! ## From the blocks to the array -/

/-- The specification at a row reads only that row of the two row-indexed arrays. -/
theorem gruSpec_congr {n n' : Nat} {agg x : Fin n → Fin 64 → EReal} {agg' x' : Fin n' → Fin 64 → EReal}
    {wi wh wi' wh' : Fin 3 → Fin 64 → Fin 64 → EReal} {bi bh bi' bh' : Fin 3 → Fin 64 → EReal} {g b g' b' : Fin 64 → EReal}
    {r : Fin n} {r' : Fin n'} {j j' : Fin 64}
    (ha : agg r = agg' r') (hx : x r = x' r') (hwi : wi = wi') (hwh : wh = wh') (hbi : bi = bi') (hbh : bh = bh')
    (hg : g = g') (hb : b = b') (hj : j = j') :
    gruSpec agg x wi wh bi bh g b r j = gruSpec agg' x' wi' wh' bi' bh' g' b' r' j' := by
  subst hwi hwh hbi hbh hg hb hj
  have hH : ∀ q, gruH agg x wi wh bi bh r q = gruH agg' x' wi wh bi bh r' q := fun q => by
    unfold gruH; rw [ha, hx]
  unfold gruSpec layerNorm rowMean
  simp only [hH]

/-- The printed index maps, decided over the 20 points: the three row windows' block index is the point's number on the
    row axis and 0 on the column axis; every weight window's block index is 0 on both axes. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_16.index t (0 : Fin 2) = t.val ∧ win1_16.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0)
    ∧ (win1_11.index t (0 : Fin 2) = 0 ∧ win1_11.index t (1 : Fin 2) = 0)
    ∧ (win1_12.index t (0 : Fin 2) = 0 ∧ win1_12.index t (1 : Fin 2) = 0)
    ∧ (win1_13.index t (0 : Fin 2) = 0 ∧ win1_13.index t (1 : Fin 2) = 0)
    ∧ (win1_14.index t (0 : Fin 2) = 0 ∧ win1_14.index t (1 : Fin 2) = 0)
    ∧ (win1_15.index t (0 : Fin 2) = 0 ∧ win1_15.index t (1 : Fin 2) = 0) :=
  (by decide +kernel : ∀ t : Fin grid1.N, _)

/-- A row of the aggregate's block at point t is row t·5000 + p of the aggregate. -/
theorem row_blk0 (c : Dev nD) (t : Fin cfg1.N) (p : Fin 5000) (r : Fin 100000) (hr : r.val = t.val * 5000 + p.val) :
    acc2 (n := 5000) (m := 64) (iblk1 V c 0 t) p = acc2 (n := 100000) (m := 64) (V c main_v14) r := by
  funext a
  show V c main_v14 (((cfg1.win 0).blk t).view.emb (ix2 p a)) = V c main_v14 (ix2 r a)
  refine congrArg _ (funext fun ax => Fin.ext ?_)
  obtain ⟨⟨e0, e1⟩, -⟩ := idx_facts t
  match ax with
  | ⟨0, _⟩ => show win1_0.index t (0 : Fin 2) * 5000 + 1 * p.val = r.val; omega
  | ⟨1, _⟩ => show win1_0.index t (1 : Fin 2) * 64 + 1 * a.val = a.val; omega

/-- A row of the node features' block at point t is row t·5000 + p of the node features. -/
theorem row_blk1 (c : Dev nD) (t : Fin cfg1.N) (p : Fin 5000) (r : Fin 100000) (hr : r.val = t.val * 5000 + p.val) :
    acc2 (n := 5000) (m := 64) (iblk1 V c 1 t) p = acc2 (n := 100000) (m := 64) (V c main_arg0) r := by
  funext a
  show V c main_arg0 (((cfg1.win 1).blk t).view.emb (ix2 p a)) = V c main_arg0 (ix2 r a)
  refine congrArg _ (funext fun ax => Fin.ext ?_)
  obtain ⟨-, ⟨e0, e1⟩, -⟩ := idx_facts t
  match ax with
  | ⟨0, _⟩ => show win1_1.index t (0 : Fin 2) * 5000 + 1 * p.val = r.val; omega
  | ⟨1, _⟩ => show win1_1.index t (1 : Fin 2) * 64 + 1 * a.val = a.val; omega

/-! Each weight window has ONE block, at block index 0 on both axes and of the array's size: the block is the array. -/

theorem wblk2 (c : Dev nD) (t : Fin cfg1.N) : (iblk1 V c 2 t : S64x64.Idx → EReal) = V c main_v27 := by
  funext y
  show V c main_v27 (((cfg1.win 2).blk t).view.emb y) = V c main_v27 y
  refine congrArg _ (funext fun ax => Fin.ext ?_)
  obtain ⟨-, -, -, ⟨e0, e1⟩, -⟩ := idx_facts t
  match ax with
  | ⟨0, _⟩ => show win1_2.index t (0 : Fin 2) * 64 + 1 * (y 0).val = (y 0).val; omega
  | ⟨1, _⟩ => show win1_2.index t (1 : Fin 2) * 64 + 1 * (y 1).val = (y 1).val; omega

theorem wblk3 (c : Dev nD) (t : Fin cfg1.N) : (iblk1 V c 3 t : S64x64.Idx → EReal) = V c main_v28 := by
  funext y
  show V c main_v28 (((cfg1.win 3).blk t).view.emb y) = V c main_v28 y
  refine congrArg _ (funext fun ax => Fin.ext ?_)
  obtain ⟨-, -, -, -, ⟨e0, e1⟩, -⟩ := idx_facts t
  match ax with
  | ⟨0, _⟩ => show win1_3.index t (0 : Fin 2) * 64 + 1 * (y 0).val = (y 0).val; omega
  | ⟨1, _⟩ => show win1_3.index t (1 : Fin 2) * 64 + 1 * (y 1).val = (y 1).val; omega

theorem wblk4 (c : Dev nD) (t : Fin cfg1.N) : (iblk1 V c 4 t : S64x64.Idx → EReal) = V c main_v29 := by
  funext y
  show V c main_v29 (((cfg1.win 4).blk t).view.emb y) = V c main_v29 y
  refine congrArg _ (funext fun ax => Fin.ext ?_)
  obtain ⟨-, -, -, -, -, ⟨e0, e1⟩, -⟩ := idx_facts t
  match ax with
  | ⟨0, _⟩ => show win1_4.index t (0 : Fin 2) * 64 + 1 * (y 0).val = (y 0).val; omega
  | ⟨1, _⟩ => show win1_4.index t (1 : Fin 2) * 64 + 1 * (y 1).val = (y 1).val; omega

theorem wblk5 (c : Dev nD) (t : Fin cfg1.N) : (iblk1 V c 5 t : S64x64.Idx → EReal) = V c main_v30 := by
  funext y
  show V c main_v30 (((cfg1.win 5).blk t).view.emb y) = V c main_v30 y
  refine congrArg _ (funext fun ax => Fin.ext ?_)
  obtain ⟨-, -, -, -, -, -, ⟨e0, e1⟩, -⟩ := idx_facts t
  match ax with
  | ⟨0, _⟩ => show win1_5.index t (0 : Fin 2) * 64 + 1 * (y 0).val = (y 0).val; omega
  | ⟨1, _⟩ => show win1_5.index t (1 : Fin 2) * 64 + 1 * (y 1).val = (y 1).val; omega

theorem wblk6 (c : Dev nD) (t : Fin cfg1.N) : (iblk1 V c 6 t : S64x64.Idx → EReal) = V c main_v31 := by
  funext y
  show V c main_v31 (((cfg1.win 6).blk t).view.emb y) = V c main_v31 y
  refine congrArg _ (funext fun ax => Fin.ext ?_)
  obtain ⟨-, -, -, -, -, -, -, ⟨e0, e1⟩, -⟩ := idx_facts t
  match ax with
  | ⟨0, _⟩ => show win1_6.index t (0 : Fin 2) * 64 + 1 * (y 0).val = (y 0).val; omega
  | ⟨1, _⟩ => show win1_6.index t (1 : Fin 2) * 64 + 1 * (y 1).val = (y 1).val; omega

theorem wblk7 (c : Dev nD) (t : Fin cfg1.N) : (iblk1 V c 7 t : S64x64.Idx → EReal) = V c main_v32 := by
  funext y
  show V c main_v32 (((cfg1.win 7).blk t).view.emb y) = V c main_v32 y
  refine congrArg _ (funext fun ax => Fin.ext ?_)
  obtain ⟨-, -, -, -, -, -, -, -, ⟨e0, e1⟩, -⟩ := idx_facts t
  match ax with
  | ⟨0, _⟩ => show win1_7.index t (0 : Fin 2) * 64 + 1 * (y 0).val = (y 0).val; omega
  | ⟨1, _⟩ => show win1_7.index t (1 : Fin 2) * 64 + 1 * (y 1).val = (y 1).val; omega

theorem wblk8 (c : Dev nD) (t : Fin cfg1.N) : (iblk1 V c 8 t : S1x64.Idx → EReal) = V c main_v33 := by
  funext y
  show V c main_v33 (((cfg1.win 8).blk t).view.emb y) = V c main_v33 y
  refine congrArg _ (funext fun ax => Fin.ext ?_)
  obtain ⟨-, -, -, -, -, -, -, -, -, ⟨e0, e1⟩, -⟩ := idx_facts t
  match ax with
  | ⟨0, _⟩ => show win1_8.index t (0 : Fin 2) * 1 + 1 * (y 0).val = (y 0).val; omega
  | ⟨1, _⟩ => show win1_8.index t (1 : Fin 2) * 64 + 1 * (y 1).val = (y 1).val; omega

theorem wblk9 (c : Dev nD) (t : Fin cfg1.N) : (iblk1 V c 9 t : S1x64.Idx → EReal) = V c main_v34 := by
  funext y
  show V c main_v34 (((cfg1.win 9).blk t).view.emb y) = V c main_v34 y
  refine congrArg _ (funext fun ax => Fin.ext ?_)
  obtain ⟨-, -, -, -, -, -, -, -, -, -, ⟨e0, e1⟩, -⟩ := idx_facts t
  match ax with
  | ⟨0, _⟩ => show win1_9.index t (0 : Fin 2) * 1 + 1 * (y 0).val = (y 0).val; omega
  | ⟨1, _⟩ => show win1_9.index t (1 : Fin 2) * 64 + 1 * (y 1).val = (y 1).val; omega

theorem wblk10 (c : Dev nD) (t : Fin cfg1.N) : (iblk1 V c 10 t : S1x64.Idx → EReal) = V c main_v35 := by
  funext y
  show V c main_v35 (((cfg1.win 10).blk t).view.emb y) = V c main_v35 y
  refine congrArg _ (funext fun ax => Fin.ext ?_)
  obtain ⟨-, -, -, -, -, -, -, -, -, -, -, ⟨e0, e1⟩, -⟩ := idx_facts t
  match ax with
  | ⟨0, _⟩ => show win1_10.index t (0 : Fin 2) * 1 + 1 * (y 0).val = (y 0).val; omega
  | ⟨1, _⟩ => show win1_10.index t (1 : Fin 2) * 64 + 1 * (y 1).val = (y 1).val; omega

theorem wblk11 (c : Dev nD) (t : Fin cfg1.N) : (iblk1 V c 11 t : S1x64.Idx → EReal) = V c main_v36 := by
  funext y
  show V c main_v36 (((cfg1.win 11).blk t).view.emb y) = V c main_v36 y
  refine congrArg _ (funext fun ax => Fin.ext ?_)
  obtain ⟨-, -, -, -, -, -, -, -, -, -, -, -, ⟨e0, e1⟩, -⟩ := idx_facts t
  match ax with
  | ⟨0, _⟩ => show win1_11.index t (0 : Fin 2) * 1 + 1 * (y 0).val = (y 0).val; omega
  | ⟨1, _⟩ => show win1_11.index t (1 : Fin 2) * 64 + 1 * (y 1).val = (y 1).val; omega

theorem wblk12 (c : Dev nD) (t : Fin cfg1.N) : (iblk1 V c 12 t : S1x64.Idx → EReal) = V c main_v37 := by
  funext y
  show V c main_v37 (((cfg1.win 12).blk t).view.emb y) = V c main_v37 y
  refine congrArg _ (funext fun ax => Fin.ext ?_)
  obtain ⟨-, -, -, -, -, -, -, -, -, -, -, -, -, ⟨e0, e1⟩, -⟩ := idx_facts t
  match ax with
  | ⟨0, _⟩ => show win1_12.index t (0 : Fin 2) * 1 + 1 * (y 0).val = (y 0).val; omega
  | ⟨1, _⟩ => show win1_12.index t (1 : Fin 2) * 64 + 1 * (y 1).val = (y 1).val; omega

theorem wblk13 (c : Dev nD) (t : Fin cfg1.N) : (iblk1 V c 13 t : S1x64.Idx → EReal) = V c main_v38 := by
  funext y
  show V c main_v38 (((cfg1.win 13).blk t).view.emb y) = V c main_v38 y
  refine congrArg _ (funext fun ax => Fin.ext ?_)
  obtain ⟨-, -, -, -, -, -, -, -, -, -, -, -, -, -, ⟨e0, e1⟩, -⟩ := idx_facts t
  match ax with
  | ⟨0, _⟩ => show win1_13.index t (0 : Fin 2) * 1 + 1 * (y 0).val = (y 0).val; omega
  | ⟨1, _⟩ => show win1_13.index t (1 : Fin 2) * 64 + 1 * (y 1).val = (y 1).val; omega

theorem wblk14 (c : Dev nD) (t : Fin cfg1.N) : (iblk1 V c 14 t : S1x64.Idx → EReal) = V c main_v39 := by
  funext y
  show V c main_v39 (((cfg1.win 14).blk t).view.emb y) = V c main_v39 y
  refine congrArg _ (funext fun ax => Fin.ext ?_)
  obtain ⟨-, -, -, -, -, -, -, -, -, -, -, -, -, -, -, ⟨e0, e1⟩, -⟩ := idx_facts t
  match ax with
  | ⟨0, _⟩ => show win1_14.index t (0 : Fin 2) * 1 + 1 * (y 0).val = (y 0).val; omega
  | ⟨1, _⟩ => show win1_14.index t (1 : Fin 2) * 64 + 1 * (y 1).val = (y 1).val; omega

theorem wblk15 (c : Dev nD) (t : Fin cfg1.N) : (iblk1 V c 15 t : S1x64.Idx → EReal) = V c main_v40 := by
  funext y
  show V c main_v40 (((cfg1.win 15).blk t).view.emb y) = V c main_v40 y
  refine congrArg _ (funext fun ax => Fin.ext ?_)
  obtain ⟨-, -, -, -, -, -, -, -, -, -, -, -, -, -, -, -, ⟨e0, e1⟩⟩ := idx_facts t
  match ax with
  | ⟨0, _⟩ => show win1_15.index t (0 : Fin 2) * 1 + 1 * (y 0).val = (y 0).val; omega
  | ⟨1, _⟩ => show win1_15.index t (1 : Fin 2) * 64 + 1 * (y 1).val = (y 1).val; omega

/-- The block's stored value at any index of the block. -/
theorem pay_eq (x0 x1 : Vec Ideal S5000x64 .f32) (x2 x3 x4 x5 x6 x7 : Vec Ideal S64x64 .f32)
    (x8 x9 x10 x11 x12 x13 x14 x15 : Vec Ideal S1x64 .f32) (y : S5000x64.Idx) :
    k1_pay1
        (k1_pay12 x1 (k1_pay3 x1) (k1_pay4 x5) (k1_pay5 x6) (k1_pay6 x7) (k1_pay7 x0 x2 x8) (k1_pay8 x0 x3 x9) (k1_pay9 x0 x4) x10 x11 x12 x13)
        (k1_pay13 x1 (k1_pay3 x1) (k1_pay4 x5) (k1_pay5 x6) (k1_pay6 x7) (k1_pay7 x0 x2 x8) (k1_pay8 x0 x3 x9) (k1_pay9 x0 x4) x10 x11 x12 x13)
        (k1_pay14 (F := Ideal)) x14 x15 y
      = gruSpec (n := 5000) (acc2 (n := 5000) (m := 64) x0) (acc2 (n := 5000) (m := 64) x1)
          ![acc2 (n := 64) (m := 64) x2, acc2 (n := 64) (m := 64) x3, acc2 (n := 64) (m := 64) x4]
          ![acc2 (n := 64) (m := 64) x5, acc2 (n := 64) (m := 64) x6, acc2 (n := 64) (m := 64) x7]
          ![accRow (m := 64) x8, accRow (m := 64) x9, accRow (m := 64) x10]
          ![accRow (m := 64) x11, accRow (m := 64) x12, accRow (m := 64) x13]
          (accRow (m := 64) x14) (accRow (m := 64) x15) (y 0) (y 1) := by
  obtain ⟨p, q, rfl⟩ : ∃ (p : Fin 5000) (q : Fin 64), y = ix2 p q := ⟨y 0, y 1, eq_ix2 y⟩
  exact pay_apply x0 x1 x2 x3 x4 x5 x6 x7 x8 x9 x10 x11 x12 x13 x14 x15 p q

/-- What the region's output array ends holding: the specification of the region's input arrays, index by index. -/
abbrev outSpec (c : Dev nD) : Buf (Elt Ideal) ((cfg1.win 16).arr.view.loc (c : Thread nD τ)) := fun i => gruSpec (n := 100000)
      (acc2 (n := 100000) (m := 64) (V c main_v14)) (acc2 (n := 100000) (m := 64) (V c main_arg0))
      ![acc2 (n := 64) (m := 64) (V c main_v27), acc2 (n := 64) (m := 64) (V c main_v28), acc2 (n := 64) (m := 64) (V c main_v29)]
      ![acc2 (n := 64) (m := 64) (V c main_v30), acc2 (n := 64) (m := 64) (V c main_v31), acc2 (n := 64) (m := 64) (V c main_v32)]
      ![accRow (m := 64) (V c main_v33), accRow (m := 64) (V c main_v34), accRow (m := 64) (V c main_v35)]
      ![accRow (m := 64) (V c main_v36), accRow (m := 64) (V c main_v37), accRow (m := 64) (V c main_v38)]
      (accRow (m := 64) (V c main_v39)) (accRow (m := 64) (V c main_v40)) (i 0) (i 1)

/-- WHAT POINT t WRITES BACK is block t of the specification of the region's input arrays. -/
theorem flushed_eq (c : Dev nD) (t : Fin cfg1.N) :
    (dat1 (F := Ideal) V c).flushed 16 t = ((cfg1.win 16).blk t).view.read (Elt Ideal) (outSpec V c) := by
  show (cfg1.win 16).cut (grid1.coords t) ((dat1 V c).after 16 t) = _
  rw [after1_16]
  unfold out1_16
  rw [View.canon_unit_zero hz]
  simp only [View.ld_unit_zero (S := S5000x64) hz, View.ld_unit_zero (S := S64x64) hz, View.ld_unit_zero (S := S1x64) hz]
  refine funext fun (j : S5000x64.Idx) => ?_
  refine (pay_eq (iblk1 V c 0 t) (iblk1 V c 1 t) (iblk1 V c 2 t) (iblk1 V c 3 t) (iblk1 V c 4 t) (iblk1 V c 5 t) (iblk1 V c 6 t)
    (iblk1 V c 7 t) (iblk1 V c 8 t) (iblk1 V c 9 t) (iblk1 V c 10 t) (iblk1 V c 11 t) (iblk1 V c 12 t) (iblk1 V c 13 t)
    (iblk1 V c 14 t) (iblk1 V c 15 t) j).trans ?_
  obtain ⟨-, -, ⟨e0, e1⟩, -⟩ := idx_facts t
  have hr : ((((cfg1.win 16).blk t).view.emb j) 0).val = t.val * 5000 + (j 0).val := by
    show win1_16.index t (0 : Fin 2) * 5000 + 1 * (j 0).val = _
    omega
  have hq : (j 1 : Fin 64) = (((cfg1.win 16).blk t).view.emb j) 1 := Fin.ext (by
    show (j 1).val = win1_16.index t (1 : Fin 2) * 64 + 1 * (j 1).val
    omega)
  exact gruSpec_congr (row_blk0 V c t (j 0) _ hr) (row_blk1 V c t (j 0) _ hr)
    (by rw [wblk2, wblk3, wblk4]) (by rw [wblk5, wblk6, wblk7]) (by rw [wblk8, wblk9, wblk10]) (by rw [wblk11, wblk12, wblk13])
    (by rw [wblk14]) (by rw [wblk15]) hq

/-- An index of the output array is in point t's block iff each coordinate is in the block's range on its axis. -/
theorem mem_blk (t : Fin cfg1.N) (i : S100000x64.Idx) :
    i ∈ ((cfg1.win 16).blk t).view.set ↔ ∀ a : Fin 2, win1_16.index t a * S5000x64.size a ≤ (i a).val ∧ (i a).val < win1_16.index t a * S5000x64.size a + S5000x64.size a := by
  show i ∈ ((View.whole main_v41).slice (win1_16.rect t)).set ↔ _
  rw [View.set_slice_whole, Rect.mem_set_unit]
  exact Iff.rfl

/-- The 20 row blocks cover the output array: row r is in the block of point r / 5000. -/
theorem cover (i : S100000x64.Idx) :
    ∃ t : Fin cfg1.N, (cfg1.win 16).flush t = true ∧ i ∈ ((cfg1.win 16).blk t).view.set := by
  have hi0 : (i 0).val < 100000 := (i 0).isLt
  have hi1 : (i 1).val < 64 := (i 1).isLt
  have hN : cfg1.N = 20 := N_1
  obtain ⟨t, ht⟩ : ∃ t : Fin cfg1.N, t.val = (i 0).val / 5000 := ⟨⟨(i 0).val / 5000, by rw [hN]; omega⟩, rfl⟩
  refine ⟨t, flush1_16 t, ?_⟩
  rw [mem_blk]
  obtain ⟨-, -, ⟨e0, e1⟩, -⟩ := idx_facts t
  intro a
  match a with
  | ⟨0, _⟩ =>
    show win1_16.index t (0 : Fin 2) * 5000 ≤ (i 0).val ∧ (i 0).val < win1_16.index t (0 : Fin 2) * 5000 + 5000
    omega
  | ⟨1, _⟩ =>
    show win1_16.index t (1 : Fin 2) * 64 ≤ (i 1).val ∧ (i 1).val < win1_16.index t (1 : Fin 2) * 64 + 64
    omega

/-- After the node-update region's run its output array holds, at (row, column), the GRU cell followed by the LayerNorm
    of that row of the aggregate and of the node features, with the six gate matrices, six gate biases and the LayerNorm's
    scale and shift, all as the region found them. -/
theorem final (c : Dev nD) :
    (dat1 (F := Ideal) V c).arrAt 16 cfg1.N = fun i => gruSpec (n := 100000)
      (acc2 (n := 100000) (m := 64) (V c main_v14)) (acc2 (n := 100000) (m := 64) (V c main_arg0))
      ![acc2 (n := 64) (m := 64) (V c main_v27), acc2 (n := 64) (m := 64) (V c main_v28), acc2 (n := 64) (m := 64) (V c main_v29)]
      ![acc2 (n := 64) (m := 64) (V c main_v30), acc2 (n := 64) (m := 64) (V c main_v31), acc2 (n := 64) (m := 64) (V c main_v32)]
      ![accRow (m := 64) (V c main_v33), accRow (m := 64) (V c main_v34), accRow (m := 64) (V c main_v35)]
      ![accRow (m := 64) (V c main_v36), accRow (m := 64) (V c main_v37), accRow (m := 64) (V c main_v38)]
      (accRow (m := 64) (V c main_v39)) (accRow (m := 64) (V c main_v40)) (i 0) (i 1) :=
  (dat1 (F := Ideal) V c).arrAt_eq_of_cover 16 (outSpec V c) (fun t _ => flushed_eq V c t) cover

end Cert.KernelIdeal.Region1

end
-- ==== Proof.Region2Value.lean ====
import proofs.«406467_j15685220565559_1_alg».proof.Proof.Gen.KernelIdeal.Frame
import proofs.«406467_j15685220565559_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Cert.Spec
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

example : Pipeline.arrRef spec2 0 = main_v42 ∧ Pipeline.arrRef spec2 1 = main_v43 ∧ Pipeline.arrRef spec2 2 = main_arg1 ∧ Pipeline.arrRef spec2 3 = main_v44
  ∧ Pipeline.arrRef spec2 4 = main_v45 ∧ Pipeline.arrRef spec2 5 = main_v46 ∧ Pipeline.arrRef spec2 6 = main_v47 ∧ Pipeline.arrRef spec2 7 = main_arg14
  ∧ Pipeline.arrRef spec2 8 = main_v48 ∧ Pipeline.arrRef spec2 9 = main_v49 := ⟨rfl, rfl, rfl, rfl, rfl, rfl, rfl, rfl, rfl, rfl⟩

/-! ## The three contractions read at an index

Each is a plain rows × shared times shared × columns contraction into the zero splat: at (p, k) it is the sum over the
shared coordinate q of (left operand at (p, q)) · (right operand at (q, k)).  Per contraction: the left
operand's index carries the output's row on axis 0 and the shared coordinate on axis 1; the right operand's carries the
shared coordinate on axis 0 and the output's column on axis 1. -/

theorem lhs_s_0 (i : S8000x128.Idx) (q : dot_S8000x64_S64x128_S8000x128_1_0_0_1_n_n.contr.Idx) :
    (dot_S8000x64_S64x128_S8000x128_1_0_0_1_n_n.lhsIdx i q 0).val = (i 0).val := by
  unfold DotDims.lhsIdx
  rw [dif_neg (show ¬(0 : Fin S8000x64.rank) ∈ dot_S8000x64_S64x128_S8000x128_1_0_0_1_n_n.lhsBatch by decide), dif_pos (show (0 : Fin S8000x64.rank) ∈ dot_S8000x64_S64x128_S8000x128_1_0_0_1_n_n.lhsNonContracting by decide)]
  rfl
theorem lhs_s_1 (i : S8000x128.Idx) (q : dot_S8000x64_S64x128_S8000x128_1_0_0_1_n_n.contr.Idx) :
    (dot_S8000x64_S64x128_S8000x128_1_0_0_1_n_n.lhsIdx i q 1).val = (q ⟨0, by decide⟩).val :=
  dot_S8000x64_S64x128_S8000x128_1_0_0_1_n_n.lhsIdx_val_of_single rfl i q
theorem rhs_s_0 (i : S8000x128.Idx) (q : dot_S8000x64_S64x128_S8000x128_1_0_0_1_n_n.contr.Idx) :
    (dot_S8000x64_S64x128_S8000x128_1_0_0_1_n_n.rhsIdx i q 0).val = (q ⟨0, by decide⟩).val :=
  dot_S8000x64_S64x128_S8000x128_1_0_0_1_n_n.rhsIdx_val_of_single rfl i q
theorem rhs_s_1 (i : S8000x128.Idx) (q : dot_S8000x64_S64x128_S8000x128_1_0_0_1_n_n.contr.Idx) :
    (dot_S8000x64_S64x128_S8000x128_1_0_0_1_n_n.rhsIdx i q 1).val = (i 1).val := by
  unfold DotDims.rhsIdx
  rw [dif_neg (show ¬(1 : Fin S64x128.rank) ∈ dot_S8000x64_S64x128_S8000x128_1_0_0_1_n_n.rhsBatch by decide), dif_pos (show (1 : Fin S64x128.rank) ∈ dot_S8000x64_S64x128_S8000x128_1_0_0_1_n_n.rhsNonContracting by decide)]
  rfl

/-- A [8000,64] × [64,128] contraction into the zero splat, read at (p, k): the sum over the 64 shared coordinates. -/
theorem mm_s (a : FVec Ideal S8000x64 .bf16) (b : FVec Ideal S64x128 .bf16) (p : Fin 8000) (k : Fin 128) :
    matmul dot_S8000x64_S64x128_S8000x128_1_0_0_1_n_n none a b (constant (F := Ideal) S8000x128 .f32 0x00000000#32) (ix2 p k)
      = ∑ q : Fin 64, a (ix2 p q) * b (ix2 q k) := by
  refine (Ideal.matmul_constant_zero_apply dot_S8000x64_S64x128_S8000x128_1_0_0_1_n_n none a b (ix2 p k)).trans ?_
  rw [← Equiv.sum_comp (ValueIdx.contrEquiv1 dot_S8000x64_S64x128_S8000x128_1_0_0_1_n_n 64 rfl rfl).symm]
  refine Finset.sum_congr rfl fun q _ => ?_
  have hq := ValueIdx.contrEquiv1_symm_val dot_S8000x64_S64x128_S8000x128_1_0_0_1_n_n 64 rfl rfl q
  have el : dot_S8000x64_S64x128_S8000x128_1_0_0_1_n_n.lhsIdx (ix2 p k) ((ValueIdx.contrEquiv1 dot_S8000x64_S64x128_S8000x128_1_0_0_1_n_n 64 rfl rfl).symm q) = ix2 p q := funext fun a => Fin.ext (by
    match a with
    | ⟨0, _⟩ => exact lhs_s_0 _ _
    | ⟨1, _⟩ => exact (lhs_s_1 _ _).trans hq)
  have er : dot_S8000x64_S64x128_S8000x128_1_0_0_1_n_n.rhsIdx (ix2 p k) ((ValueIdx.contrEquiv1 dot_S8000x64_S64x128_S8000x128_1_0_0_1_n_n 64 rfl rfl).symm q) = ix2 q k := funext fun a => Fin.ext (by
    match a with
    | ⟨0, _⟩ => exact (rhs_s_0 _ _).trans hq
    | ⟨1, _⟩ => exact rhs_s_1 _ _)
  rw [el, er]

theorem lhs_e_0 (i : S8000x128.Idx) (q : dot_S8000x32_S32x128_S8000x128_1_0_0_1_n_n.contr.Idx) :
    (dot_S8000x32_S32x128_S8000x128_1_0_0_1_n_n.lhsIdx i q 0).val = (i 0).val := by
  unfold DotDims.lhsIdx
  rw [dif_neg (show ¬(0 : Fin S8000x32.rank) ∈ dot_S8000x32_S32x128_S8000x128_1_0_0_1_n_n.lhsBatch by decide), dif_pos (show (0 : Fin S8000x32.rank) ∈ dot_S8000x32_S32x128_S8000x128_1_0_0_1_n_n.lhsNonContracting by decide)]
  rfl
theorem lhs_e_1 (i : S8000x128.Idx) (q : dot_S8000x32_S32x128_S8000x128_1_0_0_1_n_n.contr.Idx) :
    (dot_S8000x32_S32x128_S8000x128_1_0_0_1_n_n.lhsIdx i q 1).val = (q ⟨0, by decide⟩).val :=
  dot_S8000x32_S32x128_S8000x128_1_0_0_1_n_n.lhsIdx_val_of_single rfl i q
theorem rhs_e_0 (i : S8000x128.Idx) (q : dot_S8000x32_S32x128_S8000x128_1_0_0_1_n_n.contr.Idx) :
    (dot_S8000x32_S32x128_S8000x128_1_0_0_1_n_n.rhsIdx i q 0).val = (q ⟨0, by decide⟩).val :=
  dot_S8000x32_S32x128_S8000x128_1_0_0_1_n_n.rhsIdx_val_of_single rfl i q
theorem rhs_e_1 (i : S8000x128.Idx) (q : dot_S8000x32_S32x128_S8000x128_1_0_0_1_n_n.contr.Idx) :
    (dot_S8000x32_S32x128_S8000x128_1_0_0_1_n_n.rhsIdx i q 1).val = (i 1).val := by
  unfold DotDims.rhsIdx
  rw [dif_neg (show ¬(1 : Fin S32x128.rank) ∈ dot_S8000x32_S32x128_S8000x128_1_0_0_1_n_n.rhsBatch by decide), dif_pos (show (1 : Fin S32x128.rank) ∈ dot_S8000x32_S32x128_S8000x128_1_0_0_1_n_n.rhsNonContracting by decide)]
  rfl

/-- A [8000,32] × [32,128] contraction into the zero splat, read at (p, k): the sum over the 32 shared coordinates. -/
theorem mm_e (a : FVec Ideal S8000x32 .bf16) (b : FVec Ideal S32x128 .bf16) (p : Fin 8000) (k : Fin 128) :
    matmul dot_S8000x32_S32x128_S8000x128_1_0_0_1_n_n none a b (constant (F := Ideal) S8000x128 .f32 0x00000000#32) (ix2 p k)
      = ∑ q : Fin 32, a (ix2 p q) * b (ix2 q k) := by
  refine (Ideal.matmul_constant_zero_apply dot_S8000x32_S32x128_S8000x128_1_0_0_1_n_n none a b (ix2 p k)).trans ?_
  rw [← Equiv.sum_comp (ValueIdx.contrEquiv1 dot_S8000x32_S32x128_S8000x128_1_0_0_1_n_n 32 rfl rfl).symm]
  refine Finset.sum_congr rfl fun q _ => ?_
  have hq := ValueIdx.contrEquiv1_symm_val dot_S8000x32_S32x128_S8000x128_1_0_0_1_n_n 32 rfl rfl q
  have el : dot_S8000x32_S32x128_S8000x128_1_0_0_1_n_n.lhsIdx (ix2 p k) ((ValueIdx.contrEquiv1 dot_S8000x32_S32x128_S8000x128_1_0_0_1_n_n 32 rfl rfl).symm q) = ix2 p q := funext fun a => Fin.ext (by
    match a with
    | ⟨0, _⟩ => exact lhs_e_0 _ _
    | ⟨1, _⟩ => exact (lhs_e_1 _ _).trans hq)
  have er : dot_S8000x32_S32x128_S8000x128_1_0_0_1_n_n.rhsIdx (ix2 p k) ((ValueIdx.contrEquiv1 dot_S8000x32_S32x128_S8000x128_1_0_0_1_n_n 32 rfl rfl).symm q) = ix2 q k := funext fun a => Fin.ext (by
    match a with
    | ⟨0, _⟩ => exact (rhs_e_0 _ _).trans hq
    | ⟨1, _⟩ => exact rhs_e_1 _ _)
  rw [el, er]

theorem lhs_o_0 (i : S8000x32.Idx) (q : dot_S8000x128_S128x32_S8000x32_1_0_0_1_n_n.contr.Idx) :
    (dot_S8000x128_S128x32_S8000x32_1_0_0_1_n_n.lhsIdx i q 0).val = (i 0).val := by
  unfold DotDims.lhsIdx
  rw [dif_neg (show ¬(0 : Fin S8000x128.rank) ∈ dot_S8000x128_S128x32_S8000x32_1_0_0_1_n_n.lhsBatch by decide), dif_pos (show (0 : Fin S8000x128.rank) ∈ dot_S8000x128_S128x32_S8000x32_1_0_0_1_n_n.lhsNonContracting by decide)]
  rfl
theorem lhs_o_1 (i : S8000x32.Idx) (q : dot_S8000x128_S128x32_S8000x32_1_0_0_1_n_n.contr.Idx) :
    (dot_S8000x128_S128x32_S8000x32_1_0_0_1_n_n.lhsIdx i q 1).val = (q ⟨0, by decide⟩).val :=
  dot_S8000x128_S128x32_S8000x32_1_0_0_1_n_n.lhsIdx_val_of_single rfl i q
theorem rhs_o_0 (i : S8000x32.Idx) (q : dot_S8000x128_S128x32_S8000x32_1_0_0_1_n_n.contr.Idx) :
    (dot_S8000x128_S128x32_S8000x32_1_0_0_1_n_n.rhsIdx i q 0).val = (q ⟨0, by decide⟩).val :=
  dot_S8000x128_S128x32_S8000x32_1_0_0_1_n_n.rhsIdx_val_of_single rfl i q
theorem rhs_o_1 (i : S8000x32.Idx) (q : dot_S8000x128_S128x32_S8000x32_1_0_0_1_n_n.contr.Idx) :
    (dot_S8000x128_S128x32_S8000x32_1_0_0_1_n_n.rhsIdx i q 1).val = (i 1).val := by
  unfold DotDims.rhsIdx
  rw [dif_neg (show ¬(1 : Fin S128x32.rank) ∈ dot_S8000x128_S128x32_S8000x32_1_0_0_1_n_n.rhsBatch by decide), dif_pos (show (1 : Fin S128x32.rank) ∈ dot_S8000x128_S128x32_S8000x32_1_0_0_1_n_n.rhsNonContracting by decide)]
  rfl

/-- A [8000,128] × [128,32] contraction into the zero splat, read at (p, j): the sum over the 128 shared coordinates. -/
theorem mm_o (a : FVec Ideal S8000x128 .bf16) (b : FVec Ideal S128x32 .bf16) (p : Fin 8000) (k : Fin 32) :
    matmul dot_S8000x128_S128x32_S8000x32_1_0_0_1_n_n none a b (constant (F := Ideal) S8000x32 .f32 0x00000000#32) (ix2 p k)
      = ∑ q : Fin 128, a (ix2 p q) * b (ix2 q k) := by
  refine (Ideal.matmul_constant_zero_apply dot_S8000x128_S128x32_S8000x32_1_0_0_1_n_n none a b (ix2 p k)).trans ?_
  rw [← Equiv.sum_comp (ValueIdx.contrEquiv1 dot_S8000x128_S128x32_S8000x32_1_0_0_1_n_n 128 rfl rfl).symm]
  refine Finset.sum_congr rfl fun q _ => ?_
  have hq := ValueIdx.contrEquiv1_symm_val dot_S8000x128_S128x32_S8000x32_1_0_0_1_n_n 128 rfl rfl q
  have el : dot_S8000x128_S128x32_S8000x32_1_0_0_1_n_n.lhsIdx (ix2 p k) ((ValueIdx.contrEquiv1 dot_S8000x128_S128x32_S8000x32_1_0_0_1_n_n 128 rfl rfl).symm q) = ix2 p q := funext fun a => Fin.ext (by
    match a with
    | ⟨0, _⟩ => exact lhs_o_0 _ _
    | ⟨1, _⟩ => exact (lhs_o_1 _ _).trans hq)
  have er : dot_S8000x128_S128x32_S8000x32_1_0_0_1_n_n.rhsIdx (ix2 p k) ((ValueIdx.contrEquiv1 dot_S8000x128_S128x32_S8000x32_1_0_0_1_n_n 128 rfl rfl).symm q) = ix2 q k := funext fun a => Fin.ext (by
    match a with
    | ⟨0, _⟩ => exact (rhs_o_0 _ _).trans hq
    | ⟨1, _⟩ => exact rhs_o_1 _ _)
  rw [el, er]

/-! ## The two bias rows, broadcast down the rows -/

/-- The [1,128] row broadcast to [8000,128], read at (p, k), is the row at k. -/
theorem bias_h (x : FVec Ideal S1x128 .f32) (p : Fin 8000) (k : Fin 128) :
    broadcastTo S8000x128 x broadcasts_S1x128_S8000x128 (ix2 p k) = x (ix2 (0 : Fin 1) k) := by
  refine broadcastTo_apply x _ (ix2 p k) (ix2 (0 : Fin 1) k) (fun a => ?_)
  match a with
  | ⟨0, _⟩ => rfl
  | ⟨1, _⟩ => rfl

/-- The [1,32] row broadcast to [8000,32], read at (p, j), is the row at j. -/
theorem bias_o (x : FVec Ideal S1x32 .f32) (p : Fin 8000) (j : Fin 32) :
    broadcastTo S8000x32 x broadcasts_S1x32_S8000x32 (ix2 p j) = x (ix2 (0 : Fin 1) j) := by
  refine broadcastTo_apply x _ (ix2 p j) (ix2 (0 : Fin 1) j) (fun a => ?_)
  match a with
  | ⟨0, _⟩ => rfl
  | ⟨1, _⟩ => rfl

/-! ## The payload at an index

At the extended reals rounding to the narrower float, widening, and a reshape to the same shape are the identity, so the
stored value at (p, j) of a block is the edge MLP with residual of row p of the three row blocks and of the six weight
blocks: it reads row p of the row blocks only. -/

/-- The stored block at index y is `edgeSpec` at the block's row count, of the blocks' accessors, at (y 0, y 1). -/
theorem pay_eq (x0 x1 : Vec Ideal S8000x64 .f32) (x2 : Vec Ideal S8000x32 .f32) (x3 x4 : Vec Ideal S64x128 .f32)
    (x5 : Vec Ideal S32x128 .f32) (x6 : Vec Ideal S1x128 .f32) (x7 : Vec Ideal S128x32 .f32) (x8 : Vec Ideal S1x32 .f32) (y : S8000x32.Idx) :
    k2_pay1 (F := Ideal) x2 (k2_pay2 x0 x1 x2 x3 x4 x5 x6 x7 x8) y
      = edgeSpec (n := 8000) (acc2 (n := 8000) (m := 64) x0) (acc2 (n := 8000) (m := 64) x1) (acc2 (n := 8000) (m := 32) x2)
          (acc2 (n := 64) (m := 128) x3) (acc2 (n := 64) (m := 128) x4) (acc2 (n := 32) (m := 128) x5) (accRow (m := 128) x6)
          (acc2 (n := 128) (m := 32) x7) (accRow (m := 32) x8) (y 0) (y 1) := by
  obtain ⟨p, j, rfl⟩ : ∃ (p : Fin 8000) (j : Fin 32), y = ix2 p j := ⟨y 0, y 1, eq_ix2 y⟩
  unfold k2_pay1 k2_pay2
  simp only [maximumf_apply, addf_apply, broadcast_apply, truncf_apply, shapeCast_self, mm_o, mm_s, mm_e, bias_h, bias_o,
    Ideal.ofBits_def, Ideal.ofBits_zero_f32]
  rfl

/-! ## Row locality

Row r of the result reads row r of the three row-indexed arrays and all of the weight arrays: two instances of the
specification, at any two row counts, agree at rows whose three input rows agree, over equal weights. -/

theorem edgeSpec_row {n n' : Nat} {s t : Fin n → Fin 64 → EReal} {e : Fin n → Fin 32 → EReal}
    {s' t' : Fin n' → Fin 64 → EReal} {e' : Fin n' → Fin 32 → EReal}
    {ws wt ws' wt' : Fin 64 → Fin 128 → EReal} {we we' : Fin 32 → Fin 128 → EReal} {b1 b1' : Fin 128 → EReal}
    {w2 w2' : Fin 128 → Fin 32 → EReal} {b2 b2' : Fin 32 → EReal} {r : Fin n} {r' : Fin n'} {j j' : Fin 32}
    (hs : s r = s' r') (ht : t r = t' r') (he : e r = e' r') (hws : ws = ws') (hwt : wt = wt') (hwe : we = we')
    (hb1 : b1 = b1') (hw2 : w2 = w2') (hb2 : b2 = b2') (hj : j = j') :
    edgeSpec s t e ws wt we b1 w2 b2 r j = edgeSpec s' t' e' ws' wt' we' b1' w2' b2' r' j' := by
  subst hws hwt hwe hb1 hw2 hb2 hj
  unfold Cert.Spec.edgeSpec Cert.Spec.hidden
  rw [hs, ht, he]

/-! ## The index maps, decided once over the 200 points

The three row-indexed inputs and the output move together, one block of 8000 rows per point, at column block 0; each
weight window has the one block (0, 0). -/

theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = t.val ∧ win2_9.index t (1 : Fin 2) = 0 :=
  (by decide +kernel : ∀ t : Fin grid2.N, _)

/-! ## What a point writes back

Point t's stored block is, index by index, the specification over the whole arrays read at the block's place: a
coordinate of a block inside its array is (block index) × (block size) + 1 × (coordinate inside the block), the
row-indexed windows' block index at t is (t, 0) and the weight windows' is (0, 0). -/

/-- The zero offsets of every access in the body, as the constant function. -/
theorem hz : (![0, 0] : Fin 2 → Nat) = fun _ => 0 := funext fun a => by
  match a with
  | ⟨0, _⟩ => rfl
  | ⟨1, _⟩ => rfl

/-- What point t writes back is block t of the edge MLP with residual of the arrays as the region finds them. -/
theorem flushed_eq (c : Dev nD) (t : Fin cfg2.N) :
    (dat2 (F := Ideal) V c).flushed 9 t = ((cfg2.win 9).blk t).view.read (Elt Ideal) (fun i => edgeSpec (n := 1600000)
      (acc2 (n := 1600000) (m := 64) (V c main_v42)) (acc2 (n := 1600000) (m := 64) (V c main_v43)) (acc2 (n := 1600000) (m := 32) (V c main_arg1))
      (acc2 (n := 64) (m := 128) (V c main_v44)) (acc2 (n := 64) (m := 128) (V c main_v45)) (acc2 (n := 32) (m := 128) (V c main_v46))
      (accRow (m := 128) (V c main_v47)) (acc2 (n := 128) (m := 32) (V c main_arg14)) (accRow (m := 32) (V c main_v48)) (i 0) (i 1)) := by
  show (cfg2.win 9).cut (grid2.coords t) ((dat2 (F := Ideal) V c).after 9 t) = _
  rw [after2_9]
  unfold out2_9
  rw [View.canon_unit_zero hz]
  simp only [View.ld_unit_zero (S := S8000x64) hz, View.ld_unit_zero (S := S8000x32) hz, View.ld_unit_zero (S := S64x128) hz,
    View.ld_unit_zero (S := S32x128) hz, View.ld_unit_zero (S := S1x128) hz, View.ld_unit_zero (S := S128x32) hz, View.ld_unit_zero (S := S1x32) hz]
  obtain ⟨a00, a01, a10, a11, a20, a21, a30, a31, a40, a41, a50, a51, a60, a61, a70, a71, a80, a81, a90, a91⟩ := idx_facts t
  funext y
  refine (pay_eq _ _ _ _ _ _ _ _ _ _).trans ?_
  refine edgeSpec_row ?_ ?_ ?_ ?_ ?_ ?_ ?_ ?_ ?_ ?_
  · funext a
    show V c main_v42 (((cfg2.win 0).blk t).view.emb (ix2 ((win2 9).xinj (grid2.coords t) y 0) a)) = V c main_v42 (ix2 (((cfg2.win 9).blk t).view.emb y 0) a)
    refine congrArg (V c main_v42) (funext fun d => Fin.ext ?_)
    match d with
    | ⟨0, _⟩ => show win2_0.index t (0 : Fin 2) * 8000 + 1 * (y 0).val = win2_9.index t (0 : Fin 2) * 8000 + 1 * (y 0).val; omega
    | ⟨1, _⟩ => show win2_0.index t (1 : Fin 2) * 64 + 1 * a.val = a.val; omega
  · funext a
    show V c main_v43 (((cfg2.win 1).blk t).view.emb (ix2 ((win2 9).xinj (grid2.coords t) y 0) a)) = V c main_v43 (ix2 (((cfg2.win 9).blk t).view.emb y 0) a)
    refine congrArg (V c main_v43) (funext fun d => Fin.ext ?_)
    match d with
    | ⟨0, _⟩ => show win2_1.index t (0 : Fin 2) * 8000 + 1 * (y 0).val = win2_9.index t (0 : Fin 2) * 8000 + 1 * (y 0).val; omega
    | ⟨1, _⟩ => show win2_1.index t (1 : Fin 2) * 64 + 1 * a.val = a.val; omega
  · funext a
    show V c main_arg1 (((cfg2.win 2).blk t).view.emb (ix2 ((win2 9).xinj (grid2.coords t) y 0) a)) = V c main_arg1 (ix2 (((cfg2.win 9).blk t).view.emb y 0) a)
    refine congrArg (V c main_arg1) (funext fun d => Fin.ext ?_)
    match d with
    | ⟨0, _⟩ => show win2_2.index t (0 : Fin 2) * 8000 + 1 * (y 0).val = win2_9.index t (0 : Fin 2) * 8000 + 1 * (y 0).val; omega
    | ⟨1, _⟩ => show win2_2.index t (1 : Fin 2) * 32 + 1 * a.val = a.val; omega
  · funext q k
    show V c main_v44 (((cfg2.win 3).blk t).view.emb (ix2 q k)) = V c main_v44 (ix2 q k)
    refine congrArg (V c main_v44) (funext fun d => Fin.ext ?_)
    match d with
    | ⟨0, _⟩ => show win2_3.index t (0 : Fin 2) * 64 + 1 * q.val = q.val; omega
    | ⟨1, _⟩ => show win2_3.index t (1 : Fin 2) * 128 + 1 * k.val = k.val; omega
  · funext q k
    show V c main_v45 (((cfg2.win 4).blk t).view.emb (ix2 q k)) = V c main_v45 (ix2 q k)
    refine congrArg (V c main_v45) (funext fun d => Fin.ext ?_)
    match d with
    | ⟨0, _⟩ => show win2_4.index t (0 : Fin 2) * 64 + 1 * q.val = q.val; omega
    | ⟨1, _⟩ => show win2_4.index t (1 : Fin 2) * 128 + 1 * k.val = k.val; omega
  · funext q k
    show V c main_v46 (((cfg2.win 5).blk t).view.emb (ix2 q k)) = V c main_v46 (ix2 q k)
    refine congrArg (V c main_v46) (funext fun d => Fin.ext ?_)
    match d with
    | ⟨0, _⟩ => show win2_5.index t (0 : Fin 2) * 32 + 1 * q.val = q.val; omega
    | ⟨1, _⟩ => show win2_5.index t (1 : Fin 2) * 128 + 1 * k.val = k.val; omega
  · funext k
    show V c main_v47 (((cfg2.win 6).blk t).view.emb (ix2 (0 : Fin 1) k)) = V c main_v47 (ix2 (0 : Fin 1) k)
    refine congrArg (V c main_v47) (funext fun d => Fin.ext ?_)
    match d with
    | ⟨0, _⟩ => show win2_6.index t (0 : Fin 2) * 1 + 1 * 0 = 0; omega
    | ⟨1, _⟩ => show win2_6.index t (1 : Fin 2) * 128 + 1 * k.val = k.val; omega
  · funext q k
    show V c main_arg14 (((cfg2.win 7).blk t).view.emb (ix2 q k)) = V c main_arg14 (ix2 q k)
    refine congrArg (V c main_arg14) (funext fun d => Fin.ext ?_)
    match d with
    | ⟨0, _⟩ => show win2_7.index t (0 : Fin 2) * 128 + 1 * q.val = q.val; omega
    | ⟨1, _⟩ => show win2_7.index t (1 : Fin 2) * 32 + 1 * k.val = k.val; omega
  · funext k
    show V c main_v48 (((cfg2.win 8).blk t).view.emb (ix2 (0 : Fin 1) k)) = V c main_v48 (ix2 (0 : Fin 1) k)
    refine congrArg (V c main_v48) (funext fun d => Fin.ext ?_)
    match d with
    | ⟨0, _⟩ => show win2_8.index t (0 : Fin 2) * 1 + 1 * 0 = 0; omega
    | ⟨1, _⟩ => show win2_8.index t (1 : Fin 2) * 32 + 1 * k.val = k.val; omega
  · refine Fin.ext ?_
    show (y 1).val = win2_9.index t (1 : Fin 2) * 32 + 1 * (y 1).val
    omega

/-! ## From blocks to the array

The 200 blocks of 8000 rows tile the 1600000 rows: row r lies in the block of point r / 8000, and every point writes its
block back. -/

/-- An index of the array is in point t's block iff each coordinate is in the block's range on its axis. -/
theorem mem_blk (t : Fin cfg2.N) (i : S1600000x32.Idx) :
    i ∈ ((cfg2.win 9).blk t).view.set ↔ ∀ a : Fin 2, win2_9.index t a * S8000x32.size a ≤ (i a).val ∧ (i a).val < win2_9.index t a * S8000x32.size a + S8000x32.size a := by
  show i ∈ ((View.whole main_v49).slice (win2_9.rect t)).set ↔ _
  rw [View.set_slice_whole, Rect.mem_set_unit]
  exact Iff.rfl

/-- Every index of the output array is in some point's block. -/
theorem cover (i : S1600000x32.Idx) :
    ∃ t : Fin cfg2.N, (cfg2.win 9).flush t = true ∧ i ∈ ((cfg2.win 9).blk t).view.set := by
  have hi0 : (i 0).val < 1600000 := (i 0).isLt
  have hi1 : (i 1).val < 32 := (i 1).isLt
  obtain ⟨t, ht⟩ : ∃ t : Fin cfg2.N, t.val = (i 0).val / 8000 :=
    ⟨⟨(i 0).val / 8000, by show (i 0).val / 8000 < grid2.N; rw [N_2]; omega⟩, rfl⟩
  obtain ⟨a00, a01, a10, a11, a20, a21, a30, a31, a40, a41, a50, a51, a60, a61, a70, a71, a80, a81, a90, a91⟩ := idx_facts t
  refine ⟨t, flush2_9 t, ?_⟩
  rw [mem_blk]
  intro a
  match a with
  | ⟨0, _⟩ => show win2_9.index t (0 : Fin 2) * 8000 ≤ (i 0).val ∧ (i 0).val < win2_9.index t (0 : Fin 2) * 8000 + 8000; omega
  | ⟨1, _⟩ => show win2_9.index t (1 : Fin 2) * 32 ≤ (i 1).val ∧ (i 1).val < win2_9.index t (1 : Fin 2) * 32 + 32; omega

/-- After the edge-update region's run its output array holds, at (row, column), the edge MLP with residual of that row
    of the three row-indexed input arrays and of the six weight arrays, all as the region found them. -/
theorem final (c : Dev nD) :
    (dat2 (F := Ideal) V c).arrAt 9 cfg2.N = fun i => edgeSpec (n := 1600000)
      (acc2 (n := 1600000) (m := 64) (V c main_v42)) (acc2 (n := 1600000) (m := 64) (V c main_v43)) (acc2 (n := 1600000) (m := 32) (V c main_arg1))
      (acc2 (n := 64) (m := 128) (V c main_v44)) (acc2 (n := 64) (m := 128) (V c main_v45)) (acc2 (n := 32) (m := 128) (V c main_v46))
      (accRow (m := 128) (V c main_v47)) (acc2 (n := 128) (m := 32) (V c main_arg14)) (accRow (m := 32) (V c main_v48)) (i 0) (i 1) := by
  exact (dat2 (F := Ideal) V c).arrAt_eq_of_cover 9 _ (fun t _ => flushed_eq V c t) cover

end Cert.KernelIdeal.Region2

end
-- ==== Proof.KHost0.lean ====
import proofs.«406467_j15685220565559_1_alg».proof.Proof.Gen.KernelIdeal.Frame
import proofs.«406467_j15685220565559_1_alg».proof.Proof.Spec
import proofs.«406467_j15685220565559_1_alg».proof.Proof.KTerms
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Host0

open Cert.KernelIdeal Cert.KernelIdeal.Gen Cert.KernelIdeal.Host Cert.Spec
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-- A buffer that no operation of a stretch writes holds after the stretch what it held before it: the stretch's
    result buffers are enumerated and each differs from the given one. -/
local macro "carry_through " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ### The first stretch: the two rows of the edge list -/

/-- The first stretch leaves row 0 of the edge list, as a vector, in its second buffer. -/
theorem edges_v1 (V : Valuation τ sig (Elt Ideal)) :
    StableHlo.after hostOps0 V (Proc.devRef .tc main_v1) = srcIdx (V (Proc.devRef .tc main_arg16)) := by
  after_results
  rfl
/-- The first stretch leaves row 1 of the edge list, as a vector, in its last buffer. -/
theorem edges_v3 (V : Valuation τ sig (Elt Ideal)) :
    StableHlo.after hostOps0 V (Proc.devRef .tc main_v3) = tgtIdx (V (Proc.devRef .tc main_arg16)) := by
  after_results
  rfl

/-- After the first stretch: the source row, the target row, and the node features (an argument no stretch writes). -/
theorem W1_v1 (c : Dev nD) : W1 m ρ c (Proc.devRef .tc main_v1) = srcIdx (m ((c : Thread nD τ).loc main_arg16)) :=
  edges_v1 _
theorem W1_v3 (c : Dev nD) : W1 m ρ c (Proc.devRef .tc main_v3) = tgtIdx (m ((c : Thread nD τ).loc main_arg16)) :=
  edges_v3 _
theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := by carry_through hostOps0
    _ = _ := rfl

/-! ### A row-take stretch, over any contents before it -/

section RowTake
variable {F : FTy → Type} [FloatOps F]

/-- A typed reference moves contents to its buffer's own type and back along one equation of types: there and back
    is the identity. -/
theorem back_forth {Val : EltTy → Type} {T : BufTy} (x : TRef sig T) (v : T.Contents Val) : x.ofBuf (x.toBuf v) = v := by
  simp only [TRef.ofBuf, TRef.toBuf, cast_cast, cast_eq]
/-- At a literal buffer the equation of types holds by computation and the move is the identity: the three buffers a
    row take reads from before it, and the two result buffers. -/
theorem read_v1 (v : (main_v1 : Ref sig .tc).ty.Contents (Elt F)) :
    (TRef.of main_v1 : TRef sig ⟨S1600000, .i32⟩).ofBuf v = v := rfl
theorem read_v3 (v : (main_v3 : Ref sig .tc).ty.Contents (Elt F)) :
    (TRef.of main_v3 : TRef sig ⟨S1600000, .i32⟩).ofBuf v = v := rfl
theorem read_arg0 (v : (main_arg0 : Ref sig .tc).ty.Contents (Elt F)) :
    (TRef.of main_arg0 : TRef sig ⟨S100000x64, .f32⟩).ofBuf v = v := rfl
theorem write_v4 (v : (⟨S1600000x64, .f32⟩ : BufTy).Contents (Elt F)) :
    (TRef.of main_v4 : TRef sig ⟨S1600000x64, .f32⟩).toBuf v = v := rfl
theorem write_v5 (v : (⟨S1600000x64, .f32⟩ : BufTy).Contents (Elt F)) :
    (TRef.of main_v5 : TRef sig ⟨S1600000x64, .f32⟩).toBuf v = v := rfl

/-- The first row-take stretch leaves in its last buffer the take of the node features at the index vector it reads. -/
theorem take_src (V : Valuation τ sig (Elt F)) :
    (StableHlo.after hostOps0_1 V (Proc.devRef .tc main_v4) : FVec F S1600000x64 .f32)
      = take (F := F) (V (Proc.devRef .tc main_arg0)) (V (Proc.devRef .tc main_v1)) := by
  after_results_simp
  simp only [back_forth, read_v1, read_arg0, write_v4]
  rfl
/-- The second row-take stretch, likewise. -/
theorem take_tgt (V : Valuation τ sig (Elt F)) :
    (StableHlo.after hostOps0_2 V (Proc.devRef .tc main_v5) : FVec F S1600000x64 .f32)
      = take (F := F) (V (Proc.devRef .tc main_arg0)) (V (Proc.devRef .tc main_v3)) := by
  after_results_simp
  simp only [back_forth, read_v3, read_arg0, write_v5]
  rfl

end RowTake

/-! What the message region finds in its nine input arrays, read back through the host operations before it
    (the two row takes of the node features, the three row blocks of the first weight matrix, the two biases as rows). -/

theorem V4_v4 (c : Dev nD) : V4 m ρ c main_v4 = take (F := Ideal) (m ((c : Thread nD τ).loc main_arg0)) (srcIdx (m ((c : Thread nD τ).loc main_arg16))) :=
  calc V4 m ρ c main_v4
    _ = W3 m ρ c (Proc.devRef .tc main_v4) := by carry_through hostOps0_3
    _ = W2 m ρ c (Proc.devRef .tc main_v4) := by carry_through hostOps0_2
    _ = take (F := Ideal) (W1 m ρ c (Proc.devRef .tc main_arg0)) (W1 m ρ c (Proc.devRef .tc main_v1)) := take_src _
    _ = _ := by rw [W1_arg0, W1_v1]
theorem V4_v5 (c : Dev nD) : V4 m ρ c main_v5 = take (F := Ideal) (m ((c : Thread nD τ).loc main_arg0)) (tgtIdx (m ((c : Thread nD τ).loc main_arg16))) :=
  have h0 : W2 m ρ c (Proc.devRef .tc main_arg0) = W1 m ρ c (Proc.devRef .tc main_arg0) := by carry_through hostOps0_1
  have h3 : W2 m ρ c (Proc.devRef .tc main_v3) = W1 m ρ c (Proc.devRef .tc main_v3) := by carry_through hostOps0_1
  calc V4 m ρ c main_v5
    _ = W3 m ρ c (Proc.devRef .tc main_v5) := by carry_through hostOps0_3
    _ = take (F := Ideal) (W2 m ρ c (Proc.devRef .tc main_arg0)) (W2 m ρ c (Proc.devRef .tc main_v3)) := take_tgt _
    _ = _ := by rw [h0, h3, W1_arg0, W1_v3]

/-! ### The arguments the last stretch before the region reads, and the two the region reads directly -/

/-- No stretch before the region writes an argument: each holds what the launch put there. -/
theorem W3_arg1 (c : Dev nD) : W3 m ρ c (Proc.devRef .tc main_arg1) = m ((c : Thread nD τ).loc main_arg1) :=
  calc W3 m ρ c (Proc.devRef .tc main_arg1)
    _ = W2 m ρ c (Proc.devRef .tc main_arg1) := by carry_through hostOps0_2
    _ = W1 m ρ c (Proc.devRef .tc main_arg1) := by carry_through hostOps0_1
    _ = W0 m ρ c (Proc.devRef .tc main_arg1) := by carry_through hostOps0
    _ = _ := rfl
theorem W3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := by carry_through hostOps0_2
    _ = W1 m ρ c (Proc.devRef .tc main_arg4) := by carry_through hostOps0_1
    _ = W0 m ρ c (Proc.devRef .tc main_arg4) := by carry_through hostOps0
    _ = _ := rfl
theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by carry_through hostOps0_2
    _ = W1 m ρ c (Proc.devRef .tc main_arg2) := by carry_through hostOps0_1
    _ = W0 m ρ c (Proc.devRef .tc main_arg2) := by carry_through hostOps0
    _ = _ := rfl
theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := by carry_through hostOps0_2
    _ = W1 m ρ c (Proc.devRef .tc main_arg3) := by carry_through hostOps0_1
    _ = W0 m ρ c (Proc.devRef .tc main_arg3) := by carry_through hostOps0
    _ = _ := rfl
theorem W3_arg5 (c : Dev nD) : W3 m ρ c (Proc.devRef .tc main_arg5) = m ((c : Thread nD τ).loc main_arg5) :=
  calc W3 m ρ c (Proc.devRef .tc main_arg5)
    _ = W2 m ρ c (Proc.devRef .tc main_arg5) := by carry_through hostOps0_2
    _ = W1 m ρ c (Proc.devRef .tc main_arg5) := by carry_through hostOps0_1
    _ = W0 m ρ c (Proc.devRef .tc main_arg5) := by carry_through hostOps0
    _ = _ := rfl

theorem V4_arg1 (c : Dev nD) : V4 m ρ c main_arg1 = (m ((c : Thread nD τ).loc main_arg1)) :=
  calc V4 m ρ c main_arg1
    _ = W3 m ρ c (Proc.devRef .tc main_arg1) := by carry_through hostOps0_3
    _ = _ := W3_arg1 m ρ c
theorem V4_arg4 (c : Dev nD) : V4 m ρ c main_arg4 = (m ((c : Thread nD τ).loc main_arg4)) :=
  calc V4 m ρ c main_arg4
    _ = W3 m ρ c (Proc.devRef .tc main_arg4) := by carry_through hostOps0_3
    _ = _ := W3_arg4 m ρ c

/-! ### The last stretch before the region: three row blocks of a matrix, two vectors as one-row matrices -/

/-- What the stretch leaves in each of its five buffers, over any contents before it. -/
theorem blocks_v6 (V : Valuation τ sig (Elt Ideal)) : StableHlo.after hostOps0_3 V (Proc.devRef .tc main_v6)
    = extractStridedSlice S64x128 ![0, 0] (V (Proc.devRef .tc main_arg2)) slices_S160x128_S64x128_0_0 := by
  after_results <;> rfl
theorem blocks_v7 (V : Valuation τ sig (Elt Ideal)) : StableHlo.after hostOps0_3 V (Proc.devRef .tc main_v7)
    = extractStridedSlice S64x128 ![64, 0] (V (Proc.devRef .tc main_arg2)) slices_S160x128_S64x128_64_0 := by
  after_results <;> rfl
theorem blocks_v8 (V : Valuation τ sig (Elt Ideal)) : StableHlo.after hostOps0_3 V (Proc.devRef .tc main_v8)
    = extractStridedSlice S32x128 ![128, 0] (V (Proc.devRef .tc main_arg2)) slices_S160x128_S32x128_128_0 := by
  after_results <;> rfl
theorem blocks_v9 (V : Valuation τ sig (Elt Ideal)) : StableHlo.after hostOps0_3 V (Proc.devRef .tc main_v9)
    = shapeCast S1x128 (V (Proc.devRef .tc main_arg3)) shapeCasts_S128_S1x128 := by
  after_results <;> rfl
theorem blocks_v10 (V : Valuation τ sig (Elt Ideal)) : StableHlo.after hostOps0_3 V (Proc.devRef .tc main_v10)
    = shapeCast S1x64 (V (Proc.devRef .tc main_arg5)) shapeCasts_S64_S1x64 := by
  after_results <;> rfl

/-- The same at the region's entry, over the arguments. -/
theorem V4_v6_eq (c : Dev nD) : V4 m ρ c main_v6
    = extractStridedSlice S64x128 ![0, 0] (m ((c : Thread nD τ).loc main_arg2)) slices_S160x128_S64x128_0_0 :=
  (blocks_v6 _).trans (by rw [W3_arg2])
theorem V4_v7_eq (c : Dev nD) : V4 m ρ c main_v7
    = extractStridedSlice S64x128 ![64, 0] (m ((c : Thread nD τ).loc main_arg2)) slices_S160x128_S64x128_64_0 :=
  (blocks_v7 _).trans (by rw [W3_arg2])
theorem V4_v8_eq (c : Dev nD) : V4 m ρ c main_v8
    = extractStridedSlice S32x128 ![128, 0] (m ((c : Thread nD τ).loc main_arg2)) slices_S160x128_S32x128_128_0 :=
  (blocks_v8 _).trans (by rw [W3_arg2])
theorem V4_v9_eq (c : Dev nD) : V4 m ρ c main_v9
    = shapeCast S1x128 (m ((c : Thread nD τ).loc main_arg3)) shapeCasts_S128_S1x128 :=
  (blocks_v9 _).trans (by rw [W3_arg3])
theorem V4_v10_eq (c : Dev nD) : V4 m ρ c main_v10
    = shapeCast S1x64 (m ((c : Thread nD τ).loc main_arg5)) shapeCasts_S64_S1x64 :=
  (blocks_v10 _).trans (by rw [W3_arg5])

/-- Row `a` of a row block that starts at row `off` is row `off + a` of the matrix; the columns are kept. -/
theorem V4_v6 (c : Dev nD) : acc2 (n := 64) (m := 128) (V4 m ρ c main_v6) = rows (acc2 (n := 160) (m := 128) (m ((c : Thread nD τ).loc main_arg2))) 64 0 (by omega) := by
  funext a k
  show V4 m ρ c main_v6 (ix2 a k) = m ((c : Thread nD τ).loc main_arg2) (ix2 ⟨0 + a.val, _⟩ k)
  rw [V4_v6_eq]
  exact extractStridedSlice_apply ![0, 0] _ slices_S160x128_S64x128_0_0 (ix2 a k) (ix2 ⟨0 + a.val, _⟩ k) (fun d => match d with
    | ⟨0, _⟩ => rfl
    | ⟨1, _⟩ => by show k.val = 0 + k.val; omega)
theorem V4_v7 (c : Dev nD) : acc2 (n := 64) (m := 128) (V4 m ρ c main_v7) = rows (acc2 (n := 160) (m := 128) (m ((c : Thread nD τ).loc main_arg2))) 64 64 (by omega) := by
  funext a k
  show V4 m ρ c main_v7 (ix2 a k) = m ((c : Thread nD τ).loc main_arg2) (ix2 ⟨64 + a.val, _⟩ k)
  rw [V4_v7_eq]
  exact extractStridedSlice_apply ![64, 0] _ slices_S160x128_S64x128_64_0 (ix2 a k) (ix2 ⟨64 + a.val, _⟩ k) (fun d => match d with
    | ⟨0, _⟩ => rfl
    | ⟨1, _⟩ => by show k.val = 0 + k.val; omega)
theorem V4_v8 (c : Dev nD) : acc2 (n := 32) (m := 128) (V4 m ρ c main_v8) = rows (acc2 (n := 160) (m := 128) (m ((c : Thread nD τ).loc main_arg2))) 32 128 (by omega) := by
  funext a k
  show V4 m ρ c main_v8 (ix2 a k) = m ((c : Thread nD τ).loc main_arg2) (ix2 ⟨128 + a.val, _⟩ k)
  rw [V4_v8_eq]
  exact extractStridedSlice_apply ![128, 0] _ slices_S160x128_S32x128_128_0 (ix2 a k) (ix2 ⟨128 + a.val, _⟩ k) (fun d => match d with
    | ⟨0, _⟩ => rfl
    | ⟨1, _⟩ => by show k.val = 0 + k.val; omega)
/-- Entry `a` of the one row of a vector reshaped to a one-row matrix is entry `a` of the vector: both sit at
    row-major position `a`. -/
theorem V4_v9 (c : Dev nD) : accRow (m := 128) (V4 m ρ c main_v9) = acc1 (m := 128) (m ((c : Thread nD τ).loc main_arg3)) := by
  funext a
  show V4 m ρ c main_v9 (ix2 (0 : Fin 1) a) = m ((c : Thread nD τ).loc main_arg3) (ix1 a)
  rw [V4_v9_eq]
  exact shapeCast_apply _ shapeCasts_S128_S1x128 (ix2 (0 : Fin 1) a) (ix1 a)
    (by rewrite [Shape.rowMajor_val_two, Shape.rowMajor_val_one]; show a.val = 0 * 128 + a.val; omega)
theorem V4_v10 (c : Dev nD) : accRow (m := 64) (V4 m ρ c main_v10) = acc1 (m := 64) (m ((c : Thread nD τ).loc main_arg5)) := by
  funext a
  show V4 m ρ c main_v10 (ix2 (0 : Fin 1) a) = m ((c : Thread nD τ).loc main_arg5) (ix1 a)
  rw [V4_v10_eq]
  exact shapeCast_apply _ shapeCasts_S64_S1x64 (ix2 (0 : Fin 1) a) (ix1 a)
    (by rewrite [Shape.rowMajor_val_two, Shape.rowMajor_val_one]; show a.val = 0 * 64 + a.val; omega)

end Cert.KernelIdeal.Host0

end
-- ==== Proof.KHost1.lean ====
import proofs.«406467_j15685220565559_1_alg».proof.Proof.Gen.KernelIdeal.Frame
import proofs.«406467_j15685220565559_1_alg».proof.Proof.Spec
import proofs.«406467_j15685220565559_1_alg».proof.Proof.KTerms
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Host1

open Cert.KernelIdeal Cert.KernelIdeal.Gen Cert.KernelIdeal.Host Cert.Spec
open Idealize.ShloMosaic Idealize.ShloMosaic.TcCoe Idealize.SL.Sem Idealize.ShloMosaic.ValueIdx Idealize.ShloMosaic.StableHlo

/-! ## Reads of the layout operations, independent of the run

Each weight block reaches the region as the transpose of a row slice, each bias segment as a reshaped slice, the
LayerNorm's two vectors as reshaped vectors. Read at an index these are entries of the sliced array. -/

/-- Entry (a, k) of the transpose of rows [off, off + 64) of a [192, 64] array is entry (off + k, a) of the array. -/
theorem acc2_transpose_slice (x : S192x64.Idx → EReal) (off : Nat) (hoff : off + 64 ≤ 192)
    (hs : S192x64.Slices ![off, 0] S64x64) (ht : S64x64.Transposes [1, 0] S64x64) :
    acc2 (n := 64) (m := 64) (transpose S64x64 [1, 0] (extractStridedSlice S64x64 ![off, 0] x hs) ht)
      = rowsT (acc2 (n := 192) (m := 64) x) 64 off hoff := by
  funext a k
  show transpose S64x64 [1, 0] (extractStridedSlice S64x64 ![off, 0] x hs) ht (ix2 a k)
      = x (ix2 ⟨off + k.val, by have := k.isLt; omega⟩ a)
  rw [transpose_ix2_apply _ ht a k, slice2_axis0_eq off x hs k a]

/-- Entry j of the [1, 64] row made of entries [off, off + 64) of a 192-vector is entry off + j of the vector. -/
theorem accRow_reshape_slice (x : S192.Idx → EReal) (off : Nat) (hoff : off + 64 ≤ 192)
    (hs : S192.Slices ![off] S64) (hc : S64.ShapeCasts S1x64) :
    accRow (m := 64) (shapeCast S1x64 (extractStridedSlice S64 ![off] x hs) hc)
      = seg (acc1 (m := 192) x) 64 off hoff := by
  funext j
  show shapeCast S1x64 (extractStridedSlice S64 ![off] x hs) hc (ix2 (0 : Fin 1) j)
      = x (ix1 ⟨off + j.val, by have := j.isLt; omega⟩)
  rw [shapeCast_a_1a_apply _ hc (0 : Fin 1) j]
  exact extractStridedSlice_apply ![off] x hs (ix1 j) (ix1 ⟨off + j.val, by have := j.isLt; omega⟩)
    (fun d => match d with | ⟨0, _⟩ => rfl)

/-- Entry j of the [1, 64] row made of a 64-vector is entry j of the vector. -/
theorem accRow_reshape (x : S64.Idx → EReal) (hc : S64.ShapeCasts S1x64) :
    accRow (m := 64) (shapeCast S1x64 x hc) = acc1 (m := 64) x := by
  funext j
  exact shapeCast_a_1a_apply x hc (0 : Fin 1) j

variable (m : (ℓ : Loc nD τ sig) → Buf (Elt Ideal) ℓ) (ρ : Dev nD → PrngReg)

/-! ## Buffers carried unchanged from the launch to the second region's entry -/

/-- A stretch of host operations leaves a buffer none of them writes as it was: the goal is the stretch's fold at that
    buffer against the contents before it, and the buffer differs from every operation's result buffer. -/
local macro "unwritten " ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-- No operation and no window of the first region writes argument 0: at the first region's exit it is the launch memory. -/
theorem W5_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := by unwritten hostOps0_3
    _ = W2 m ρ c (Proc.devRef .tc main_arg0) := by unwritten hostOps0_2
    _ = W1 m ρ c (Proc.devRef .tc main_arg0) := by unwritten hostOps0_1
    _ = W0 m ρ c (Proc.devRef .tc main_arg0) := by unwritten hostOps0
    _ = m ((c : Thread nD τ).loc main_arg0) := rfl

/-- No operation and no window of the first region writes argument 6: at the first region's exit it is the launch memory. -/
theorem W5_arg6 (c : Dev nD) : W5 m ρ c (Proc.devRef .tc main_arg6) = m ((c : Thread nD τ).loc main_arg6) :=
  calc W5 m ρ c (Proc.devRef .tc main_arg6)
    _ = W4 m ρ c (Proc.devRef .tc main_arg6) := W5_of_ne m ρ c main_arg6 (by decide)
    _ = W3 m ρ c (Proc.devRef .tc main_arg6) := by unwritten hostOps0_3
    _ = W2 m ρ c (Proc.devRef .tc main_arg6) := by unwritten hostOps0_2
    _ = W1 m ρ c (Proc.devRef .tc main_arg6) := by unwritten hostOps0_1
    _ = W0 m ρ c (Proc.devRef .tc main_arg6) := by unwritten hostOps0
    _ = m ((c : Thread nD τ).loc main_arg6) := rfl

/-- No operation and no window of the first region writes argument 7: at the first region's exit it is the launch memory. -/
theorem W5_arg7 (c : Dev nD) : W5 m ρ c (Proc.devRef .tc main_arg7) = m ((c : Thread nD τ).loc main_arg7) :=
  calc W5 m ρ c (Proc.devRef .tc main_arg7)
    _ = W4 m ρ c (Proc.devRef .tc main_arg7) := W5_of_ne m ρ c main_arg7 (by decide)
    _ = W3 m ρ c (Proc.devRef .tc main_arg7) := by unwritten hostOps0_3
    _ = W2 m ρ c (Proc.devRef .tc main_arg7) := by unwritten hostOps0_2
    _ = W1 m ρ c (Proc.devRef .tc main_arg7) := by unwritten hostOps0_1
    _ = W0 m ρ c (Proc.devRef .tc main_arg7) := by unwritten hostOps0
    _ = m ((c : Thread nD τ).loc main_arg7) := rfl

/-- No operation and no window of the first region writes argument 8: at the first region's exit it is the launch memory. -/
theorem W5_arg8 (c : Dev nD) : W5 m ρ c (Proc.devRef .tc main_arg8) = m ((c : Thread nD τ).loc main_arg8) :=
  calc W5 m ρ c (Proc.devRef .tc main_arg8)
    _ = W4 m ρ c (Proc.devRef .tc main_arg8) := W5_of_ne m ρ c main_arg8 (by decide)
    _ = W3 m ρ c (Proc.devRef .tc main_arg8) := by unwritten hostOps0_3
    _ = W2 m ρ c (Proc.devRef .tc main_arg8) := by unwritten hostOps0_2
    _ = W1 m ρ c (Proc.devRef .tc main_arg8) := by unwritten hostOps0_1
    _ = W0 m ρ c (Proc.devRef .tc main_arg8) := by unwritten hostOps0
    _ = m ((c : Thread nD τ).loc main_arg8) := rfl

/-- No operation and no window of the first region writes argument 9: at the first region's exit it is the launch memory. -/
theorem W5_arg9 (c : Dev nD) : W5 m ρ c (Proc.devRef .tc main_arg9) = m ((c : Thread nD τ).loc main_arg9) :=
  calc W5 m ρ c (Proc.devRef .tc main_arg9)
    _ = W4 m ρ c (Proc.devRef .tc main_arg9) := W5_of_ne m ρ c main_arg9 (by decide)
    _ = W3 m ρ c (Proc.devRef .tc main_arg9) := by unwritten hostOps0_3
    _ = W2 m ρ c (Proc.devRef .tc main_arg9) := by unwritten hostOps0_2
    _ = W1 m ρ c (Proc.devRef .tc main_arg9) := by unwritten hostOps0_1
    _ = W0 m ρ c (Proc.devRef .tc main_arg9) := by unwritten hostOps0
    _ = m ((c : Thread nD τ).loc main_arg9) := rfl

/-- No operation and no window of the first region writes argument 10: at the first region's exit it is the launch memory. -/
theorem W5_arg10 (c : Dev nD) : W5 m ρ c (Proc.devRef .tc main_arg10) = m ((c : Thread nD τ).loc main_arg10) :=
  calc W5 m ρ c (Proc.devRef .tc main_arg10)
    _ = W4 m ρ c (Proc.devRef .tc main_arg10) := W5_of_ne m ρ c main_arg10 (by decide)
    _ = W3 m ρ c (Proc.devRef .tc main_arg10) := by unwritten hostOps0_3
    _ = W2 m ρ c (Proc.devRef .tc main_arg10) := by unwritten hostOps0_2
    _ = W1 m ρ c (Proc.devRef .tc main_arg10) := by unwritten hostOps0_1
    _ = W0 m ρ c (Proc.devRef .tc main_arg10) := by unwritten hostOps0
    _ = m ((c : Thread nD τ).loc main_arg10) := rfl

/-- No operation and no window of the first region writes argument 11: at the first region's exit it is the launch memory. -/
theorem W5_arg11 (c : Dev nD) : W5 m ρ c (Proc.devRef .tc main_arg11) = m ((c : Thread nD τ).loc main_arg11) :=
  calc W5 m ρ c (Proc.devRef .tc main_arg11)
    _ = W4 m ρ c (Proc.devRef .tc main_arg11) := W5_of_ne m ρ c main_arg11 (by decide)
    _ = W3 m ρ c (Proc.devRef .tc main_arg11) := by unwritten hostOps0_3
    _ = W2 m ρ c (Proc.devRef .tc main_arg11) := by unwritten hostOps0_2
    _ = W1 m ρ c (Proc.devRef .tc main_arg11) := by unwritten hostOps0_1
    _ = W0 m ρ c (Proc.devRef .tc main_arg11) := by unwritten hostOps0
    _ = m ((c : Thread nD τ).loc main_arg11) := rfl

/-- The target row of the edge list is written by the first stretch of host operations and by nothing after it up to
    the first region's exit: there it is row 1 of the edge list argument, as a vector. -/
theorem W5_v3 (c : Dev nD) : W5 m ρ c (Proc.devRef .tc main_v3) = tgtIdx (m ((c : Thread nD τ).loc main_arg16)) :=
  calc W5 m ρ c (Proc.devRef .tc main_v3)
    _ = W4 m ρ c (Proc.devRef .tc main_v3) := W5_of_ne m ρ c main_v3 (by decide)
    _ = W3 m ρ c (Proc.devRef .tc main_v3) := by unwritten hostOps0_3
    _ = W2 m ρ c (Proc.devRef .tc main_v3) := by unwritten hostOps0_2
    _ = W1 m ρ c (Proc.devRef .tc main_v3) := by unwritten hostOps0_1
    _ = tgtIdx (m ((c : Thread nD τ).loc main_arg16)) := by
      show StableHlo.after hostOps0 (W0 m ρ c) (Proc.devRef .tc main_v3) = _
      after_results
      rfl

/-! ## What the host operations between the first two regions leave in each buffer the second region reads

Each is the composition of the operations that lead to it (a slice then a transpose; a slice then a reshape; a reshape),
applied to an argument as launched. -/

theorem V6_v27_eq (c : Dev nD) : V6 m ρ c main_v27
    = transpose S64x64 [1, 0] (extractStridedSlice S64x64 ![0, 0] (m ((c : Thread nD τ).loc main_arg6)) slices_S192x64_S64x64_0_0) transposes_S64x64_S64x64_1_0 := by
  show StableHlo.after hostOps1 (W5 m ρ c) (Proc.devRef .tc main_v27) = _
  after_results
  rw [W5_arg6]

theorem V6_v28_eq (c : Dev nD) : V6 m ρ c main_v28
    = transpose S64x64 [1, 0] (extractStridedSlice S64x64 ![64, 0] (m ((c : Thread nD τ).loc main_arg6)) slices_S192x64_S64x64_64_0) transposes_S64x64_S64x64_1_0 := by
  show StableHlo.after hostOps1 (W5 m ρ c) (Proc.devRef .tc main_v28) = _
  after_results
  rw [W5_arg6]

theorem V6_v29_eq (c : Dev nD) : V6 m ρ c main_v29
    = transpose S64x64 [1, 0] (extractStridedSlice S64x64 ![128, 0] (m ((c : Thread nD τ).loc main_arg6)) slices_S192x64_S64x64_128_0) transposes_S64x64_S64x64_1_0 := by
  show StableHlo.after hostOps1 (W5 m ρ c) (Proc.devRef .tc main_v29) = _
  after_results
  rw [W5_arg6]

theorem V6_v30_eq (c : Dev nD) : V6 m ρ c main_v30
    = transpose S64x64 [1, 0] (extractStridedSlice S64x64 ![0, 0] (m ((c : Thread nD τ).loc main_arg7)) slices_S192x64_S64x64_0_0) transposes_S64x64_S64x64_1_0 := by
  show StableHlo.after hostOps1 (W5 m ρ c) (Proc.devRef .tc main_v30) = _
  after_results
  rw [W5_arg7]

theorem V6_v31_eq (c : Dev nD) : V6 m ρ c main_v31
    = transpose S64x64 [1, 0] (extractStridedSlice S64x64 ![64, 0] (m ((c : Thread nD τ).loc main_arg7)) slices_S192x64_S64x64_64_0) transposes_S64x64_S64x64_1_0 := by
  show StableHlo.after hostOps1 (W5 m ρ c) (Proc.devRef .tc main_v31) = _
  after_results
  rw [W5_arg7]

theorem V6_v32_eq (c : Dev nD) : V6 m ρ c main_v32
    = transpose S64x64 [1, 0] (extractStridedSlice S64x64 ![128, 0] (m ((c : Thread nD τ).loc main_arg7)) slices_S192x64_S64x64_128_0) transposes_S64x64_S64x64_1_0 := by
  show StableHlo.after hostOps1 (W5 m ρ c) (Proc.devRef .tc main_v32) = _
  after_results
  rw [W5_arg7]

theorem V6_v33_eq (c : Dev nD) : V6 m ρ c main_v33
    = shapeCast S1x64 (extractStridedSlice S64 ![0] (m ((c : Thread nD τ).loc main_arg8)) slices_S192_S64_0) shapeCasts_S64_S1x64 := by
  show StableHlo.after hostOps1 (W5 m ρ c) (Proc.devRef .tc main_v33) = _
  after_results
  rw [W5_arg8]
  rfl

theorem V6_v34_eq (c : Dev nD) : V6 m ρ c main_v34
    = shapeCast S1x64 (extractStridedSlice S64 ![64] (m ((c : Thread nD τ).loc main_arg8)) slices_S192_S64_64) shapeCasts_S64_S1x64 := by
  show StableHlo.after hostOps1 (W5 m ρ c) (Proc.devRef .tc main_v34) = _
  after_results
  rw [W5_arg8]
  rfl

theorem V6_v35_eq (c : Dev nD) : V6 m ρ c main_v35
    = shapeCast S1x64 (extractStridedSlice S64 ![128] (m ((c : Thread nD τ).loc main_arg8)) slices_S192_S64_128) shapeCasts_S64_S1x64 := by
  show StableHlo.after hostOps1 (W5 m ρ c) (Proc.devRef .tc main_v35) = _
  after_results
  rw [W5_arg8]
  rfl

theorem V6_v36_eq (c : Dev nD) : V6 m ρ c main_v36
    = shapeCast S1x64 (extractStridedSlice S64 ![0] (m ((c : Thread nD τ).loc main_arg9)) slices_S192_S64_0) shapeCasts_S64_S1x64 := by
  show StableHlo.after hostOps1 (W5 m ρ c) (Proc.devRef .tc main_v36) = _
  after_results
  rw [W5_arg9]
  rfl

theorem V6_v37_eq (c : Dev nD) : V6 m ρ c main_v37
    = shapeCast S1x64 (extractStridedSlice S64 ![64] (m ((c : Thread nD τ).loc main_arg9)) slices_S192_S64_64) shapeCasts_S64_S1x64 := by
  show StableHlo.after hostOps1 (W5 m ρ c) (Proc.devRef .tc main_v37) = _
  after_results
  rw [W5_arg9]
  rfl

theorem V6_v38_eq (c : Dev nD) : V6 m ρ c main_v38
    = shapeCast S1x64 (extractStridedSlice S64 ![128] (m ((c : Thread nD τ).loc main_arg9)) slices_S192_S64_128) shapeCasts_S64_S1x64 := by
  show StableHlo.after hostOps1 (W5 m ρ c) (Proc.devRef .tc main_v38) = _
  after_results
  rw [W5_arg9]
  rfl

theorem V6_v39_eq (c : Dev nD) : V6 m ρ c main_v39 = shapeCast S1x64 (m ((c : Thread nD τ).loc main_arg10)) shapeCasts_S64_S1x64 := by
  show StableHlo.after hostOps1 (W5 m ρ c) (Proc.devRef .tc main_v39) = _
  after_results
  rw [W5_arg10]
  rfl

theorem V6_v40_eq (c : Dev nD) : V6 m ρ c main_v40 = shapeCast S1x64 (m ((c : Thread nD τ).loc main_arg11)) shapeCasts_S64_S1x64 := by
  show StableHlo.after hostOps1 (W5 m ρ c) (Proc.devRef .tc main_v40) = _
  after_results
  rw [W5_arg11]
  rfl

/-! What the node-update region finds in its sixteen input arrays, read back through the host operations between the
    first two regions: the segment sum of the message region's output, the node features, each gate's weight block
    transposed, each gate's bias segment as a row, the LayerNorm's scale and shift as rows. -/

theorem V6_v14 (c : Dev nD) : V6 m ρ c main_v14 = segSum (F := Ideal) (tgtIdx (m ((c : Thread nD τ).loc main_arg16))) (W5 m ρ c (Proc.devRef .tc main_v11)) := by
  show StableHlo.after hostOps1 (W5 m ρ c) (Proc.devRef .tc main_v14) = _
  after_results
  rw [W5_v3]
  rfl
theorem V6_arg0 (c : Dev nD) : V6 m ρ c main_arg0 = (m ((c : Thread nD τ).loc main_arg0)) :=
  (show W6 m ρ c (Proc.devRef .tc main_arg0) = W5 m ρ c (Proc.devRef .tc main_arg0) by unwritten hostOps1).trans (W5_arg0 m ρ c)
theorem V6_v27 (c : Dev nD) : acc2 (n := 64) (m := 64) (V6 m ρ c main_v27) = rowsT (acc2 (n := 192) (m := 64) (m ((c : Thread nD τ).loc main_arg6))) 64 0 (by omega) := by
  rw [V6_v27_eq]; exact acc2_transpose_slice _ 0 (by omega) _ _
theorem V6_v28 (c : Dev nD) : acc2 (n := 64) (m := 64) (V6 m ρ c main_v28) = rowsT (acc2 (n := 192) (m := 64) (m ((c : Thread nD τ).loc main_arg6))) 64 64 (by omega) := by
  rw [V6_v28_eq]; exact acc2_transpose_slice _ 64 (by omega) _ _
theorem V6_v29 (c : Dev nD) : acc2 (n := 64) (m := 64) (V6 m ρ c main_v29) = rowsT (acc2 (n := 192) (m := 64) (m ((c : Thread nD τ).loc main_arg6))) 64 128 (by omega) := by
  rw [V6_v29_eq]; exact acc2_transpose_slice _ 128 (by omega) _ _
theorem V6_v30 (c : Dev nD) : acc2 (n := 64) (m := 64) (V6 m ρ c main_v30) = rowsT (acc2 (n := 192) (m := 64) (m ((c : Thread nD τ).loc main_arg7))) 64 0 (by omega) := by
  rw [V6_v30_eq]; exact acc2_transpose_slice _ 0 (by omega) _ _
theorem V6_v31 (c : Dev nD) : acc2 (n := 64) (m := 64) (V6 m ρ c main_v31) = rowsT (acc2 (n := 192) (m := 64) (m ((c : Thread nD τ).loc main_arg7))) 64 64 (by omega) := by
  rw [V6_v31_eq]; exact acc2_transpose_slice _ 64 (by omega) _ _
theorem V6_v32 (c : Dev nD) : acc2 (n := 64) (m := 64) (V6 m ρ c main_v32) = rowsT (acc2 (n := 192) (m := 64) (m ((c : Thread nD τ).loc main_arg7))) 64 128 (by omega) := by
  rw [V6_v32_eq]; exact acc2_transpose_slice _ 128 (by omega) _ _
theorem V6_v33 (c : Dev nD) : accRow (m := 64) (V6 m ρ c main_v33) = seg (acc1 (m := 192) (m ((c : Thread nD τ).loc main_arg8))) 64 0 (by omega) := by
  rw [V6_v33_eq]; exact accRow_reshape_slice _ 0 (by omega) _ _
theorem V6_v34 (c : Dev nD) : accRow (m := 64) (V6 m ρ c main_v34) = seg (acc1 (m := 192) (m ((c : Thread nD τ).loc main_arg8))) 64 64 (by omega) := by
  rw [V6_v34_eq]; exact accRow_reshape_slice _ 64 (by omega) _ _
theorem V6_v35 (c : Dev nD) : accRow (m := 64) (V6 m ρ c main_v35) = seg (acc1 (m := 192) (m ((c : Thread nD τ).loc main_arg8))) 64 128 (by omega) := by
  rw [V6_v35_eq]; exact accRow_reshape_slice _ 128 (by omega) _ _
theorem V6_v36 (c : Dev nD) : accRow (m := 64) (V6 m ρ c main_v36) = seg (acc1 (m := 192) (m ((c : Thread nD τ).loc main_arg9))) 64 0 (by omega) := by
  rw [V6_v36_eq]; exact accRow_reshape_slice _ 0 (by omega) _ _
theorem V6_v37 (c : Dev nD) : accRow (m := 64) (V6 m ρ c main_v37) = seg (acc1 (m := 192) (m ((c : Thread nD τ).loc main_arg9))) 64 64 (by omega) := by
  rw [V6_v37_eq]; exact accRow_reshape_slice _ 64 (by omega) _ _
theorem V6_v38 (c : Dev nD) : accRow (m := 64) (V6 m ρ c main_v38) = seg (acc1 (m := 192) (m ((c : Thread nD τ).loc main_arg9))) 64 128 (by omega) := by
  rw [V6_v38_eq]; exact accRow_reshape_slice _ 128 (by omega) _ _
theorem V6_v39 (c : Dev nD) : accRow (m := 64) (V6 m ρ c main_v39) = acc1 (m := 64) (m ((c : Thread nD τ).loc main_arg10)) := by
  rw [V6_v39_eq]; exact accRow_reshape _ _
theorem V6_v40 (c : Dev nD) : accRow (m := 64) (V6 m ρ c main_v40) = acc1 (m := 64) (m ((c : Thread nD τ).loc main_arg11)) := by
  rw [V6_v40_eq]; exact accRow_reshape _ _

end Cert.KernelIdeal.Host1

end
-- ==== Proof.KHost2.lean ====
import proofs.«406467_j15685220565559_1_alg».proof.Proof.Gen.KernelIdeal.Frame
import proofs.«406467_j15685220565559_1_alg».proof.Proof.Spec
import proofs.«406467_j15685220565559_1_alg».proof.Proof.KTerms
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Host2

open Cert.KernelIdeal Cert.KernelIdeal.Gen Cert.KernelIdeal.Host Cert.Spec
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-! What the edge-update region finds in its nine input arrays, read back through the host operations between the last
    two regions (the two row takes of the node-update region's output, the three row blocks of the first weight matrix,
    the two biases as rows); and that the node-update region's output array is not written again before @main returns. -/

/-- A buffer that no operation of a stretch writes keeps its contents through the stretch: the stretch's result
    buffers are listed and each is told apart from the given one. -/
local macro "not_written_by " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-- The first stretch of the program: the two index rows of the edge list. -/
theorem ops0_v1 (V : Valuation τ sig (Elt Ideal)) :
    StableHlo.after hostOps0 V (Proc.devRef .tc main_v1) = srcIdx (V (Proc.devRef .tc main_arg16)) := by
  after_results
  rfl
theorem ops0_v3 (V : Valuation τ sig (Elt Ideal)) :
    StableHlo.after hostOps0 V (Proc.devRef .tc main_v3) = tgtIdx (V (Proc.devRef .tc main_arg16)) := by
  after_results
  rfl

/-- The two index rows are written once, by the first stretch, and are no region's array. -/
theorem W7_v1 (c : Dev nD) : W7 m ρ c (Proc.devRef .tc main_v1) = srcIdx (m ((c : Thread nD τ).loc main_arg16)) :=
  calc W7 m ρ c (Proc.devRef .tc main_v1)
    _ = W6 m ρ c (Proc.devRef .tc main_v1) := W7_of_ne m ρ c main_v1 (by decide)
    _ = W5 m ρ c (Proc.devRef .tc main_v1) := by not_written_by hostOps1
    _ = W4 m ρ c (Proc.devRef .tc main_v1) := W5_of_ne m ρ c main_v1 (by decide)
    _ = W3 m ρ c (Proc.devRef .tc main_v1) := by not_written_by hostOps0_3
    _ = W2 m ρ c (Proc.devRef .tc main_v1) := by not_written_by hostOps0_2
    _ = W1 m ρ c (Proc.devRef .tc main_v1) := by not_written_by hostOps0_1
    _ = srcIdx (W0 m ρ c (Proc.devRef .tc main_arg16)) := ops0_v1 _
    _ = _ := rfl
theorem W7_v3 (c : Dev nD) : W7 m ρ c (Proc.devRef .tc main_v3) = tgtIdx (m ((c : Thread nD τ).loc main_arg16)) :=
  calc W7 m ρ c (Proc.devRef .tc main_v3)
    _ = W6 m ρ c (Proc.devRef .tc main_v3) := W7_of_ne m ρ c main_v3 (by decide)
    _ = W5 m ρ c (Proc.devRef .tc main_v3) := by not_written_by hostOps1
    _ = W4 m ρ c (Proc.devRef .tc main_v3) := W5_of_ne m ρ c main_v3 (by decide)
    _ = W3 m ρ c (Proc.devRef .tc main_v3) := by not_written_by hostOps0_3
    _ = W2 m ρ c (Proc.devRef .tc main_v3) := by not_written_by hostOps0_2
    _ = W1 m ρ c (Proc.devRef .tc main_v3) := by not_written_by hostOps0_1
    _ = tgtIdx (W0 m ρ c (Proc.devRef .tc main_arg16)) := ops0_v3 _
    _ = _ := rfl

section Take
variable {F : FTy → Type} [FloatOps F]

/-- Contents moved to a buffer's own type and back are the contents. -/
theorem ofBuf_toBuf {Val : EltTy → Type} {T : BufTy} (x : TRef sig T) (v : T.Contents Val) : x.ofBuf (x.toBuf v) = v := by
  simp only [TRef.ofBuf, TRef.toBuf, cast_cast, cast_eq]
/-- At a literal buffer the move is the identity: the buffer's type is the value's by computation. -/
theorem ofBuf_v1 (v : (main_v1 : Ref sig .tc).ty.Contents (Elt F)) :
    (TRef.of main_v1 : TRef sig ⟨S1600000, .i32⟩).ofBuf v = v := rfl
theorem ofBuf_v3 (v : (main_v3 : Ref sig .tc).ty.Contents (Elt F)) :
    (TRef.of main_v3 : TRef sig ⟨S1600000, .i32⟩).ofBuf v = v := rfl
theorem ofBuf_v41 (v : (main_v41 : Ref sig .tc).ty.Contents (Elt F)) :
    (TRef.of main_v41 : TRef sig ⟨S100000x64, .f32⟩).ofBuf v = v := rfl
theorem toBuf_v42 (v : (⟨S1600000x64, .f32⟩ : BufTy).Contents (Elt F)) :
    (TRef.of main_v42 : TRef sig ⟨S1600000x64, .f32⟩).toBuf v = v := rfl
theorem toBuf_v43 (v : (⟨S1600000x64, .f32⟩ : BufTy).Contents (Elt F)) :
    (TRef.of main_v43 : TRef sig ⟨S1600000x64, .f32⟩).toBuf v = v := rfl

/-- A row-take stretch, opened: its last buffer holds the take of the node array at the index row it reads. -/
theorem ops2_v42 (V : Valuation τ sig (Elt F)) :
    (StableHlo.after hostOps2 V (Proc.devRef .tc main_v42) : FVec F S1600000x64 .f32)
      = take (F := F) (V (Proc.devRef .tc main_v41)) (V (Proc.devRef .tc main_v1)) := by
  after_results_simp
  simp only [ofBuf_toBuf, ofBuf_v1, ofBuf_v41, toBuf_v42]
  rfl
theorem ops2_1_v43 (V : Valuation τ sig (Elt F)) :
    (StableHlo.after hostOps2_1 V (Proc.devRef .tc main_v43) : FVec F S1600000x64 .f32)
      = take (F := F) (V (Proc.devRef .tc main_v41)) (V (Proc.devRef .tc main_v3)) := by
  after_results_simp
  simp only [ofBuf_toBuf, ofBuf_v3, ofBuf_v41, toBuf_v43]
  rfl

end Take

theorem V10_v42 (c : Dev nD) : V10 m ρ c main_v42 = take (F := Ideal) (W7 m ρ c (Proc.devRef .tc main_v41)) (srcIdx (m ((c : Thread nD τ).loc main_arg16))) :=
  calc V10 m ρ c main_v42
    _ = W9 m ρ c (Proc.devRef .tc main_v42) := by not_written_by hostOps2_2
    _ = W8 m ρ c (Proc.devRef .tc main_v42) := by not_written_by hostOps2_1
    _ = take (F := Ideal) (W7 m ρ c (Proc.devRef .tc main_v41)) (W7 m ρ c (Proc.devRef .tc main_v1)) := ops2_v42 _
    _ = _ := by rw [W7_v1]
theorem V10_v43 (c : Dev nD) : V10 m ρ c main_v43 = take (F := Ideal) (W7 m ρ c (Proc.devRef .tc main_v41)) (tgtIdx (m ((c : Thread nD τ).loc main_arg16))) :=
  have h41 : W8 m ρ c (Proc.devRef .tc main_v41) = W7 m ρ c (Proc.devRef .tc main_v41) := by not_written_by hostOps2
  have h3 : W8 m ρ c (Proc.devRef .tc main_v3) = W7 m ρ c (Proc.devRef .tc main_v3) := by not_written_by hostOps2
  calc V10 m ρ c main_v43
    _ = W9 m ρ c (Proc.devRef .tc main_v43) := by not_written_by hostOps2_2
    _ = take (F := Ideal) (W8 m ρ c (Proc.devRef .tc main_v41)) (W8 m ρ c (Proc.devRef .tc main_v3)) := ops2_1_v43 _
    _ = _ := by rw [h41, h3, W7_v3]

/-- The two arguments the region reads directly are its own input arrays: it leaves them as entered, and they end as
    launched. -/
theorem V10_arg1 (c : Dev nD) : V10 m ρ c main_arg1 = (m ((c : Thread nD τ).loc main_arg1)) :=
  ((W11_arr m ρ c 2).trans (((dat2 (V10 m ρ) c).arrAt_in 2 rfl _).trans (A_eq2 (V10 m ρ) c 2))).symm.trans (W11_main_arg1 m ρ c)
theorem V10_arg14 (c : Dev nD) : V10 m ρ c main_arg14 = (m ((c : Thread nD τ).loc main_arg14)) :=
  ((W11_arr m ρ c 7).trans (((dat2 (V10 m ρ) c).arrAt_in 7 rfl _).trans (A_eq2 (V10 m ρ) c 7))).symm.trans (W11_main_arg14 m ρ c)

/-- The last stretch before the edge-update region writes none of the three arguments it reads. -/
theorem W9_arg12 (c : Dev nD) : W9 m ρ c (Proc.devRef .tc main_arg12) = m ((c : Thread nD τ).loc main_arg12) :=
  calc W9 m ρ c (Proc.devRef .tc main_arg12)
    _ = W10 m ρ c (Proc.devRef .tc main_arg12) := Eq.symm (by not_written_by hostOps2_2)
    _ = W11 m ρ c (Proc.devRef .tc main_arg12) := (W11_of_ne m ρ c main_arg12 (by decide)).symm
    _ = _ := W11_main_arg12 m ρ c
theorem W9_arg13 (c : Dev nD) : W9 m ρ c (Proc.devRef .tc main_arg13) = m ((c : Thread nD τ).loc main_arg13) :=
  calc W9 m ρ c (Proc.devRef .tc main_arg13)
    _ = W10 m ρ c (Proc.devRef .tc main_arg13) := Eq.symm (by not_written_by hostOps2_2)
    _ = W11 m ρ c (Proc.devRef .tc main_arg13) := (W11_of_ne m ρ c main_arg13 (by decide)).symm
    _ = _ := W11_main_arg13 m ρ c
theorem W9_arg15 (c : Dev nD) : W9 m ρ c (Proc.devRef .tc main_arg15) = m ((c : Thread nD τ).loc main_arg15) :=
  calc W9 m ρ c (Proc.devRef .tc main_arg15)
    _ = W10 m ρ c (Proc.devRef .tc main_arg15) := Eq.symm (by not_written_by hostOps2_2)
    _ = W11 m ρ c (Proc.devRef .tc main_arg15) := (W11_of_ne m ρ c main_arg15 (by decide)).symm
    _ = _ := W11_main_arg15 m ρ c

/-- The three row blocks of the first weight matrix, as slices of the argument. -/
theorem V10_v44_eq (c : Dev nD) : V10 m ρ c main_v44
    = extractStridedSlice S64x128 ![0, 0] (m ((c : Thread nD τ).loc main_arg12)) slices_S160x128_S64x128_0_0 := by
  rw [← W9_arg12 m ρ c]
  show StableHlo.after hostOps2_2 _ (Proc.devRef .tc main_v44) = _
  generalize W9 m ρ c = V
  after_results
theorem V10_v45_eq (c : Dev nD) : V10 m ρ c main_v45
    = extractStridedSlice S64x128 ![64, 0] (m ((c : Thread nD τ).loc main_arg12)) slices_S160x128_S64x128_64_0 := by
  rw [← W9_arg12 m ρ c]
  show StableHlo.after hostOps2_2 _ (Proc.devRef .tc main_v45) = _
  generalize W9 m ρ c = V
  after_results
theorem V10_v46_eq (c : Dev nD) : V10 m ρ c main_v46
    = extractStridedSlice S32x128 ![128, 0] (m ((c : Thread nD τ).loc main_arg12)) slices_S160x128_S32x128_128_0 := by
  rw [← W9_arg12 m ρ c]
  show StableHlo.after hostOps2_2 _ (Proc.devRef .tc main_v46) = _
  generalize W9 m ρ c = V
  after_results
/-- The two biases, as one-row reshapes of the arguments. -/
theorem V10_v47_eq (c : Dev nD) : V10 m ρ c main_v47
    = shapeCast S1x128 (m ((c : Thread nD τ).loc main_arg13)) shapeCasts_S128_S1x128 := by
  rw [← W9_arg13 m ρ c]
  show StableHlo.after hostOps2_2 _ (Proc.devRef .tc main_v47) = _
  generalize W9 m ρ c = V
  after_results
  rfl
theorem V10_v48_eq (c : Dev nD) : V10 m ρ c main_v48
    = shapeCast S1x32 (m ((c : Thread nD τ).loc main_arg15)) shapeCasts_S32_S1x32 := by
  rw [← W9_arg15 m ρ c]
  show StableHlo.after hostOps2_2 _ (Proc.devRef .tc main_v48) = _
  generalize W9 m ρ c = V
  after_results
  rfl

theorem V10_v44 (c : Dev nD) : acc2 (n := 64) (m := 128) (V10 m ρ c main_v44) = rows (acc2 (n := 160) (m := 128) (m ((c : Thread nD τ).loc main_arg12))) 64 0 (by omega) := by
  funext a k
  show V10 m ρ c main_v44 (ix2 a k) = m ((c : Thread nD τ).loc main_arg12) (ix2 ⟨0 + a.val, _⟩ k)
  rw [V10_v44_eq]
  exact extractStridedSlice_apply ![0, 0] _ slices_S160x128_S64x128_0_0 (ix2 a k) (ix2 ⟨0 + a.val, _⟩ k) (fun d => match d with
    | ⟨0, _⟩ => rfl
    | ⟨1, _⟩ => by show k.val = 0 + k.val; omega)
theorem V10_v45 (c : Dev nD) : acc2 (n := 64) (m := 128) (V10 m ρ c main_v45) = rows (acc2 (n := 160) (m := 128) (m ((c : Thread nD τ).loc main_arg12))) 64 64 (by omega) := by
  funext a k
  show V10 m ρ c main_v45 (ix2 a k) = m ((c : Thread nD τ).loc main_arg12) (ix2 ⟨64 + a.val, _⟩ k)
  rw [V10_v45_eq]
  exact extractStridedSlice_apply ![64, 0] _ slices_S160x128_S64x128_64_0 (ix2 a k) (ix2 ⟨64 + a.val, _⟩ k) (fun d => match d with
    | ⟨0, _⟩ => rfl
    | ⟨1, _⟩ => by show k.val = 0 + k.val; omega)
theorem V10_v46 (c : Dev nD) : acc2 (n := 32) (m := 128) (V10 m ρ c main_v46) = rows (acc2 (n := 160) (m := 128) (m ((c : Thread nD τ).loc main_arg12))) 32 128 (by omega) := by
  funext a k
  show V10 m ρ c main_v46 (ix2 a k) = m ((c : Thread nD τ).loc main_arg12) (ix2 ⟨128 + a.val, _⟩ k)
  rw [V10_v46_eq]
  exact extractStridedSlice_apply ![128, 0] _ slices_S160x128_S32x128_128_0 (ix2 a k) (ix2 ⟨128 + a.val, _⟩ k) (fun d => match d with
    | ⟨0, _⟩ => rfl
    | ⟨1, _⟩ => by show k.val = 0 + k.val; omega)
theorem V10_v47 (c : Dev nD) : accRow (m := 128) (V10 m ρ c main_v47) = acc1 (m := 128) (m ((c : Thread nD τ).loc main_arg13)) := by
  funext a
  show V10 m ρ c main_v47 (ix2 (0 : Fin 1) a) = m ((c : Thread nD τ).loc main_arg13) (ix1 a)
  rw [V10_v47_eq]
  exact shapeCast_apply _ shapeCasts_S128_S1x128 (ix2 (0 : Fin 1) a) (ix1 a)
    (by rewrite [Shape.rowMajor_val_two, Shape.rowMajor_val_one]; show a.val = 0 * 128 + a.val; omega)
theorem V10_v48 (c : Dev nD) : accRow (m := 32) (V10 m ρ c main_v48) = acc1 (m := 32) (m ((c : Thread nD τ).loc main_arg15)) := by
  funext a
  show V10 m ρ c main_v48 (ix2 (0 : Fin 1) a) = m ((c : Thread nD τ).loc main_arg15) (ix1 a)
  rw [V10_v48_eq]
  exact shapeCast_apply _ shapeCasts_S32_S1x32 (ix2 (0 : Fin 1) a) (ix1 a)
    (by rewrite [Shape.rowMajor_val_two, Shape.rowMajor_val_one]; show a.val = 0 * 32 + a.val; omega)

/-- The node-update region's output array is written by no later host operation, and is not one of the edge-update
    region's arrays. -/
theorem W11_v41 (c : Dev nD) : W11 m ρ c (Proc.devRef .tc main_v41) = W7 m ρ c (Proc.devRef .tc main_v41) :=
  calc W11 m ρ c (Proc.devRef .tc main_v41)
    _ = W10 m ρ c (Proc.devRef .tc main_v41) := W11_of_ne m ρ c main_v41 (by decide)
    _ = W9 m ρ c (Proc.devRef .tc main_v41) := by not_written_by hostOps2_2
    _ = W8 m ρ c (Proc.devRef .tc main_v41) := by not_written_by hostOps2_1
    _ = W7 m ρ c (Proc.devRef .tc main_v41) := by not_written_by hostOps2

end Cert.KernelIdeal.Host2

end
-- ==== Proof.TakeEq.lean ====
import proofs.«406467_j15685220565559_1_alg».proof.Defs
import proofs.«406467_j15685220565559_1_alg».proof.Proof.Gen.Pre_finite_inputs
import proofs.«406467_j15685220565559_1_alg».proof.Proof.Gen.KernelIdeal.Frame
import proofs.«406467_j15685220565559_1_alg».proof.Proof.KTerms
import Idealize.ShloMosaic.Lib.ReduceAll
import Idealize.ShloMosaic.Lib.StableHlo.Predicate
import Idealize.ShloMosaic.Lib.Pipeline.Value
import Idealize.ShloMosaic.Lib.ValueIdx

set_option maxRecDepth 16384

noncomputable section

namespace Cert.KernelIdeal.TakeEq

open Cert.KernelIdeal Cert.KernelIdeal.Gen Cert.KernelIdeal.Host
open Idealize.ShloMosaic Idealize.ShloMosaic.TcCoe Idealize.SL.Sem Idealize.ShloMosaic.ValueIdx

variable (m : (ℓ : Loc nD τ sig) → Buf (Elt Ideal) ℓ)

/-- A one-bit word made from a Boolean is 1 exactly when the Boolean is true. -/
theorem ofBool_one (b : Bool) : BitVec.ofBool b = 1#1 ↔ b = true := by cases b <;> decide

/-- … and 0 exactly when it is false. -/
theorem ofBool_zero (b : Bool) : BitVec.ofBool b = 0#1 ↔ b = false := by cases b <;> decide

/-- A 32-bit word w with 0 ≤ w and w < 100000 (signed) is not negative and is at most 99999. -/
theorem word_range (w : BitVec 32) (h0 : IntOp.cmpi .sge w 0#32 = 1#1) (h1 : IntOp.cmpi .slt w 100000#32 = 1#1) :
    IntOp.cmpi .slt w 0#32 = 0#1 ∧ IntOp.cmpi .sle w 99999#32 = 1#1 := by
  have z0 : (0#32 : BitVec 32).toInt = 0 := by decide
  have z1 : (100000#32 : BitVec 32).toInt = 100000 := by decide
  have z2 : (99999#32 : BitVec 32).toInt = 99999 := by decide
  unfold IntOp.cmpi at h0 h1 ⊢
  rw [ofBool_one] at h0 h1
  rw [ofBool_zero, ofBool_one]
  simp only [BitVec.slt, BitVec.sle, decide_eq_true_eq, decide_eq_false_iff_not, z0, z1, z2] at h0 h1 ⊢
  omega

/-- A left fold by `and` over one-bit words, started at 1 and meeting only 1s, is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], init, hi, _ => hi
  | a :: l, init, hi, hl => by
    refine foldl_andi_ones f l _ ?_ (fun n hn => hl n (List.mem_cons_of_mem _ hn))
    show IntOp.andi init (f a) = 1#1
    rw [hi, hl a (List.mem_cons_self ..)]; rfl

/-- THE PRECONDITION DECODED: every word w of the [2, E] edge list satisfies 0 ≤ w and w < 100000, signed.
    The printed predicate is a chain of `and`s whose last conjunct is the all-reduce of the two comparisons. -/
theorem pre_word (h : Cert.Pre_KernelIdeal m) (c : Dev nD) (j : S2x1600000.Idx) :
    IntOp.cmpi .sge (m ((c : Thread nD τ).loc main_arg16) j) 0#32 = 1#1
      ∧ IntOp.cmpi .slt (m ((c : Thread nD τ).loc main_arg16) j) 100000#32 = 1#1 := by
  -- the scalar index has one value
  haveI : Subsingleton Cert.Pre_finite_inputs.S_.Idx := ⟨fun a b => funext fun d => d.elim0⟩
  have e := congrFun (h c) ValueIdx.ix0
  unfold Cert.Pre_finite_inputs.fn Cert.Pre_finite_inputs.fn_part1 Cert.Pre_finite_inputs.fn_part2 Cert.Pre_finite_inputs.fn_part3
    Cert.Pre_finite_inputs.fn_part4 Cert.Pre_finite_inputs.fn_part5 at e
  obtain ⟨-, e⟩ := IntOp.andi_eq_one.1 e
  have e' := Host.reduce_andi_all _ _ _ _ _ e j
  exact IntOp.andi_eq_one.1 e'

/-- Each word of the source row of the edge list is a word of the edge list (the slice and the reshape re-index). -/
theorem src_word (x16 : IVec S2x1600000 32) (k : S1600000.Idx) : ∃ j, srcIdx x16 k = x16 j := ⟨_, rfl⟩

/-- Likewise for the target row. -/
theorem tgt_word (x16 : IVec S2x1600000 32) (k : S1600000.Idx) : ∃ j, tgtIdx x16 k = x16 j := ⟨_, rfl⟩

/-- A row of E words, each in [0, 100000) signed. -/
def InRows (e : IVec S1600000 32) : Prop :=
  ∀ k, IntOp.cmpi .sge (e k) 0#32 = 1#1 ∧ IntOp.cmpi .slt (e k) 100000#32 = 1#1

/-- Under the precondition the source row of the edge list is such a row … -/
theorem inRows_src (h : Cert.Pre_KernelIdeal m) (c : Dev nD) : InRows (srcIdx (m ((c : Thread nD τ).loc main_arg16))) := by
  intro k
  obtain ⟨j, hj⟩ := src_word (m ((c : Thread nD τ).loc main_arg16)) k
  rw [hj]; exact pre_word m h c j

/-- … and so is the target row. -/
theorem inRows_tgt (h : Cert.Pre_KernelIdeal m) (c : Dev nD) : InRows (tgtIdx (m ((c : Thread nD τ).loc main_arg16))) := by
  intro k
  obtain ⟨j, hj⟩ := tgt_word (m ((c : Thread nD τ).loc main_arg16)) k
  rw [hj]; exact pre_word m h c j

/-- The normalisation at a word that is not negative keeps the word. -/
theorem wrap_at (e : IVec S1600000 32) (k : S1600000.Idx) (h0 : IntOp.cmpi .slt (e k) 0#32 = 0#1) :
    (select (cmpi .slt e (broadcastInDim S1600000 ![] bcast_S_S1600000 (constantI S_ 32 0#32)))
      (addi e (broadcastInDim S1600000 ![] bcast_S_S1600000 (constantI S_ 32 100000#32))) e) k = e k := by
  show Scalar.select (IntOp.cmpi .slt (e k) 0#32) _ _ = _
  rw [h0]; exact select_zero _ _

/-- Each word of the normalised [E, 1] column of an in-range row is a word of the row. -/
theorem wrap_word (e : IVec S1600000 32) (he : InRows e) (j : S1600000x1.Idx) : ∃ k, wrapIdx e j = e k :=
  ⟨_, wrap_at e _ (word_range _ (he _).1 (he _).2).1⟩

/-- So the normalised column's words are in [0, 99999] signed. -/
theorem wrap_range (e : IVec S1600000 32) (he : InRows e) (j : S1600000x1.Idx) :
    IntOp.cmpi .sge (wrapIdx e j) 0#32 = 1#1 ∧ IntOp.cmpi .sle (wrapIdx e j) 99999#32 = 1#1 := by
  obtain ⟨k, hk⟩ := wrap_word e he j
  rw [hk]; exact ⟨(he k).1, (word_range _ (he k).1 (he k).2).2⟩

/-- The range test of a column whose words are all in [0, 99999] is 1 at every edge: the `and`-reduce along the
    unit axis folds, from 1, only 1s. -/
theorem inRange_one (w : IVec S1600000x1 32)
    (hw : ∀ j, IntOp.cmpi .sge (w j) 0#32 = 1#1 ∧ IntOp.cmpi .sle (w j) 99999#32 = 1#1) :
    inRange w = fun _ => 1#1 := by
  funext i
  unfold inRange
  rw [Host.reduce_eq_foldl]
  refine foldl_andi_ones _ _ _ rfl (fun n _ => ?_)
  show IntOp.andi (IntOp.cmpi .sge (w n) 0#32) (IntOp.cmpi .sle (w n) 99999#32) = 1#1
  rw [(hw n).1, (hw n).2]; rfl

/-- The take of an in-range row is the plain gather: the mask is 1 everywhere, and `select` at 1 takes its first operand. -/
theorem take_eq_gather (x : FVec Ideal S100000x64 .f32) (e : IVec S1600000 32) (he : InRows e) :
    take x e = Host.gather gather_S100000x64_S1600000x1_S1600000x64_1_0_n_n_0_1_164 x (wrapIdx e) := by
  funext j
  unfold take
  rw [select_apply, inRange_one (wrapIdx e) (wrap_range e he)]
  exact select_one _ _

/-- Under the precondition every word of the edge list is a row number of the node array, 0 ≤ w < 100000 (signed), so
    the take's range test holds at every edge and the take is the plain gather at the normalised indices:
    for the source row of the edge list … -/
theorem take_src (h : Cert.Pre_KernelIdeal m) (c : Dev nD) (x : FVec Ideal S100000x64 .f32) :
    take x (srcIdx (m ((c : Thread nD τ).loc main_arg16)))
      = Host.gather gather_S100000x64_S1600000x1_S1600000x64_1_0_n_n_0_1_164 x (wrapIdx (srcIdx (m ((c : Thread nD τ).loc main_arg16)))) :=
  take_eq_gather x _ (inRows_src m h c)

/-- … and for the target row. -/
theorem take_tgt (h : Cert.Pre_KernelIdeal m) (c : Dev nD) (x : FVec Ideal S100000x64 .f32) :
    take x (tgtIdx (m ((c : Thread nD τ).loc main_arg16)))
      = Host.gather gather_S100000x64_S1600000x1_S1600000x64_1_0_n_n_0_1_164 x (wrapIdx (tgtIdx (m ((c : Thread nD τ).loc main_arg16)))) :=
  take_eq_gather x _ (inRows_tgt m h c)

end Cert.KernelIdeal.TakeEq

end
-- ==== Proof.RefMsg.lean ====
import proofs.«406467_j15685220565559_1_alg».proof.Proof.Gen.ReferenceIdeal.Read
import proofs.«406467_j15685220565559_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefMsg

open Cert.ReferenceIdeal Cert.ReferenceIdeal.Gen Cert.ReferenceIdeal.Read Cert.Spec
open Idealize.ShloMosaic Idealize.ShloMosaic.TcCoe Idealize.SL.Sem Idealize.ShloMosaic.ValueIdx

/-! ## The concatenated row [s | t | e] (64 + 64 + 32 columns) read at a column of each block

A concatenation along the columns read at a column: the piece whose span holds the column, at the column less the
extents before it (same row). -/

/-- The row [s | t | e] of 64 + 64 + 32 columns read at a column of its first block: the first piece at that column. -/
theorem cat3_block0 {α : Type} (y0 y1 : S1600000x64.Idx → α) (y2 : S1600000x32.Idx → α) (r : Fin 1600000) (a : Fin 64) :
    concatenate S1600000x160 1 [⟨S1600000x64, y0⟩, ⟨S1600000x64, y1⟩, ⟨S1600000x32, y2⟩]
        concatenates_S1600000x64_S1600000x64_S1600000x32_S1600000x160_d1 (ix2 r ⟨a.val, by omega⟩)
      = y0 (ix2 r a) := by
  refine concatenate_apply_piece (1 : Fin S1600000x160.rank) _ _ _ 0 (by show 0 < 3; omega) S1600000x64 y0 rfl rfl 0 rfl (ix2 r a) ?_ ?_
  · intro b hb
    match b with
    | ⟨0, _⟩ => rfl
    | ⟨1, _⟩ => exact absurd rfl hb
  · show 0 + a.val = a.val
    omega

/-- … at a column of its second block (64 + a): the second piece at column a. -/
theorem cat3_block1 {α : Type} (y0 y1 : S1600000x64.Idx → α) (y2 : S1600000x32.Idx → α) (r : Fin 1600000) (a : Fin 64) :
    concatenate S1600000x160 1 [⟨S1600000x64, y0⟩, ⟨S1600000x64, y1⟩, ⟨S1600000x32, y2⟩]
        concatenates_S1600000x64_S1600000x64_S1600000x32_S1600000x160_d1 (ix2 r ⟨64 + a.val, by omega⟩)
      = y1 (ix2 r a) := by
  refine concatenate_apply_piece (1 : Fin S1600000x160.rank) _ _ _ 1 (by show 1 < 3; omega) S1600000x64 y1 rfl rfl 64 rfl (ix2 r a) ?_ ?_
  · intro b hb
    match b with
    | ⟨0, _⟩ => rfl
    | ⟨1, _⟩ => exact absurd rfl hb
  · rfl

/-- … at a column of its third block (128 + a): the third piece at column a. -/
theorem cat3_block2 {α : Type} (y0 y1 : S1600000x64.Idx → α) (y2 : S1600000x32.Idx → α) (r : Fin 1600000) (a : Fin 32) :
    concatenate S1600000x160 1 [⟨S1600000x64, y0⟩, ⟨S1600000x64, y1⟩, ⟨S1600000x32, y2⟩]
        concatenates_S1600000x64_S1600000x64_S1600000x32_S1600000x160_d1 (ix2 r ⟨128 + a.val, by omega⟩)
      = y2 (ix2 r a) := by
  refine concatenate_apply_piece (1 : Fin S1600000x160.rank) _ _ _ 2 (by show 2 < 3; omega) S1600000x32 y2 rfl rfl 128 rfl (ix2 r a) ?_ ?_
  · intro b hb
    match b with
    | ⟨0, _⟩ => rfl
    | ⟨1, _⟩ => exact absurd rfl hb
  · rfl

/-- The 160-term product sum of the concatenated row [s | t | e] with the whole first matrix, at (r, k), is the sum of
    the three blocks' product sums (s, t, e any arrays). -/
theorem row_dot_blocks (s t : (⟨S1600000x64, .f32⟩ : BufTy).Contents (Elt Ideal)) (e : (⟨S1600000x32, .f32⟩ : BufTy).Contents (Elt Ideal))
    (x2 : (⟨S160x128, .f32⟩ : BufTy).Contents (Elt Ideal)) (r : Fin 1600000) (k : Fin 128) :
    (∑ a : Fin 160,
        (concatenate S1600000x160 1 [⟨S1600000x64, s⟩, ⟨S1600000x64, t⟩, ⟨S1600000x32, e⟩]
            concatenates_S1600000x64_S1600000x64_S1600000x32_S1600000x160_d1) (lidx_main_v19 (ix2 r k) a)
          * x2 (ridx_main_v19 (ix2 r k) a))
      = ((∑ a : Fin 64, acc2 (n := 1600000) (m := 64) s r a * rows (acc2 (n := 160) (m := 128) x2) 64 0 (by omega) a k)
          + (∑ a : Fin 64, acc2 (n := 1600000) (m := 64) t r a * rows (acc2 (n := 160) (m := 128) x2) 64 64 (by omega) a k))
        + (∑ a : Fin 32, acc2 (n := 1600000) (m := 32) e r a * rows (acc2 (n := 160) (m := 128) x2) 32 128 (by omega) a k) := by
  rw [sum_three_blocks]
  refine congrArg₂ (· + ·) (congrArg₂ (· + ·) ?_ ?_) ?_
  · -- first block: columns a < 64 of the row are s
    refine Finset.sum_congr rfl fun a _ => ?_
    have el : lidx_main_v19 (ix2 r k) ⟨a.val, by omega⟩ = ix2 r ⟨a.val, by omega⟩ :=
      funext fun b => Fin.ext (by match b with | ⟨0, _⟩ => rfl | ⟨1, _⟩ => rfl)
    have er : ridx_main_v19 (ix2 r k) ⟨a.val, by omega⟩ = ix2 (⟨0 + a.val, by omega⟩ : Fin 160) k :=
      funext fun b => Fin.ext (by match b with | ⟨0, _⟩ => exact (Nat.zero_add _).symm | ⟨1, _⟩ => rfl)
    rw [el, er, cat3_block0]
    rfl
  · -- second block: columns 64 + a are t
    refine Finset.sum_congr rfl fun a _ => ?_
    have el : lidx_main_v19 (ix2 r k) ⟨64 + a.val, by omega⟩ = ix2 r ⟨64 + a.val, by omega⟩ :=
      funext fun b => Fin.ext (by match b with | ⟨0, _⟩ => rfl | ⟨1, _⟩ => rfl)
    have er : ridx_main_v19 (ix2 r k) ⟨64 + a.val, by omega⟩ = ix2 (⟨64 + a.val, by omega⟩ : Fin 160) k :=
      funext fun b => Fin.ext (by match b with | ⟨0, _⟩ => rfl | ⟨1, _⟩ => rfl)
    rw [el, er, cat3_block1]
    rfl
  · -- third block: columns 128 + a are e
    refine Finset.sum_congr rfl fun a _ => ?_
    have el : lidx_main_v19 (ix2 r k) ⟨128 + a.val, by omega⟩ = ix2 r ⟨128 + a.val, by omega⟩ :=
      funext fun b => Fin.ext (by match b with | ⟨0, _⟩ => rfl | ⟨1, _⟩ => rfl)
    have er : ridx_main_v19 (ix2 r k) ⟨128 + a.val, by omega⟩ = ix2 (⟨128 + a.val, by omega⟩ : Fin 160) k :=
      funext fun b => Fin.ext (by match b with | ⟨0, _⟩ => rfl | ⟨1, _⟩ => rfl)
    rw [el, er, cat3_block2]
    rfl

/-- The hidden layer of the reference's message MLP at (r, k): the product sum of the concatenated row with the whole
    first matrix (the three blocks' product sums), then the bias and the maximum with zero. -/
theorem hidden_at (x0 : (⟨S100000x64, .f32⟩ : BufTy).Contents (Elt Ideal)) (x1 : (⟨S1600000x32, .f32⟩ : BufTy).Contents (Elt Ideal)) (x2 : (⟨S160x128, .f32⟩ : BufTy).Contents (Elt Ideal)) (x3 : (⟨S128, .f32⟩ : BufTy).Contents (Elt Ideal)) (x16 : (⟨S2x1600000, .i32⟩ : BufTy).Contents (Elt Ideal))
    (r : Fin 1600000) (k : Fin 128) :
    val_main_v23 (F := Ideal) x0 x1 x2 x3 x16 (ix2 r k) = hidden (n := 1600000)
      (acc2 (n := 1600000) (m := 64) (val_main_v10 (F := Ideal) x0 x16)) (acc2 (n := 1600000) (m := 64) (val_main_v17 (F := Ideal) x0 x16))
      (acc2 (n := 1600000) (m := 32) x1)
      (rows (acc2 (n := 160) (m := 128) x2) 64 0 (by omega)) (rows (acc2 (n := 160) (m := 128) x2) 64 64 (by omega)) (rows (acc2 (n := 160) (m := 128) x2) 32 128 (by omega))
      (acc1 (m := 128) x3) r k := by
  -- the bias: x3 at column k
  have eb : idx_main_v20 (idx_main_v21 (ix2 r k)) = ix1 k :=
    funext fun a => Fin.ext (by match a with | ⟨0, _⟩ => rfl)
  rw [val_main_v23_apply, val_main_v22_apply, val_main_v19_apply, val_main_v21_apply, val_main_v20_apply,
    val_main_call0_v0_apply, val_main_call0_cst_apply, Ideal.maximumf_def, Ideal.addf_def, Ideal.ofBits_def,
    Ideal.ofBits_zero_f32, eb]
  unfold val_main_v18
  -- the two gathered arrays stay as they are: any arrays s, t
  generalize val_main_v10 (F := Ideal) x0 x16 = s
  generalize val_main_v17 (F := Ideal) x0 x16 = t
  rw [row_dot_blocks]
  rfl

/-- The reference's messages array is, index by index, the message MLP of the two gathered node rows and the edge row:
    the reference multiplies the concatenated row [src | tgt | edge] (160 columns) by the whole first weight matrix,
    which is the sum of the three blocks' products (`Cert.Spec.sum_three_blocks`). -/
theorem messages (x0 : (⟨S100000x64, .f32⟩ : BufTy).Contents (Elt Ideal)) (x1 : (⟨S1600000x32, .f32⟩ : BufTy).Contents (Elt Ideal)) (x2 : (⟨S160x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x16 : (⟨S2x1600000, .i32⟩ : BufTy).Contents (Elt Ideal)) :
    val_main_v27 (F := Ideal) x0 x1 x2 x3 x4 x5 x16 = fun i => msgSpec (n := 1600000)
      (acc2 (n := 1600000) (m := 64) (val_main_v10 (F := Ideal) x0 x16)) (acc2 (n := 1600000) (m := 64) (val_main_v17 (F := Ideal) x0 x16))
      (acc2 (n := 1600000) (m := 32) x1)
      (rows (acc2 (n := 160) (m := 128) x2) 64 0 (by omega)) (rows (acc2 (n := 160) (m := 128) x2) 64 64 (by omega)) (rows (acc2 (n := 160) (m := 128) x2) 32 128 (by omega))
      (acc1 (m := 128) x3) (acc2 (n := 128) (m := 64) x4) (acc1 (m := 64) x5) (i 0) (i 1) := by
  funext i
  obtain ⟨r, j, rfl⟩ : ∃ r j, i = ix2 r j := ⟨i 0, i 1, eq_ix2 i⟩
  -- the second bias: x5 at column j
  have eb : idx_main_v25 (idx_main_v26 (ix2 r j)) = ix1 j :=
    funext fun a => Fin.ext (by match a with | ⟨0, _⟩ => rfl)
  rw [val_main_v27_apply, val_main_v24_apply, val_main_v26_apply, val_main_v25_apply, Ideal.addf_def, eb]
  unfold msgSpec
  refine congrArg₂ (· + ·) (Finset.sum_congr rfl fun k _ => ?_) rfl
  -- the contraction reads the hidden layer at (r, k) and the second matrix at (k, j)
  have el : lidx_main_v24 (ix2 r j) k = ix2 r k :=
    funext fun b => Fin.ext (by match b with | ⟨0, _⟩ => rfl | ⟨1, _⟩ => rfl)
  have er : ridx_main_v24 (ix2 r j) k = ix2 k j :=
    funext fun b => Fin.ext (by match b with | ⟨0, _⟩ => rfl | ⟨1, _⟩ => rfl)
  rw [el, er, hidden_at]

end Cert.ReferenceIdeal.RefMsg

end
-- ==== Proof.RefGru.lean ====
import proofs.«406467_j15685220565559_1_alg».proof.Proof.Gen.ReferenceIdeal.Read
import proofs.«406467_j15685220565559_1_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Group.Finset.Basic

set_option maxRecDepth 16384

noncomputable section

namespace Cert.ReferenceIdeal.RefGru

open Cert.ReferenceIdeal Cert.ReferenceIdeal.Gen Cert.ReferenceIdeal.Read Cert.Spec
open Idealize.ShloMosaic Idealize.ShloMosaic.TcCoe Idealize.SL.Sem Idealize.ShloMosaic.ValueIdx

section
variable (x0 : (⟨S100000x64, .f32⟩ : BufTy).Contents (Elt Ideal)) (x1 : (⟨S1600000x32, .f32⟩ : BufTy).Contents (Elt Ideal)) (x2 : (⟨S160x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x6 x7 : (⟨S192x64, .f32⟩ : BufTy).Contents (Elt Ideal)) (x8 x9 : (⟨S192, .f32⟩ : BufTy).Contents (Elt Ideal)) (x10 x11 : (⟨S64, .f32⟩ : BufTy).Contents (Elt Ideal)) (x16 : (⟨S2x1600000, .i32⟩ : BufTy).Contents (Elt Ideal))

local notation "AGG" => acc2 (n := 100000) (m := 64) (val_main_v30 (F := Ideal) x0 x1 x2 x3 x4 x5 x16)
local notation "XN" => acc2 (n := 100000) (m := 64) x0
local notation "WI" => ![rowsT (acc2 (n := 192) (m := 64) x6) 64 0 (by omega), rowsT (acc2 (n := 192) (m := 64) x6) 64 64 (by omega), rowsT (acc2 (n := 192) (m := 64) x6) 64 128 (by omega)]
local notation "WH" => ![rowsT (acc2 (n := 192) (m := 64) x7) 64 0 (by omega), rowsT (acc2 (n := 192) (m := 64) x7) 64 64 (by omega), rowsT (acc2 (n := 192) (m := 64) x7) 64 128 (by omega)]
local notation "BI" => ![seg (acc1 (m := 192) x8) 64 0 (by omega), seg (acc1 (m := 192) x8) 64 64 (by omega), seg (acc1 (m := 192) x8) 64 128 (by omega)]
local notation "BH" => ![seg (acc1 (m := 192) x9) 64 0 (by omega), seg (acc1 (m := 192) x9) 64 64 (by omega), seg (acc1 (m := 192) x9) 64 128 (by omega)]
local notation "HH" => gruH (n := 100000) AGG XN WI WH BI BH

/-- Column `c` of the aggregate's product with the transposed input-gate matrix, plus the bias: the sum runs over the 64
    input coordinates, and the transposed matrix at (a, c) is the matrix at (c, a). -/
theorem pre_in (r : Fin 100000) (c : Fin 192) :
    val_main_v35 (F := Ideal) x0 x1 x2 x3 x4 x5 x6 x8 x16 (ix2 r c)
      = (∑ a : Fin 64, val_main_v30 (F := Ideal) x0 x1 x2 x3 x4 x5 x16 (ix2 r a) * x6 (ix2 c a)) + x8 (ix1 c) := by
  have el : ∀ k : Fin 64, lidx_main_v32 (ix2 r c) k = ix2 r k := fun k =>
    funext fun a => Fin.ext (by match a with | ⟨0, _⟩ => rfl | ⟨1, _⟩ => rfl)
  have er : ∀ k : Fin 64, idx_main_v31 (ridx_main_v32 (ix2 r c) k) = ix2 c k := fun k =>
    funext fun a => Fin.ext (by match a with | ⟨0, _⟩ => rfl | ⟨1, _⟩ => rfl)
  have eb : idx_main_v33 (idx_main_v34 (ix2 r c)) = ix1 c :=
    funext fun a => Fin.ext (by match a with | ⟨0, _⟩ => rfl)
  rw [val_main_v35_apply, val_main_v32_apply, val_main_v34_apply, val_main_v33_apply, Ideal.addf_def, eb]
  refine congrArg (· + x8 (ix1 c)) (Finset.sum_congr rfl fun k _ => ?_)
  rw [val_main_v31_apply, el, er]

/-- Column `c` of the node array's product with the transposed hidden-gate matrix, plus the bias. -/
theorem pre_hid (r : Fin 100000) (c : Fin 192) :
    val_main_v40 (F := Ideal) x0 x7 x9 (ix2 r c)
      = (∑ a : Fin 64, x0 (ix2 r a) * x7 (ix2 c a)) + x9 (ix1 c) := by
  have el : ∀ k : Fin 64, lidx_main_v37 (ix2 r c) k = ix2 r k := fun k =>
    funext fun a => Fin.ext (by match a with | ⟨0, _⟩ => rfl | ⟨1, _⟩ => rfl)
  have er : ∀ k : Fin 64, idx_main_v36 (ridx_main_v37 (ix2 r c) k) = ix2 c k := fun k =>
    funext fun a => Fin.ext (by match a with | ⟨0, _⟩ => rfl | ⟨1, _⟩ => rfl)
  have eb : idx_main_v38 (idx_main_v39 (ix2 r c)) = ix1 c :=
    funext fun a => Fin.ext (by match a with | ⟨0, _⟩ => rfl)
  rw [val_main_v40_apply, val_main_v37_apply, val_main_v39_apply, val_main_v38_apply, Ideal.addf_def, eb]
  refine congrArg (· + x9 (ix1 c)) (Finset.sum_congr rfl fun k _ => ?_)
  rw [val_main_v36_apply, el, er]

/-- The input side of the r gate at (r, j): columns 0..63 of the product, so weight rows 0..63 read transposed and bias entries 0..63. -/
theorem gi0 (r : Fin 100000) (j : Fin 64) :
    val_main_v41 (F := Ideal) x0 x1 x2 x3 x4 x5 x6 x8 x16 (ix2 r j)
      = (∑ a : Fin 64, AGG r a * rowsT (acc2 (n := 192) (m := 64) x6) 64 0 (by omega) a j) + seg (acc1 (m := 192) x8) 64 0 (by omega) j := by
  have e : idx_main_v41 (ix2 r j) = ix2 r (⟨0 + j.val, by have := j.isLt; omega⟩ : Fin 192) :=
    funext fun a => Fin.ext (by match a with | ⟨0, _⟩ => rfl | ⟨1, _⟩ => exact (Nat.zero_add _).symm)
  rw [val_main_v41_apply, e, pre_in]
  generalize val_main_v30 (F := Ideal) x0 x1 x2 x3 x4 x5 x16 = agg
  rfl

/-- The input side of the z gate at (r, j): columns 64..127 of the product. -/
theorem gi1 (r : Fin 100000) (j : Fin 64) :
    val_main_v42 (F := Ideal) x0 x1 x2 x3 x4 x5 x6 x8 x16 (ix2 r j)
      = (∑ a : Fin 64, AGG r a * rowsT (acc2 (n := 192) (m := 64) x6) 64 64 (by omega) a j) + seg (acc1 (m := 192) x8) 64 64 (by omega) j := by
  have e : idx_main_v42 (ix2 r j) = ix2 r (⟨64 + j.val, by have := j.isLt; omega⟩ : Fin 192) :=
    funext fun a => Fin.ext (by match a with | ⟨0, _⟩ => rfl | ⟨1, _⟩ => rfl)
  rw [val_main_v42_apply, e, pre_in]
  generalize val_main_v30 (F := Ideal) x0 x1 x2 x3 x4 x5 x16 = agg
  rfl

/-- The input side of the n gate at (r, j): columns 128..191 of the product. -/
theorem gi2 (r : Fin 100000) (j : Fin 64) :
    val_main_v43 (F := Ideal) x0 x1 x2 x3 x4 x5 x6 x8 x16 (ix2 r j)
      = (∑ a : Fin 64, AGG r a * rowsT (acc2 (n := 192) (m := 64) x6) 64 128 (by omega) a j) + seg (acc1 (m := 192) x8) 64 128 (by omega) j := by
  have e : idx_main_v43 (ix2 r j) = ix2 r (⟨128 + j.val, by have := j.isLt; omega⟩ : Fin 192) :=
    funext fun a => Fin.ext (by match a with | ⟨0, _⟩ => rfl | ⟨1, _⟩ => rfl)
  rw [val_main_v43_apply, e, pre_in]
  generalize val_main_v30 (F := Ideal) x0 x1 x2 x3 x4 x5 x16 = agg
  rfl

/-- The hidden side of the r gate at (r, j). -/
theorem gh0 (r : Fin 100000) (j : Fin 64) :
    val_main_v44 (F := Ideal) x0 x7 x9 (ix2 r j)
      = (∑ a : Fin 64, XN r a * rowsT (acc2 (n := 192) (m := 64) x7) 64 0 (by omega) a j) + seg (acc1 (m := 192) x9) 64 0 (by omega) j := by
  have e : idx_main_v44 (ix2 r j) = ix2 r (⟨0 + j.val, by have := j.isLt; omega⟩ : Fin 192) :=
    funext fun a => Fin.ext (by match a with | ⟨0, _⟩ => rfl | ⟨1, _⟩ => exact (Nat.zero_add _).symm)
  rw [val_main_v44_apply, e, pre_hid]
  rfl

/-- The hidden side of the z gate at (r, j). -/
theorem gh1 (r : Fin 100000) (j : Fin 64) :
    val_main_v45 (F := Ideal) x0 x7 x9 (ix2 r j)
      = (∑ a : Fin 64, XN r a * rowsT (acc2 (n := 192) (m := 64) x7) 64 64 (by omega) a j) + seg (acc1 (m := 192) x9) 64 64 (by omega) j := by
  have e : idx_main_v45 (ix2 r j) = ix2 r (⟨64 + j.val, by have := j.isLt; omega⟩ : Fin 192) :=
    funext fun a => Fin.ext (by match a with | ⟨0, _⟩ => rfl | ⟨1, _⟩ => rfl)
  rw [val_main_v45_apply, e, pre_hid]
  rfl

/-- The hidden side of the n gate at (r, j). -/
theorem gh2 (r : Fin 100000) (j : Fin 64) :
    val_main_v46 (F := Ideal) x0 x7 x9 (ix2 r j)
      = (∑ a : Fin 64, XN r a * rowsT (acc2 (n := 192) (m := 64) x7) 64 128 (by omega) a j) + seg (acc1 (m := 192) x9) 64 128 (by omega) j := by
  have e : idx_main_v46 (ix2 r j) = ix2 r (⟨128 + j.val, by have := j.isLt; omega⟩ : Fin 192) :=
    funext fun a => Fin.ext (by match a with | ⟨0, _⟩ => rfl | ⟨1, _⟩ => rfl)
  rw [val_main_v46_apply, e, pre_hid]
  rfl

/-- The GRU cell's new state at (r, j): the logistic is spelled 1 / (1 + exp (-·)), the words 1.0 stay words. The
    aggregate is kept as an unopened array throughout. -/
theorem h_at (r : Fin 100000) (j : Fin 64) :
    val_main_v68 (F := Ideal) x0 x1 x2 x3 x4 x5 x6 x7 x8 x9 x16 (ix2 r j) = HH r j := by
  rw [val_main_v68_apply, val_main_v67_apply, val_main_v66_apply, val_main_v65_apply, val_main_v64_apply,
    val_main_cst_7_apply, val_main_v63_apply, val_main_v62_apply, val_main_v61_apply, val_main_v60_apply,
    val_main_v59_apply, val_main_cst_6_apply, val_main_v58_apply, val_main_v57_apply, val_main_cst_5_apply,
    val_main_v56_apply, val_main_v55_apply, val_main_v54_apply, val_main_v53_apply, val_main_v52_apply,
    val_main_cst_4_apply, val_main_v51_apply, val_main_v50_apply, val_main_cst_3_apply, val_main_v49_apply,
    val_main_v48_apply, val_main_v47_apply, gi0, gi1, gi2, gh0, gh1, gh2]
  generalize val_main_v30 (F := Ideal) x0 x1 x2 x3 x4 x5 x16 = agg
  rfl

/-- The row mean at row r: the row sum starts from the zero word, which is the number zero, and is divided by the word 64.0. -/
theorem mean_at (r : Fin 100000) (z : Fin 1) :
    val_main_v72 (F := Ideal) x0 x1 x2 x3 x4 x5 x6 x7 x8 x9 x16 (ix2 r z) = rowMean HH r := by
  rw [val_main_v72_apply, val_main_v70_apply, val_main_v71_apply, val_main_cst_9_apply, val_main_v69_apply,
    val_main_cst_8_apply, Ideal.hostDivf_def, Ideal.ofBits_def, Ideal.ofBits_def, Ideal.ofBits_zero_f32, zero_add]
  unfold rowMean
  refine congrArg (fun s => Ideal.div s c64) (Finset.sum_congr rfl fun k _ => ?_)
  have e : idx_main_v69 (idx_main_v70 (ix2 r z)) k = ix2 r k :=
    funext fun a => Fin.ext (by match a with | ⟨0, _⟩ => rfl | ⟨1, _⟩ => rfl)
  rw [e, h_at]

/-- The centred state at (r, j), as the variance reads it. -/
theorem cen_at (r : Fin 100000) (j : Fin 64) :
    val_main_v74 (F := Ideal) x0 x1 x2 x3 x4 x5 x6 x7 x8 x9 x16 (ix2 r j) = HH r j - rowMean HH r := by
  have e : idx_main_v73 (ix2 r j) = ix2 r (0 : Fin 1) :=
    funext fun a => Fin.ext (by match a with | ⟨0, _⟩ => rfl | ⟨1, _⟩ => rfl)
  rw [val_main_v74_apply, val_main_v73_apply, Ideal.subf_def, e, mean_at, h_at]

/-- The centred state at (r, j), as the normalisation reads it (the same value, broadcast a second time). -/
theorem cen2_at (r : Fin 100000) (j : Fin 64) :
    val_main_v81 (F := Ideal) x0 x1 x2 x3 x4 x5 x6 x7 x8 x9 x16 (ix2 r j) = HH r j - rowMean HH r := by
  have e : idx_main_v80 (ix2 r j) = ix2 r (0 : Fin 1) :=
    funext fun a => Fin.ext (by match a with | ⟨0, _⟩ => rfl | ⟨1, _⟩ => rfl)
  rw [val_main_v81_apply, val_main_v80_apply, Ideal.subf_def, e, mean_at, h_at]

/-- The row variance at row r: the row sum of the squared centred state, from the zero word, divided by the word 64.0. -/
theorem var_at (r : Fin 100000) (z : Fin 1) :
    val_main_v79 (F := Ideal) x0 x1 x2 x3 x4 x5 x6 x7 x8 x9 x16 (ix2 r z)
      = Ideal.div (∑ q : Fin 64, (HH r q - rowMean HH r) * (HH r q - rowMean HH r)) c64 := by
  rw [val_main_v79_apply, val_main_v77_apply, val_main_v78_apply, val_main_cst_11_apply, val_main_v76_apply,
    val_main_cst_10_apply, Ideal.hostDivf_def, Ideal.ofBits_def, Ideal.ofBits_def, Ideal.ofBits_zero_f32, zero_add]
  refine congrArg (fun s => Ideal.div s c64) (Finset.sum_congr rfl fun k _ => ?_)
  have e : idx_main_v76 (idx_main_v77 (ix2 r z)) k = ix2 r k :=
    funext fun a => Fin.ext (by match a with | ⟨0, _⟩ => rfl | ⟨1, _⟩ => rfl)
  rw [e, val_main_v75_apply, Ideal.mulf_def, cen_at]

/-- The new node features at (r, j): centred state times rsqrt (variance + ε), times the scale, plus the shift. The
    cell's state enters only as an unopened function of (row, column). -/
theorem nodes_at (r : Fin 100000) (j : Fin 64) :
    val_main_v92 (F := Ideal) x0 x1 x2 x3 x4 x5 x6 x7 x8 x9 x10 x11 x16 (ix2 r j)
      = gruSpec (n := 100000) AGG XN WI WH BI BH (acc1 (m := 64) x10) (acc1 (m := 64) x11) r j := by
  have e85 : idx_main_v85 (ix2 r j) = ix2 r (0 : Fin 1) :=
    funext fun a => Fin.ext (by match a with | ⟨0, _⟩ => rfl | ⟨1, _⟩ => rfl)
  have e88 : idx_main_v87 (idx_main_v88 (ix2 r j)) = ix1 j :=
    funext fun a => Fin.ext (by match a with | ⟨0, _⟩ => rfl)
  have e91 : idx_main_v90 (idx_main_v91 (ix2 r j)) = ix1 j :=
    funext fun a => Fin.ext (by match a with | ⟨0, _⟩ => rfl)
  rw [val_main_v92_apply, val_main_v89_apply, val_main_v86_apply, val_main_v85_apply, val_main_v84_apply,
    val_main_v83_apply, val_main_v82_apply, val_main_cst_12_apply, val_main_v88_apply, val_main_v87_apply,
    val_main_v91_apply, val_main_v90_apply, e85, e88, e91, var_at, cen2_at]
  unfold gruSpec layerNorm
  generalize gruH (n := 100000) AGG XN WI WH BI BH = h
  rfl

end

/-- The reference's new node features are, index by index, the GRU cell and LayerNorm of the aggregated messages' row and
    the node's row: the reference multiplies by the whole transposed [192, 64] gate matrices and slices the three
    gates' 64 columns out afterwards, which reads each gate's weight block transposed and its bias segment. -/
theorem nodes (x0 : (⟨S100000x64, .f32⟩ : BufTy).Contents (Elt Ideal)) (x1 : (⟨S1600000x32, .f32⟩ : BufTy).Contents (Elt Ideal)) (x2 : (⟨S160x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x6 x7 : (⟨S192x64, .f32⟩ : BufTy).Contents (Elt Ideal)) (x8 x9 : (⟨S192, .f32⟩ : BufTy).Contents (Elt Ideal)) (x10 x11 : (⟨S64, .f32⟩ : BufTy).Contents (Elt Ideal)) (x16 : (⟨S2x1600000, .i32⟩ : BufTy).Contents (Elt Ideal)) :
    val_main_v92 (F := Ideal) x0 x1 x2 x3 x4 x5 x6 x7 x8 x9 x10 x11 x16 = fun i => gruSpec (n := 100000)
      (acc2 (n := 100000) (m := 64) (val_main_v30 (F := Ideal) x0 x1 x2 x3 x4 x5 x16)) (acc2 (n := 100000) (m := 64) x0)
      ![rowsT (acc2 (n := 192) (m := 64) x6) 64 0 (by omega), rowsT (acc2 (n := 192) (m := 64) x6) 64 64 (by omega), rowsT (acc2 (n := 192) (m := 64) x6) 64 128 (by omega)]
      ![rowsT (acc2 (n := 192) (m := 64) x7) 64 0 (by omega), rowsT (acc2 (n := 192) (m := 64) x7) 64 64 (by omega), rowsT (acc2 (n := 192) (m := 64) x7) 64 128 (by omega)]
      ![seg (acc1 (m := 192) x8) 64 0 (by omega), seg (acc1 (m := 192) x8) 64 64 (by omega), seg (acc1 (m := 192) x8) 64 128 (by omega)]
      ![seg (acc1 (m := 192) x9) 64 0 (by omega), seg (acc1 (m := 192) x9) 64 64 (by omega), seg (acc1 (m := 192) x9) 64 128 (by omega)]
      (acc1 (m := 64) x10) (acc1 (m := 64) x11) (i 0) (i 1) := by
  funext i
  obtain ⟨r, j, rfl⟩ : ∃ (r : Fin 100000) (j : Fin 64), i = ix2 r j := ⟨i 0, i 1, eq_ix2 i⟩
  exact nodes_at x0 x1 x2 x3 x4 x5 x6 x7 x8 x9 x10 x11 x16 r j

end Cert.ReferenceIdeal.RefGru

end
-- ==== Proof.RefEdge.lean ====
import proofs.«406467_j15685220565559_1_alg».proof.Proof.Gen.ReferenceIdeal.Read
import proofs.«406467_j15685220565559_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefEdge

open Cert.ReferenceIdeal Cert.ReferenceIdeal.Gen Cert.ReferenceIdeal.Read Cert.Spec
open Idealize.ShloMosaic Idealize.ShloMosaic.TcCoe Idealize.SL.Sem Idealize.ShloMosaic.ValueIdx

section Cat
variable {α : Type}

/-- Columns 0 … 63 of the joined row are the first piece's. -/
theorem cat_fst (u v : S1600000x64.Idx → α) (w : S1600000x32.Idx → α)
    (h : Shape.Concatenates ([(⟨S1600000x64, u⟩ : (s : Shape) × (s.Idx → α)), ⟨S1600000x64, v⟩, ⟨S1600000x32, w⟩].map (·.1)) S1600000x160 1)
    (r : Fin 1600000) (a : Fin 64) :
    concatenate S1600000x160 1 [⟨S1600000x64, u⟩, ⟨S1600000x64, v⟩, ⟨S1600000x32, w⟩] h (ix2 r ⟨a.val, by omega⟩) = u (ix2 r a) := by
  refine concatenate_apply_piece 1 _ h _ 0 (show (0 : Nat) < 3 by omega) S1600000x64 u rfl rfl 0 rfl (ix2 r a) ?_ ?_
  · intro b hb
    match b with
    | ⟨0, _⟩ => rfl
    | ⟨1, _⟩ => exact absurd rfl hb
  · show 0 + a.val = a.val
    omega

/-- Columns 64 … 127 are the second piece's. -/
theorem cat_snd (u v : S1600000x64.Idx → α) (w : S1600000x32.Idx → α)
    (h : Shape.Concatenates ([(⟨S1600000x64, u⟩ : (s : Shape) × (s.Idx → α)), ⟨S1600000x64, v⟩, ⟨S1600000x32, w⟩].map (·.1)) S1600000x160 1)
    (r : Fin 1600000) (a : Fin 64) :
    concatenate S1600000x160 1 [⟨S1600000x64, u⟩, ⟨S1600000x64, v⟩, ⟨S1600000x32, w⟩] h (ix2 r ⟨64 + a.val, by omega⟩) = v (ix2 r a) := by
  refine concatenate_apply_piece 1 _ h _ 1 (show (1 : Nat) < 3 by omega) S1600000x64 v rfl rfl 64 rfl (ix2 r a) ?_ ?_
  · intro b hb
    match b with
    | ⟨0, _⟩ => rfl
    | ⟨1, _⟩ => exact absurd rfl hb
  · show 64 + a.val = 64 + a.val
    rfl

/-- Columns 128 … 159 are the third piece's. -/
theorem cat_trd (u v : S1600000x64.Idx → α) (w : S1600000x32.Idx → α)
    (h : Shape.Concatenates ([(⟨S1600000x64, u⟩ : (s : Shape) × (s.Idx → α)), ⟨S1600000x64, v⟩, ⟨S1600000x32, w⟩].map (·.1)) S1600000x160 1)
    (r : Fin 1600000) (a : Fin 32) :
    concatenate S1600000x160 1 [⟨S1600000x64, u⟩, ⟨S1600000x64, v⟩, ⟨S1600000x32, w⟩] h (ix2 r ⟨128 + a.val, by omega⟩) = w (ix2 r a) := by
  refine concatenate_apply_piece 1 _ h _ 2 (show (2 : Nat) < 3 by omega) S1600000x32 w rfl rfl 128 rfl (ix2 r a) ?_ ?_
  · intro b hb
    match b with
    | ⟨0, _⟩ => rfl
    | ⟨1, _⟩ => exact absurd rfl hb
  · show 128 + a.val = 128 + a.val
    rfl

end Cat

/-- The first layer on a joined row: a 160-term row-by-column sum whose left factor is given block by block, plus the
    bias, then `max · 0`, is `hidden` of the three pieces and the three matching row blocks of the matrix. -/
theorem hidden_of_blocks (cat : S1600000x160.Idx → EReal) (u v : S1600000x64.Idx → EReal) (w : S1600000x32.Idx → EReal)
    (m : S160x128.Idx → EReal) (b : S128.Idx → EReal)
    (h0 : ∀ (r : Fin 1600000) (a : Fin 64), cat (ix2 r ⟨a.val, by omega⟩) = u (ix2 r a))
    (h1 : ∀ (r : Fin 1600000) (a : Fin 64), cat (ix2 r ⟨64 + a.val, by omega⟩) = v (ix2 r a))
    (h2 : ∀ (r : Fin 1600000) (a : Fin 32), cat (ix2 r ⟨128 + a.val, by omega⟩) = w (ix2 r a))
    (r : Fin 1600000) (k : Fin 128) :
    max ((∑ c : Fin 160, cat (ix2 r c) * m (ix2 c k)) + b (ix1 k)) 0
      = hidden (n := 1600000) (acc2 (n := 1600000) (m := 64) u) (acc2 (n := 1600000) (m := 64) v) (acc2 (n := 1600000) (m := 32) w)
          (rows (acc2 (n := 160) (m := 128) m) 64 0 (by omega)) (rows (acc2 (n := 160) (m := 128) m) 64 64 (by omega))
          (rows (acc2 (n := 160) (m := 128) m) 32 128 (by omega)) (acc1 (m := 128) b) r k := by
  unfold Cert.Spec.hidden
  rw [sum_three_blocks]
  refine congrArg₂ max (congrArg₂ (· + ·) (congrArg₂ (· + ·) (congrArg₂ (· + ·) ?_ ?_) ?_) rfl) rfl
  · refine Finset.sum_congr rfl fun a _ => ?_
    rw [h0]
    show u (ix2 r a) * m (ix2 ⟨a.val, _⟩ k) = u (ix2 r a) * m (ix2 ⟨0 + a.val, _⟩ k)
    simp only [Nat.zero_add]
  · refine Finset.sum_congr rfl fun a _ => ?_
    rw [h1]
    rfl
  · refine Finset.sum_congr rfl fun a _ => ?_
    rw [h2]
    rfl

/-- The hidden layer of the edge MLP (operations %107, %118, %120, %121, %122) at row `r`, column `k`: the first
    layer of the Spec on the two gathered rows and the edge row, with the three row blocks of the [160, 128] matrix. -/
theorem hiddenRow (x0 : (⟨S100000x64, .f32⟩ : BufTy).Contents (Elt Ideal)) (x1 : (⟨S1600000x32, .f32⟩ : BufTy).Contents (Elt Ideal)) (x2 : (⟨S160x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x6 x7 : (⟨S192x64, .f32⟩ : BufTy).Contents (Elt Ideal)) (x8 x9 : (⟨S192, .f32⟩ : BufTy).Contents (Elt Ideal)) (x10 x11 : (⟨S64, .f32⟩ : BufTy).Contents (Elt Ideal)) (x12 : (⟨S160x128, .f32⟩ : BufTy).Contents (Elt Ideal)) (x13 : (⟨S128, .f32⟩ : BufTy).Contents (Elt Ideal)) (x16 : (⟨S2x1600000, .i32⟩ : BufTy).Contents (Elt Ideal)) (r : Fin 1600000) (k : Fin 128) :
    val_main_v122 (F := Ideal) x0 x1 x2 x3 x4 x5 x6 x7 x8 x9 x10 x11 x12 x13 x16 (ix2 r k)
      = Cert.Spec.hidden (n := 1600000) (acc2 (n := 1600000) (m := 64) (val_main_v99 (F := Ideal) x0 x1 x2 x3 x4 x5 x6 x7 x8 x9 x10 x11 x16))
          (acc2 (n := 1600000) (m := 64) (val_main_v106 (F := Ideal) x0 x1 x2 x3 x4 x5 x6 x7 x8 x9 x10 x11 x16))
          (acc2 (n := 1600000) (m := 32) x1)
          (rows (acc2 (n := 160) (m := 128) x12) 64 0 (by omega)) (rows (acc2 (n := 160) (m := 128) x12) 64 64 (by omega))
          (rows (acc2 (n := 160) (m := 128) x12) 32 128 (by omega)) (acc1 (m := 128) x13) r k := by
  rw [val_main_v122_apply, val_main_v121_apply, val_main_v118_apply, val_main_v120_apply, val_main_v119_apply,
    val_main_call3_v0_apply, val_main_call3_cst_apply]
  -- the index functions of the two operands of the row-by-column sum, and of the bias, at explicit coordinates
  have hl : ∀ c : Fin 160, lidx_main_v118 (ix2 r k) c = ix2 r c := fun c =>
    funext fun a => Fin.ext (by match a with | ⟨0, _⟩ => rfl | ⟨1, _⟩ => rfl)
  have hr : ∀ c : Fin 160, ridx_main_v118 (ix2 r k) c = ix2 c k := fun c =>
    funext fun a => Fin.ext (by match a with | ⟨0, _⟩ => rfl | ⟨1, _⟩ => rfl)
  have hb : idx_main_v119 (idx_main_v120 (ix2 r k)) = ix1 k :=
    funext fun a => Fin.ext (by match a with | ⟨0, _⟩ => rfl)
  have hs : (∑ c : Fin 160, val_main_v107 (F := Ideal) x0 x1 x2 x3 x4 x5 x6 x7 x8 x9 x10 x11 x16 (lidx_main_v118 (ix2 r k) c) * x12 (ridx_main_v118 (ix2 r k) c))
      = ∑ c : Fin 160, val_main_v107 (F := Ideal) x0 x1 x2 x3 x4 x5 x6 x7 x8 x9 x10 x11 x16 (ix2 r c) * x12 (ix2 c k) :=
    Finset.sum_congr rfl fun c _ => by rw [hl, hr]
  rw [hs, hb, Ideal.maximumf_def, Ideal.addf_def, Ideal.ofBits_def, Ideal.ofBits_zero_f32]
  exact hidden_of_blocks (val_main_v107 (F := Ideal) x0 x1 x2 x3 x4 x5 x6 x7 x8 x9 x10 x11 x16) (val_main_v99 (F := Ideal) x0 x1 x2 x3 x4 x5 x6 x7 x8 x9 x10 x11 x16)
    (val_main_v106 (F := Ideal) x0 x1 x2 x3 x4 x5 x6 x7 x8 x9 x10 x11 x16) x1 x12 x13
    (fun r a => by unfold val_main_v107; exact cat_fst _ _ _ _ r a)
    (fun r a => by unfold val_main_v107; exact cat_snd _ _ _ _ r a)
    (fun r a => by unfold val_main_v107; exact cat_trd _ _ _ _ r a) r k

/-- The reference's updated edge features are, index by index, the edge MLP with residual of the two gathered new node
    rows and the edge row (the same reading as for the messages, with the residual and the final `max · 0`). -/
theorem edges (x0 : (⟨S100000x64, .f32⟩ : BufTy).Contents (Elt Ideal)) (x1 : (⟨S1600000x32, .f32⟩ : BufTy).Contents (Elt Ideal)) (x2 : (⟨S160x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x6 x7 : (⟨S192x64, .f32⟩ : BufTy).Contents (Elt Ideal)) (x8 x9 : (⟨S192, .f32⟩ : BufTy).Contents (Elt Ideal)) (x10 x11 : (⟨S64, .f32⟩ : BufTy).Contents (Elt Ideal)) (x12 : (⟨S160x128, .f32⟩ : BufTy).Contents (Elt Ideal)) (x13 : (⟨S128, .f32⟩ : BufTy).Contents (Elt Ideal)) (x14 : (⟨S128x32, .f32⟩ : BufTy).Contents (Elt Ideal)) (x15 : (⟨S32, .f32⟩ : BufTy).Contents (Elt Ideal)) (x16 : (⟨S2x1600000, .i32⟩ : BufTy).Contents (Elt Ideal)) :
    val_main_v128 (F := Ideal) x0 x1 x2 x3 x4 x5 x6 x7 x8 x9 x10 x11 x12 x13 x14 x15 x16 = fun i => edgeSpec (n := 1600000)
      (acc2 (n := 1600000) (m := 64) (val_main_v99 (F := Ideal) x0 x1 x2 x3 x4 x5 x6 x7 x8 x9 x10 x11 x16))
      (acc2 (n := 1600000) (m := 64) (val_main_v106 (F := Ideal) x0 x1 x2 x3 x4 x5 x6 x7 x8 x9 x10 x11 x16))
      (acc2 (n := 1600000) (m := 32) x1)
      (rows (acc2 (n := 160) (m := 128) x12) 64 0 (by omega)) (rows (acc2 (n := 160) (m := 128) x12) 64 64 (by omega)) (rows (acc2 (n := 160) (m := 128) x12) 32 128 (by omega))
      (acc1 (m := 128) x13) (acc2 (n := 128) (m := 32) x14) (acc1 (m := 32) x15) (i 0) (i 1) := by
  funext i
  obtain ⟨r, j, rfl⟩ : ∃ r j, i = ix2 r j := ⟨i 0, i 1, eq_ix2 i⟩
  rw [val_main_v128_apply, val_main_v127_apply, val_main_v126_apply, val_main_v123_apply, val_main_v125_apply,
    val_main_v124_apply, val_main_call4_v0_apply, val_main_call4_cst_apply]
  have hl : ∀ k : Fin 128, lidx_main_v123 (ix2 r j) k = ix2 r k := fun k =>
    funext fun a => Fin.ext (by match a with | ⟨0, _⟩ => rfl | ⟨1, _⟩ => rfl)
  have hr : ∀ k : Fin 128, ridx_main_v123 (ix2 r j) k = ix2 k j := fun k =>
    funext fun a => Fin.ext (by match a with | ⟨0, _⟩ => rfl | ⟨1, _⟩ => rfl)
  have hb : idx_main_v124 (idx_main_v125 (ix2 r j)) = ix1 j :=
    funext fun a => Fin.ext (by match a with | ⟨0, _⟩ => rfl)
  rw [hb, Ideal.maximumf_def, Ideal.addf_def, Ideal.addf_def, Ideal.ofBits_def, Ideal.ofBits_zero_f32]
  show _ = Cert.Spec.edgeSpec (n := 1600000) _ _ _ _ _ _ _ _ _ r j
  unfold Cert.Spec.edgeSpec
  refine congrArg₂ max (congrArg₂ (· + ·) (congrArg₂ (· + ·) (Finset.sum_congr rfl fun k _ => ?_) rfl) rfl) rfl
  rw [hl, hr, hiddenRow]

end Cert.ReferenceIdeal.RefEdge

end
-- ==== Proof.Assembly.lean ====
/-
  The value of the kernel program against the reference, stage by stage, on one memory `m` that satisfies the
  precondition.  Each region's output array is the stage's row-wise function of what the region finds
  (Region0Value / Region1Value / Region2Value); what it finds is read back through the host operations to the
  arguments (KHost0 / KHost1 / KHost2), where under the precondition every take is the plain gather (TakeEq); and the
  reference's arrays are the same functions of the same accessors (RefMsg / RefGru / RefEdge).  So, in order:
  the messages agree; hence their segment sums; hence the new node features; hence their gathered rows and the new
  edge features.
-/
import proofs.«406467_j15685220565559_1_alg».proof.Defs
import proofs.«406467_j15685220565559_1_alg».proof.Proof.Gen.KernelIdeal.Frame
import proofs.«406467_j15685220565559_1_alg».proof.Proof.Gen.ReferenceIdeal.Run
import proofs.«406467_j15685220565559_1_alg».proof.Proof.Gen.ReferenceIdeal.Read
import proofs.«406467_j15685220565559_1_alg».proof.Proof.Gen.Pre_finite_inputs
import proofs.«406467_j15685220565559_1_alg».proof.Proof.Spec
import proofs.«406467_j15685220565559_1_alg».proof.Proof.KTerms
import proofs.«406467_j15685220565559_1_alg».proof.Proof.KRun
import proofs.«406467_j15685220565559_1_alg».proof.Proof.Region0Value
import proofs.«406467_j15685220565559_1_alg».proof.Proof.Region1Value
import proofs.«406467_j15685220565559_1_alg».proof.Proof.Region2Value
import proofs.«406467_j15685220565559_1_alg».proof.Proof.KHost0
import proofs.«406467_j15685220565559_1_alg».proof.Proof.KHost1
import proofs.«406467_j15685220565559_1_alg».proof.Proof.KHost2
import proofs.«406467_j15685220565559_1_alg».proof.Proof.TakeEq
import proofs.«406467_j15685220565559_1_alg».proof.Proof.RefMsg
import proofs.«406467_j15685220565559_1_alg».proof.Proof.RefGru
import proofs.«406467_j15685220565559_1_alg».proof.Proof.RefEdge

set_option maxRecDepth 16384

noncomputable section

namespace Cert.Proof.Stages

open Idealize.ShloMosaic Idealize.ShloMosaic.TcCoe Idealize.SL.Sem
open Cert.Spec Cert.KernelIdeal.Host

-- the two programs' namespaces, abbreviated
local notation "K.nD" => Cert.KernelIdeal.nD
local notation "K.τ" => Cert.KernelIdeal.τ
local notation "K.sig" => Cert.KernelIdeal.sig

namespace K
export Cert.KernelIdeal (main_arg0 main_arg1 main_arg2 main_arg3 main_arg4 main_arg5 main_arg6 main_arg7 main_arg8 main_arg9 main_arg10
  main_arg11 main_arg12 main_arg13 main_arg14 main_arg15 main_arg16 main_v11 main_v14 main_v41 main_v49)
end K

open Cert.KernelIdeal.Gen (V4 V6 V10 W5 W7 W11 W5_arr W7_arr W11_arr)

variable (m : (ℓ : Loc K.nD K.τ K.sig) → Buf (Elt Ideal) ℓ) (ρ : Dev K.nD → PrngReg)

/-! ## The two programs spell the index normalisation, the gather and the segment sum with the same operations -/

theorem wrap_src (x16 : IVec Cert.KernelIdeal.S2x1600000 32) : wrapIdx (srcIdx x16) = Cert.ReferenceIdeal.Read.val_main_v9 (F := Ideal) x16 := rfl
theorem wrap_tgt (x16 : IVec Cert.KernelIdeal.S2x1600000 32) : wrapIdx (tgtIdx x16) = Cert.ReferenceIdeal.Read.val_main_v16 (F := Ideal) x16 := rfl
theorem wrap_src' (x16 : IVec Cert.KernelIdeal.S2x1600000 32) : wrapIdx (srcIdx x16) = Cert.ReferenceIdeal.Read.val_main_v98 (F := Ideal) x16 := rfl
theorem wrap_tgt' (x16 : IVec Cert.KernelIdeal.S2x1600000 32) : wrapIdx (tgtIdx x16) = Cert.ReferenceIdeal.Read.val_main_v105 (F := Ideal) x16 := rfl
theorem gather_eq : Cert.KernelIdeal.gather_S100000x64_S1600000x1_S1600000x64_1_0_n_n_0_1_164 = Cert.ReferenceIdeal.gather_S100000x64_S1600000x1_S1600000x64_1_0_n_n_0_1_164 := rfl
theorem segSum_eq (x16 : IVec Cert.KernelIdeal.S2x1600000 32) (u : FVec Ideal Cert.KernelIdeal.S1600000x64 .f32) :
    segSum (F := Ideal) (tgtIdx x16) u
      = Host.scatterAdd Cert.ReferenceIdeal.scatter_S100000x64_S1600000x1_S1600000x64_1_0_0_1 (Cert.ReferenceIdeal.Read.val_main_v28 (F := Ideal))
          (Cert.ReferenceIdeal.Read.val_main_v29 (F := Ideal) x16) u := rfl

/-! ## The stages -/

/-- The messages: the message region's output array is the reference's messages array. -/
theorem msg_eq (h : Cert.Pre_KernelIdeal m) (c : Dev K.nD) :
    W5 m ρ c (Proc.devRef .tc K.main_v11) = Cert.ReferenceIdeal.Read.val_main_v27 (F := Ideal) (m ((c : Thread K.nD K.τ).loc K.main_arg0)) (m ((c : Thread K.nD K.τ).loc K.main_arg1)) (m ((c : Thread K.nD K.τ).loc K.main_arg2)) (m ((c : Thread K.nD K.τ).loc K.main_arg3)) (m ((c : Thread K.nD K.τ).loc K.main_arg4)) (m ((c : Thread K.nD K.τ).loc K.main_arg5)) (m ((c : Thread K.nD K.τ).loc K.main_arg16)) := by
  refine (W5_arr m ρ c 9).trans ((Cert.KernelIdeal.Region0.final (V4 m ρ) c).trans ?_)
  rw [Cert.ReferenceIdeal.RefMsg.messages]
  rw [Cert.KernelIdeal.Host0.V4_v4, Cert.KernelIdeal.Host0.V4_v5, Cert.KernelIdeal.Host0.V4_arg1, Cert.KernelIdeal.Host0.V4_arg4,
    Cert.KernelIdeal.Host0.V4_v6, Cert.KernelIdeal.Host0.V4_v7, Cert.KernelIdeal.Host0.V4_v8, Cert.KernelIdeal.Host0.V4_v9, Cert.KernelIdeal.Host0.V4_v10,
    Cert.KernelIdeal.TakeEq.take_src m h c, Cert.KernelIdeal.TakeEq.take_tgt m h c, wrap_src, wrap_tgt]
  rfl

/-- Their segment sums: what the node-update region finds as its aggregate is the reference's aggregate. -/
theorem agg_eq (h : Cert.Pre_KernelIdeal m) (c : Dev K.nD) :
    V6 m ρ c K.main_v14 = Cert.ReferenceIdeal.Read.val_main_v30 (F := Ideal) (m ((c : Thread K.nD K.τ).loc K.main_arg0)) (m ((c : Thread K.nD K.τ).loc K.main_arg1)) (m ((c : Thread K.nD K.τ).loc K.main_arg2)) (m ((c : Thread K.nD K.τ).loc K.main_arg3)) (m ((c : Thread K.nD K.τ).loc K.main_arg4)) (m ((c : Thread K.nD K.τ).loc K.main_arg5)) (m ((c : Thread K.nD K.τ).loc K.main_arg16)) := by
  rw [Cert.KernelIdeal.Host1.V6_v14, msg_eq m ρ h c, segSum_eq]
  rfl

/-- The new node features. -/
theorem node_eq (h : Cert.Pre_KernelIdeal m) (c : Dev K.nD) :
    W7 m ρ c (Proc.devRef .tc K.main_v41) = Cert.ReferenceIdeal.Read.val_main_v92 (F := Ideal) (m ((c : Thread K.nD K.τ).loc K.main_arg0)) (m ((c : Thread K.nD K.τ).loc K.main_arg1)) (m ((c : Thread K.nD K.τ).loc K.main_arg2)) (m ((c : Thread K.nD K.τ).loc K.main_arg3)) (m ((c : Thread K.nD K.τ).loc K.main_arg4)) (m ((c : Thread K.nD K.τ).loc K.main_arg5)) (m ((c : Thread K.nD K.τ).loc K.main_arg6)) (m ((c : Thread K.nD K.τ).loc K.main_arg7)) (m ((c : Thread K.nD K.τ).loc K.main_arg8)) (m ((c : Thread K.nD K.τ).loc K.main_arg9)) (m ((c : Thread K.nD K.τ).loc K.main_arg10)) (m ((c : Thread K.nD K.τ).loc K.main_arg11)) (m ((c : Thread K.nD K.τ).loc K.main_arg16)) := by
  refine (W7_arr m ρ c 16).trans ((Cert.KernelIdeal.Region1.final (V6 m ρ) c).trans ?_)
  refine Eq.trans ?_ (Cert.ReferenceIdeal.RefGru.nodes (m ((c : Thread K.nD K.τ).loc K.main_arg0)) (m ((c : Thread K.nD K.τ).loc K.main_arg1)) (m ((c : Thread K.nD K.τ).loc K.main_arg2)) (m ((c : Thread K.nD K.τ).loc K.main_arg3)) (m ((c : Thread K.nD K.τ).loc K.main_arg4)) (m ((c : Thread K.nD K.τ).loc K.main_arg5)) (m ((c : Thread K.nD K.τ).loc K.main_arg6)) (m ((c : Thread K.nD K.τ).loc K.main_arg7)) (m ((c : Thread K.nD K.τ).loc K.main_arg8)) (m ((c : Thread K.nD K.τ).loc K.main_arg9)) (m ((c : Thread K.nD K.τ).loc K.main_arg10)) (m ((c : Thread K.nD K.τ).loc K.main_arg11)) (m ((c : Thread K.nD K.τ).loc K.main_arg16))).symm
  simp only [agg_eq m ρ h c, Cert.KernelIdeal.Host1.V6_arg0 m ρ c, Cert.KernelIdeal.Host1.V6_v27 m ρ c, Cert.KernelIdeal.Host1.V6_v28 m ρ c, Cert.KernelIdeal.Host1.V6_v29 m ρ c, Cert.KernelIdeal.Host1.V6_v30 m ρ c, Cert.KernelIdeal.Host1.V6_v31 m ρ c, Cert.KernelIdeal.Host1.V6_v32 m ρ c, Cert.KernelIdeal.Host1.V6_v33 m ρ c, Cert.KernelIdeal.Host1.V6_v34 m ρ c, Cert.KernelIdeal.Host1.V6_v35 m ρ c, Cert.KernelIdeal.Host1.V6_v36 m ρ c, Cert.KernelIdeal.Host1.V6_v37 m ρ c, Cert.KernelIdeal.Host1.V6_v38 m ρ c, Cert.KernelIdeal.Host1.V6_v39 m ρ c, Cert.KernelIdeal.Host1.V6_v40 m ρ c]
  rfl

/-- The new edge features. -/
theorem edge_eq (h : Cert.Pre_KernelIdeal m) (c : Dev K.nD) :
    W11 m ρ c (Proc.devRef .tc K.main_v49) = Cert.ReferenceIdeal.Read.val_main_v128 (F := Ideal) (m ((c : Thread K.nD K.τ).loc K.main_arg0)) (m ((c : Thread K.nD K.τ).loc K.main_arg1)) (m ((c : Thread K.nD K.τ).loc K.main_arg2)) (m ((c : Thread K.nD K.τ).loc K.main_arg3)) (m ((c : Thread K.nD K.τ).loc K.main_arg4)) (m ((c : Thread K.nD K.τ).loc K.main_arg5)) (m ((c : Thread K.nD K.τ).loc K.main_arg6)) (m ((c : Thread K.nD K.τ).loc K.main_arg7)) (m ((c : Thread K.nD K.τ).loc K.main_arg8)) (m ((c : Thread K.nD K.τ).loc K.main_arg9)) (m ((c : Thread K.nD K.τ).loc K.main_arg10)) (m ((c : Thread K.nD K.τ).loc K.main_arg11)) (m ((c : Thread K.nD K.τ).loc K.main_arg12)) (m ((c : Thread K.nD K.τ).loc K.main_arg13)) (m ((c : Thread K.nD K.τ).loc K.main_arg14)) (m ((c : Thread K.nD K.τ).loc K.main_arg15)) (m ((c : Thread K.nD K.τ).loc K.main_arg16)) := by
  refine (W11_arr m ρ c 9).trans ((Cert.KernelIdeal.Region2.final (V10 m ρ) c).trans ?_)
  rw [Cert.ReferenceIdeal.RefEdge.edges]
  rw [Cert.KernelIdeal.Host2.V10_v42, Cert.KernelIdeal.Host2.V10_v43, node_eq m ρ h c,
    Cert.KernelIdeal.Host2.V10_arg1, Cert.KernelIdeal.Host2.V10_arg14,
    Cert.KernelIdeal.Host2.V10_v44, Cert.KernelIdeal.Host2.V10_v45, Cert.KernelIdeal.Host2.V10_v46, Cert.KernelIdeal.Host2.V10_v47, Cert.KernelIdeal.Host2.V10_v48,
    Cert.KernelIdeal.TakeEq.take_src m h c, Cert.KernelIdeal.TakeEq.take_tgt m h c, wrap_src', wrap_tgt']
  rfl

/-- The node features as @main returns them (the edge-update region does not write them). -/
theorem node_out_eq (h : Cert.Pre_KernelIdeal m) (c : Dev K.nD) :
    W11 m ρ c (Proc.devRef .tc K.main_v41) = Cert.ReferenceIdeal.Read.val_main_v92 (F := Ideal) (m ((c : Thread K.nD K.τ).loc K.main_arg0)) (m ((c : Thread K.nD K.τ).loc K.main_arg1)) (m ((c : Thread K.nD K.τ).loc K.main_arg2)) (m ((c : Thread K.nD K.τ).loc K.main_arg3)) (m ((c : Thread K.nD K.τ).loc K.main_arg4)) (m ((c : Thread K.nD K.τ).loc K.main_arg5)) (m ((c : Thread K.nD K.τ).loc K.main_arg6)) (m ((c : Thread K.nD K.τ).loc K.main_arg7)) (m ((c : Thread K.nD K.τ).loc K.main_arg8)) (m ((c : Thread K.nD K.τ).loc K.main_arg9)) (m ((c : Thread K.nD K.τ).loc K.main_arg10)) (m ((c : Thread K.nD K.τ).loc K.main_arg11)) (m ((c : Thread K.nD K.τ).loc K.main_arg16)) :=
  (Cert.KernelIdeal.Host2.W11_v41 m ρ c).trans (node_eq m ρ h c)

end Cert.Proof.Stages

end
-- ==== Proof.lean ====
/-
  One graph-network layer on 100000 nodes and 1600000 edges: a message MLP on [source row | target row | edge row], the
  messages summed into their target nodes, a GRU cell on (aggregate, node row) followed by a LayerNorm over the 64
  features, and an edge MLP with residual on the gathered new node rows.  The kernel program runs the three row-wise
  stages as three pipelined regions (row blocks of 8000, 5000 and 8000) and leaves the gathers and the segment sum to
  host operations; the reference is one host program.

  At the extended reals the two compute the same arrays.  The first layer of either MLP is, in the kernel, three products
  with the three row blocks of the weight matrix and, in the reference, one product of the concatenated row with the
  whole matrix: a sum over 160 coordinates split into its blocks of 64, 64 and 32 (associativity and commutativity of
  addition only).  The GRU gates are, in the kernel, products with each gate's transposed 64 × 64 block and, in the
  reference, one product with the transposed [192, 64] matrix sliced afterwards: the same entries.  The one-operation
  logistic is 1 / (1 + e^(-x)), which is how the reference spells it.  Every other operation is the same on both sides.

  The node arrays are gathered at rows named by the edge list.  The kernel program's take replaces a row whose number is
  out of range by a fill value where the reference's indexing clamps the number, so the statement carries the evident
  domain of the edge list, 0 ≤ word < 100000: under it the range test of every take holds and both sides gather the same
  rows.  The finiteness of the float inputs is not used.

  Frames: the two kernel programs' are the generated frame certificates; the reference's is its generated run with the
  results dropped.  The ideal pass rewrote nothing, so `preserves` is trivial.
-/
import proofs.«406467_j15685220565559_1_alg».proof.Defs
import proofs.«406467_j15685220565559_1_alg».proof.Proof.Gen.Kernel
import proofs.«406467_j15685220565559_1_alg».proof.Proof.Gen.Kernel.Skeleton
import proofs.«406467_j15685220565559_1_alg».proof.Proof.Gen.Kernel.Launch
import proofs.«406467_j15685220565559_1_alg».proof.Proof.Gen.Kernel.Points
import proofs.«406467_j15685220565559_1_alg».proof.Proof.Gen.Kernel.Frame
import proofs.«406467_j15685220565559_1_alg».proof.Proof.Gen.KernelIdeal
import proofs.«406467_j15685220565559_1_alg».proof.Proof.Gen.KernelIdeal.Skeleton
import proofs.«406467_j15685220565559_1_alg».proof.Proof.Gen.KernelIdeal.Launch
import proofs.«406467_j15685220565559_1_alg».proof.Proof.Gen.KernelIdeal.Points
import proofs.«406467_j15685220565559_1_alg».proof.Proof.Gen.KernelIdeal.Frame
import proofs.«406467_j15685220565559_1_alg».proof.Proof.Gen.ReferenceIdeal
import proofs.«406467_j15685220565559_1_alg».proof.Proof.Gen.ReferenceIdeal.Run
import proofs.«406467_j15685220565559_1_alg».proof.Proof.Gen.ReferenceIdeal.Read
import proofs.«406467_j15685220565559_1_alg».proof.Proof.Gen.Pre_finite_inputs
import proofs.«406467_j15685220565559_1_alg».proof.Proof.KRun
import proofs.«406467_j15685220565559_1_alg».proof.Proof.Assembly
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the reference's two arrays of the (agreeing) arguments: the kernel program by the stages
    (`Cert.Proof.Stages`), the reference by its run. -/
theorem algebraic : Cert.algebraic_KernelIdeal_ReferenceIdeal := by
  intro m ρ m' ρ' hpre hagree
  refine ⟨fun c => Cert.ReferenceIdeal.Read.val_main_v92 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg16)),
    fun c => Cert.ReferenceIdeal.Read.val_main_v128 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run Cert.KernelIdeal.defs _ _).mono
      (fun r h c => ⟨(h c).1.trans (Cert.Proof.Stages.node_out_eq m ρ hpre c), (h c).2.1.trans (Cert.Proof.Stages.edge_eq m ρ hpre c), (h c).2.2⟩)
      (Cert.KernelIdeal.Run.run (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v92_eq]
      obtain ⟨e0, e1, e2, e3, e4, e5, e6, e7, e8, e9, e10, e11, e12, e13, e14, e15, e16⟩ := hagree c
      rw [e0, e1, e2, e3, e4, e5, e6, e7, e8, e9, e10, e11, e16]
    · rw [Cert.ReferenceIdeal.Read.val_main_v128_eq]
      obtain ⟨e0, e1, e2, e3, e4, e5, e6, e7, e8, e9, e10, e11, e12, e13, e14, e15, e16⟩ := hagree c
      rw [e0, e1, e2, e3, e4, e5, e6, e7, e8, e9, e10, e11, e12, e13, e14, e15, e16]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
